-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  main_v3
-- ==== Kernel.lean ====
abbrev S512x256 : Shape := ⟨2, ![512, 256]⟩
abbrev S1x256 : Shape := ⟨2, ![1, 256]⟩
abbrev S3x1x256 : Shape := ⟨3, ![3, 1, 256]⟩
abbrev S3 : Shape := ⟨1, ![3]⟩
abbrev S_ : Shape := ⟨0, ![]⟩
abbrev S256 : Shape := ⟨1, ![256]⟩
abbrev S1 : Shape := ⟨1, ![1]⟩
abbrev S1x1x256 : Shape := ⟨3, ![1, 1, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S1x256, .f32⟩
  | .local _ .vmem, ⟨3, _⟩ => ⟨S3x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v50 : BitVec 32 := Scalar.addi v2 c1_i32_31
  let c4_i32_32 : BitVec 32 := 4#32
  let c0_i32_33 : BitVec 32 := 0#32
  let v51 : BitVec 1 := Scalar.cmpi .eq c4_i32_32 c0_i32_33
  let c1_i32_34 : BitVec 32 := 1#32
  let v52 : BitVec 32 := Scalar.select v51 c1_i32_34 c4_i32_32
  let v53 : BitVec 32 := Scalar.remsi v50 v52
  let c0_i32_36 : BitVec 32 := 0#32
  let v55 : BitVec 1 := Scalar.cmpi .slt v53 c0_i32_36
  let c0_i32_37 : BitVec 32 := 0#32
  let v56 : BitVec 1 := Scalar.cmpi .slt v52 c0_i32_37
  let v57 : BitVec 1 := Scalar.xori v55 v56
  let c0_i32_35 : BitVec 32 := 0#32
  let v54 : BitVec 1 := Scalar.cmpi .ne v53 c0_i32_35
  let v58 : BitVec 1 := Scalar.andi v57 v54
  let v59 : BitVec 32 := Scalar.addi v53 v52
  let v60 : BitVec 32 := Scalar.select v58 v59 v53
  let c1_i32_41 : BitVec 32 := 1#32
  let v61 : BitVec 32 := Scalar.muli v60 c1_i32_41
  let v62 : BitVec 32 := Scalar.addi c0_i32_42 v61
  v62.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v69 : BitVec 32 := Scalar.addi v2 c2_i32_45
  let c4_i32_46 : BitVec 32 := 4#32
  let c0_i32_47 : BitVec 32 := 0#32
  let v70 : BitVec 1 := Scalar.cmpi .eq c4_i32_46 c0_i32_47
  let c1_i32_48 : BitVec 32 := 1#32
  let v71 : BitVec 32 := Scalar.select v70 c1_i32_48 c4_i32_46
  let v72 : BitVec 32 := Scalar.remsi v69 v71
  let c0_i32_50 : BitVec 32 := 0#32
  let v74 : BitVec 1 := Scalar.cmpi .slt v72 c0_i32_50
  let c0_i32_51 : BitVec 32 := 0#32
  let v75 : BitVec 1 := Scalar.cmpi .slt v71 c0_i32_51
  let v76 : BitVec 1 := Scalar.xori v74 v75
  let c0_i32_49 : BitVec 32 := 0#32
  let v73 : BitVec 1 := Scalar.cmpi .ne v72 c0_i32_49
  let v77 : BitVec 1 := Scalar.andi v76 v73
  let v78 : BitVec 32 := Scalar.addi v72 v71
  let v79 : BitVec 32 := Scalar.select v77 v78 v72
  let c1_i32_55 : BitVec 32 := 1#32
  let v80 : BitVec 32 := Scalar.muli v79 c1_i32_55
  let v81 : BitVec 32 := Scalar.addi c0_i32_56 v80
  v81.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v88 : BitVec 32 := Scalar.addi v2 c3_i32_59
  let c4_i32_60 : BitVec 32 := 4#32
  let c0_i32_61 : BitVec 32 := 0#32
  let v89 : BitVec 1 := Scalar.cmpi .eq c4_i32_60 c0_i32_61
  let c1_i32_62 : BitVec 32 := 1#32
  let v90 : BitVec 32 := Scalar.select v89 c1_i32_62 c4_i32_60
  let v91 : BitVec 32 := Scalar.remsi v88 v90
  let c0_i32_64 : BitVec 32 := 0#32
  let v93 : BitVec 1 := Scalar.cmpi .slt v91 c0_i32_64
  let c0_i32_65 : BitVec 32 := 0#32
  let v94 : BitVec 1 := Scalar.cmpi .slt v90 c0_i32_65
  let v95 : BitVec 1 := Scalar.xori v93 v94
  let c0_i32_63 : BitVec 32 := 0#32
  let v92 : BitVec 1 := Scalar.cmpi .ne v91 c0_i32_63
  let v96 : BitVec 1 := Scalar.andi v95 v92
  let v97 : BitVec 32 := Scalar.addi v91 v90
  let v98 : BitVec 32 := Scalar.select v96 v97 v91
  let c1_i32_69 : BitVec 32 := 1#32
  let v99 : BitVec 32 := Scalar.muli v98 c1_i32_69
  let v100 : BitVec 32 := Scalar.addi c0_i32_70 v99
  v100.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  hamt_3 : (3#32 : BitVec 32).msb = false
  inb_S3_S1_0 : ∀ a, (![0] : Fin 1 → Nat) a + S1.size a ≤ S3.size a
  squeezes_S1_S_ : S1.Squeezes S_
  inb_S3x1x256_S1x1x256_0_0_0 : ∀ a, (![0, 0, 0] : Fin 3 → Nat) a + S1x1x256.size a ≤ S3x1x256.size a
  squeezes_S1x1x256_S1x256 : S1x1x256.Squeezes S1x256
  inb_S3_S1_1 : ∀ a, (![1] : Fin 1 → Nat) a + S1.size a ≤ S3.size a
  inb_S3x1x256_S1x1x256_1_0_0 : ∀ a, (![1, 0, 0] : Fin 3 → Nat) a + S1x1x256.size a ≤ S3x1x256.size a
  inb_S3_S1_2 : ∀ a, (![2] : Fin 1 → Nat) a + S1.size a ≤ S3.size a
  inb_S3x1x256_S1x1x256_2_0_0 : ∀ a, (![2, 0, 0] : Fin 3 → Nat) a + S1x1x256.size a ≤ S3x1x256.size a
  h_S1x1x256 : 0 < S1x1x256.numel
  shapeCasts_S1x1x256_S1x256 : S1x1x256.ShapeCasts S1x256
  hcc0_scratch2 : 2 + S3.numel ≤ 8
  hcc0_scratch3 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch2 : DmaSems sig S3 := SemArray.consecutive 2 S3 hcc0_scratch2
abbrev cc0_scratch3 : DmaSems sig S3 := SemArray.consecutive 5 S3 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x256 : Shape := ⟨2, ![2048, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S_, .f32⟩
  | .hbm, ⟨2, _⟩ => ⟨S256, .f32⟩
  | .hbm, ⟨3, _⟩ => ⟨S1x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2048x256_S256_d0 : S2048x256.ReducesTo [0] S256
  h_S_ : 0 < S_.numel
  bcast_S256_S1x256_1 : S256.BroadcastsInDim S1x256 (![1] : Fin 1 → Fin S1x256.rank)

variable [Facts₀]

class Facts : Prop extends Facts₀ where

variable [Facts]
-- ==== Proof.Mesh4.lean ====
/-
  The ring of four devices: the peer a device addresses at distance k+1 forwards (fwd k), the device
  that addresses it at that distance (bwd k), and the distance back (rev k).
-/
import Idealize.ShloMosaic.Signature.Static

namespace Cert.Mesh4

open Idealize.ShloMosaic

/-- The device k+1 places after c on the ring of four. -/
def fwd (k : Fin 3) (c : Dev 4) : Dev 4 := ⟨(c.val + k.val + 1) % 4, Nat.mod_lt _ (by decide)⟩
/-- The device k+1 places before c on the ring of four. -/
def bwd (k : Fin 3) (c : Dev 4) : Dev 4 := ⟨(c.val + 3 - k.val) % 4, Nat.mod_lt _ (by decide)⟩
/-- Going k+1 places forwards is going (rev k)+1 places backwards: (k+1) + (rev k + 1) = 4. -/
def rev (k : Fin 3) : Fin 3 := ⟨2 - k.val, by omega⟩

theorem bwd_fwd (k : Fin 3) (c : Dev 4) : bwd k (fwd k c) = c := by revert k c; decide
theorem fwd_bwd (k : Fin 3) (c : Dev 4) : fwd k (bwd k c) = c := by revert k c; decide
theorem rev_rev (k : Fin 3) : rev (rev k) = k := by revert k; decide
theorem fwd_rev_fwd (k : Fin 3) (c : Dev 4) : fwd (rev k) (fwd k c) = c := by revert k c; decide
theorem bwd_eq_fwd_rev (k : Fin 3) (c : Dev 4) : bwd k c = fwd (rev k) c := by revert k c; decide
theorem fwd_ne (k : Fin 3) (c : Dev 4) : fwd k c ≠ c := by revert k c; decide
theorem fwd_inj_k (c : Dev 4) : Function.Injective (fun k : Fin 3 => fwd k c) := by revert c; decide
theorem fwd_inj_c (k : Fin 3) : Function.Injective (fwd k) := by revert k; decide
/-- Every device other than c is exactly one fwd k c. -/
theorem eq_or_fwd (c d : Dev 4) : d = c ∨ ∃ k, d = fwd k c := by revert c d; decide
/-- The four devices are c and its three predecessors. -/
theorem cover (c d : Dev 4) : d = c ∨ d = bwd 0 c ∨ d = bwd 1 c ∨ d = bwd 2 c := by revert c d; decide

/-- The permutation of the ring that steps k+1 places forwards. -/
def ring (k : Fin 3) : Dev 4 ≃ Dev 4 := ⟨fwd k, bwd k, bwd_fwd k, fwd_bwd k⟩

end Cert.Mesh4
-- ==== Proof.Slots.lean ====
/-
  The buffers of one device of the all-reduce: the staged block of x, the result row, the row of local
  column maxima (one row of 256), and the landing buffer of three rows, one per sender; the landing
  buffer cut into its three rows and put together again; what a row holds after a sender's copy landed.
-/
import proofs.«900927_g7700000000000928_dist_max_ax0_shard0_i_m512_n256_v7x_i4_f32_1_alg».proof.Proof.Gen.KernelIdeal.Skeleton
import proofs.«900927_g7700000000000928_dist_max_ax0_shard0_i_m512_n256_v7x_i4_f32_1_alg».proof.Proof.Gen.KernelIdeal.Launch
import proofs.«900927_g7700000000000928_dist_max_ax0_shard0_i_m512_n256_v7x_i4_f32_1_alg».proof.Proof.Mesh4
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen
open Cert.Mesh4

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties Unit) and the protocol's (duties Fin 3) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The memrefs -/

abbrev xM : Memref sig .tc .vmem S512x256 .f32 := Memref.whole cc0_stg0_0
abbrev oM : Memref sig .tc .vmem S1x256 .f32 := Memref.whole cc0_stg1_0
/-- The row of the device's own column maxima. -/
abbrev lM : Memref sig .tc .vmem S1x256 .f32 := Memref.whole cc0_scratch0
/-- The landing buffer: three rows. -/
abbrev cM : Memref sig .tc .vmem S3x1x256 .f32 := Memref.whole cc0_scratch1

/-- Row k of the landing buffer, as the access of a load reads it. -/
abbrev rectK : Fin 3 → Rect S3x1x256
  | 0 => Rect.unit (s := S3x1x256) ![0, 0, 0] S1x1x256.size inb_S3x1x256_S1x1x256_0_0_0
  | 1 => Rect.unit (s := S3x1x256) ![1, 0, 0] S1x1x256.size inb_S3x1x256_S1x1x256_1_0_0
  | 2 => Rect.unit (s := S3x1x256) ![2, 0, 0] S1x1x256.size inb_S3x1x256_S1x1x256_2_0_0

/-- Row k of the landing buffer as a memref of one row: what a copy is addressed to. -/
abbrev slotM : Fin 3 → Memref sig .tc .vmem S1x256 .f32
  | 0 => (cM.slice (Rect.unit (s := S3x1x256) ![0, 0, 0] S1x1x256.size inb_S3x1x256_S1x1x256_0_0_0) (fun _ => rfl)).squeeze S1x256 squeezes_S1x1x256_S1x256
  | 1 => (cM.slice (Rect.unit (s := S3x1x256) ![1, 0, 0] S1x1x256.size inb_S3x1x256_S1x1x256_1_0_0) (fun _ => rfl)).squeeze S1x256 squeezes_S1x1x256_S1x256
  | 2 => (cM.slice (Rect.unit (s := S3x1x256) ![2, 0, 0] S1x1x256.size inb_S3x1x256_S1x1x256_2_0_0) (fun _ => rfl)).squeeze S1x256 squeezes_S1x1x256_S1x256

/-- The contents of a device's landing buffer. -/
abbrev CBuf (c : Dev nD) : Type := Buf (Elt F) ((cM : Memref sig .tc .vmem S3x1x256 .f32).view.loc (c : Thread nD τ))
/-- The contents of a device's row of maxima. -/
abbrev LBuf (c : Dev nD) : Type := Buf (Elt F) ((lM : Memref sig .tc .vmem S1x256 .f32).view.loc (c : Thread nD τ))

/-- Row k of device c's landing buffer, owned whole, at contents f (only the row's entries matter). -/
def slotPts (c : Dev nD) (k : Fin 3) (f : CBuf (F := F) c) : sProp 𝕄 :=
  match k with
  | 0 => (slotM 0).view.loc (c : Thread nD τ) ↦[(slotM 0).view.set]{fullShare} f
  | 1 => (slotM 1).view.loc (c : Thread nD τ) ↦[(slotM 1).view.set]{fullShare} f
  | 2 => (slotM 2).view.loc (c : Thread nD τ) ↦[(slotM 2).view.set]{fullShare} f

/-- Device c's row of maxima, at share q. -/
def locPts (c : Dev nD) (q : PosShare TreeShare) (f : LBuf (F := F) c) : sProp 𝕄 :=
  (lM : Memref sig .tc .vmem S1x256 .f32).view.loc (c : Thread nD τ) ↦[(lM : Memref sig .tc .vmem S1x256 .f32).view.set]{q} f

/-- What a load of row k of the landing buffer yields, as one row. -/
def slotVal (c : Dev nD) (k : Fin 3) (f : CBuf (F := F) c) : FVec F S1x256 .f32 :=
  match k with
  | 0 => shapeCast S1x256 ((cM : Memref sig .tc .vmem S3x1x256 .f32).view.readAt (Elt F) (rectK 0).toLoadRect f) shapeCasts_S1x1x256_S1x256
  | 1 => shapeCast S1x256 ((cM : Memref sig .tc .vmem S3x1x256 .f32).view.readAt (Elt F) (rectK 1).toLoadRect f) shapeCasts_S1x1x256_S1x256
  | 2 => shapeCast S1x256 ((cM : Memref sig .tc .vmem S3x1x256 .f32).view.readAt (Elt F) (rectK 2).toLoadRect f) shapeCasts_S1x1x256_S1x256

/-- The landing buffer after a copy of the row v of maxima into its row k, from contents fd. -/
def landedW (c : Dev nD) (k : Fin 3) (fd : CBuf (F := F) c) (v : (cc0_scratch0 : Ref sig .tc).ty.Contents (Elt F)) : CBuf (F := F) c :=
  match k with
  | 0 => (slotM 0).view.write (Elt F) fd ((lM : Memref sig .tc .vmem S1x256 .f32).view.read (Elt F) v) Finset.univ
  | 1 => (slotM 1).view.write (Elt F) fd ((lM : Memref sig .tc .vmem S1x256 .f32).view.read (Elt F) v) Finset.univ
  | 2 => (slotM 2).view.write (Elt F) fd ((lM : Memref sig .tc .vmem S1x256 .f32).view.read (Elt F) v) Finset.univ

omit [FloatOps F] in
instance slotPts_storable (c : Dev nD) (k : Fin 3) (f : CBuf (F := F) c) : BI.Storable (upEmb : UEmb _ 𝕄) (slotPts c k f) := by
  unfold slotPts; split <;> infer_instance
omit [FloatOps F] in
instance locPts_storable (c : Dev nD) (q) (f : LBuf (F := F) c) : BI.Storable (upEmb : UEmb _ 𝕄) (locPts c q f) := by
  unfold locPts; infer_instance

/-! ## The rows as sets of entries -/

omit [FloatOps F] in
/-- The entries of the squeezed slice of the landing buffer at a rectangle are the entries of the rectangle. -/
theorem slotM_set_eq (r : Rect S3x1x256) (hr : ∀ a, r.stride a = 1) (hq : r.shape.Squeezes S1x256) :
    (((cM : Memref sig .tc .vmem S3x1x256 .f32).slice r hr).squeeze S1x256 hq).view.set = r.set :=
  (View.set_reshape ((cM : Memref sig .tc .vmem S3x1x256 .f32).view.slice r) hq.numel_eq).trans (View.set_slice_whole cc0_scratch1 r)

omit [FloatOps F] in
theorem slotM_set0 : (slotM 0).view.set = (rectK 0).set := slotM_set_eq _ (fun _ => rfl) squeezes_S1x1x256_S1x256
omit [FloatOps F] in
theorem slotM_set1 : (slotM 1).view.set = (rectK 1).set := slotM_set_eq _ (fun _ => rfl) squeezes_S1x1x256_S1x256
omit [FloatOps F] in
theorem slotM_set2 : (slotM 2).view.set = (rectK 2).set := slotM_set_eq _ (fun _ => rfl) squeezes_S1x1x256_S1x256

omit [FloatOps F] in
/-- Two different rows share no entry: they are apart on the first axis. -/
theorem rectK_disj01 : Disjoint (rectK 0).set (rectK 1).set :=
  Rect.unit_disjoint (0 : Fin 3) (Or.inl (by decide))
omit [FloatOps F] in
theorem rectK_disj02 : Disjoint (rectK 0).set (rectK 2).set :=
  Rect.unit_disjoint (0 : Fin 3) (Or.inl (by decide))
omit [FloatOps F] in
theorem rectK_disj12 : Disjoint (rectK 1).set (rectK 2).set :=
  Rect.unit_disjoint (0 : Fin 3) (Or.inl (by decide))

omit [FloatOps F] in
/-- Every entry of the landing buffer lies in one of its three rows: its first coordinate is 0, 1 or 2. -/
theorem rectK_cover : (rectK 0).set ∪ ((rectK 1).set ∪ (rectK 2).set) = (Finset.univ : Finset S3x1x256.Idx) := by
  ext i
  simp only [Finset.mem_union, Finset.mem_univ, iff_true, Rect.mem_set_unit]
  have h0 : (i 0 : ℕ) < 3 := (i 0).isLt
  have h1 : (i 1 : ℕ) < 1 := (i 1).isLt
  have h2 : (i 2 : ℕ) < 256 := (i 2).isLt
  rcases (show (i 0 : ℕ) = 0 ∨ (i 0 : ℕ) = 1 ∨ (i 0 : ℕ) = 2 by omega) with h | h | h
  · refine Or.inl fun a => ?_
    match a with
    | ⟨0, _⟩ => exact ⟨by show 0 ≤ (i 0 : ℕ); omega, by show (i 0 : ℕ) < 0 + 1; omega⟩
    | ⟨1, _⟩ => exact ⟨by show 0 ≤ (i 1 : ℕ); omega, by show (i 1 : ℕ) < 0 + 1; omega⟩
    | ⟨2, _⟩ => exact ⟨by show 0 ≤ (i 2 : ℕ); omega, by show (i 2 : ℕ) < 0 + 256; omega⟩
  · refine Or.inr (Or.inl fun a => ?_)
    match a with
    | ⟨0, _⟩ => exact ⟨by show 1 ≤ (i 0 : ℕ); omega, by show (i 0 : ℕ) < 1 + 1; omega⟩
    | ⟨1, _⟩ => exact ⟨by show 0 ≤ (i 1 : ℕ); omega, by show (i 1 : ℕ) < 0 + 1; omega⟩
    | ⟨2, _⟩ => exact ⟨by show 0 ≤ (i 2 : ℕ); omega, by show (i 2 : ℕ) < 0 + 256; omega⟩
  · refine Or.inr (Or.inr fun a => ?_)
    match a with
    | ⟨0, _⟩ => exact ⟨by show 2 ≤ (i 0 : ℕ); omega, by show (i 0 : ℕ) < 2 + 1; omega⟩
    | ⟨1, _⟩ => exact ⟨by show 0 ≤ (i 1 : ℕ); omega, by show (i 1 : ℕ) < 0 + 1; omega⟩
    | ⟨2, _⟩ => exact ⟨by show 0 ≤ (i 2 : ℕ); omega, by show (i 2 : ℕ) < 0 + 256; omega⟩

omit [FloatOps F] in
/-- A load of row k reads entries of row k only. -/
theorem slot_load_sub0 :
    (cM : Memref sig .tc .vmem S3x1x256 .f32).view.setOn (rectK 0).toLoadRect.set ⊆ (slotM 0).view.set := by
  intro i hi
  rw [slotM_set0]
  obtain ⟨j, hj, rfl⟩ := Finset.mem_map.mp hi
  exact hj
omit [FloatOps F] in
theorem slot_load_sub1 :
    (cM : Memref sig .tc .vmem S3x1x256 .f32).view.setOn (rectK 1).toLoadRect.set ⊆ (slotM 1).view.set := by
  intro i hi
  rw [slotM_set1]
  obtain ⟨j, hj, rfl⟩ := Finset.mem_map.mp hi
  exact hj
omit [FloatOps F] in
theorem slot_load_sub2 :
    (cM : Memref sig .tc .vmem S3x1x256 .f32).view.setOn (rectK 2).toLoadRect.set ⊆ (slotM 2).view.set := by
  intro i hi
  rw [slotM_set2]
  obtain ⟨j, hj, rfl⟩ := Finset.mem_map.mp hi
  exact hj

omit [FloatOps F] in
/-- After a copy of a whole row v of maxima into row k (whatever the buffer held, fd), a load of row k yields v. -/
theorem slot_write_read (c : Dev nD) (k : Fin 3) (fd : CBuf (F := F) c) (v : (cc0_scratch0 : Ref sig .tc).ty.Contents (Elt F)) :
    slotVal c k (landedW c k fd v) = v := by
  -- the load of row k, cast to one row, is the read through row k's own view; reading back a whole write gives the payload
  match k with
  | 0 =>
    show (slotM 0).view.read (Elt F) ((slotM 0).view.write (Elt F) fd ((lM : Memref sig .tc .vmem S1x256 .f32).view.read (Elt F) v) Finset.univ) = v
    rw [View.read_write_univ]; rfl
  | 1 =>
    show (slotM 1).view.read (Elt F) ((slotM 1).view.write (Elt F) fd ((lM : Memref sig .tc .vmem S1x256 .f32).view.read (Elt F) v) Finset.univ) = v
    rw [View.read_write_univ]; rfl
  | 2 =>
    show (slotM 2).view.read (Elt F) ((slotM 2).view.write (Elt F) fd ((lM : Memref sig .tc .vmem S1x256 .f32).view.read (Elt F) v) Finset.univ) = v
    rw [View.read_write_univ]; rfl

omit [FloatOps F] in
/-- The landing buffer owned whole is its three rows owned. -/
theorem comm_split (c : Dev nD) (f : CBuf (F := F) c) :
    ((((c : Thread nD τ).loc cc0_scratch1) ↦{fullShare} f) : sProp 𝕄) ⊢ iprop(slotPts c 0 f ∗ slotPts c 1 f ∗ slotPts c 2 f) := by
  show (((((c : Thread nD τ).loc cc0_scratch1)) ↦[Finset.univ]{fullShare} f) : sProp 𝕄) ⊢
    iprop(((((c : Thread nD τ).loc cc0_scratch1)) ↦[(slotM 0).view.set]{fullShare} f) ∗
      ((((c : Thread nD τ).loc cc0_scratch1)) ↦[(slotM 1).view.set]{fullShare} f) ∗
      ((((c : Thread nD τ).loc cc0_scratch1)) ↦[(slotM 2).view.set]{fullShare} f))
  rw [slotM_set0, slotM_set1, slotM_set2, ← rectK_cover]
  refine (pointsTo_union (Finset.disjoint_union_right.mpr ⟨rectK_disj01, rectK_disj02⟩)).1.trans ?_
  exact sep_mono_r (pointsTo_union rectK_disj12).1

omit [FloatOps F] in
/-- The three rows owned, at whatever contents, are the landing buffer owned whole at some contents. -/
theorem comm_join (c : Dev nD) (f0 f1 f2 : CBuf (F := F) c) :
    iprop(slotPts c 0 f0 ∗ slotPts c 1 f1 ∗ slotPts c 2 f2) ⊢ (iprop(∃ f : CBuf (F := F) c, (((c : Thread nD τ).loc cc0_scratch1) ↦{fullShare} f)) : sProp 𝕄) := by
  show iprop(((((c : Thread nD τ).loc cc0_scratch1)) ↦[(slotM 0).view.set]{fullShare} f0) ∗
      ((((c : Thread nD τ).loc cc0_scratch1)) ↦[(slotM 1).view.set]{fullShare} f1) ∗
      ((((c : Thread nD τ).loc cc0_scratch1)) ↦[(slotM 2).view.set]{fullShare} f2)) ⊢
    (iprop(∃ f : CBuf (F := F) c, ((((c : Thread nD τ).loc cc0_scratch1)) ↦[Finset.univ]{fullShare} f)) : sProp 𝕄)
  rw [slotM_set0, slotM_set1, slotM_set2, ← rectK_cover]
  -- rows 1 and 2 joined at a piecewise contents, then row 0 with them; the union is the whole buffer
  refine (sep_mono_r (pointsTo_join rectK_disj12)).trans ?_
  refine (pointsTo_join (Finset.disjoint_union_right.mpr ⟨rectK_disj01, rectK_disj02⟩)).trans ?_
  exact exists_intro (Φ := fun f : CBuf (F := F) c => (((((c : Thread nD τ).loc cc0_scratch1)) ↦[(rectK 0).set ∪ ((rectK 1).set ∪ (rectK 2).set)]{fullShare} f) : sProp 𝕄)) _

end Cert.KernelIdealProof

end
-- ==== Proof.Sched.lean ====
/-
  The protocol of the four-device all-reduce of column maxima, written down: per device one barrier
  cell (three duties of one unit, one from each other device, each handing over the row of the signaller's
  landing buffer the waiter will write), three send cells and three receive cells (one duty each, the
  copy's credit; a send cell returns the share of the row of maxima the copy read, a receive cell hands
  the landed row with its contents). What each device owes at launch, the levels, and the proof data of
  the one grid point.
-/
import proofs.«900927_g7700000000000928_dist_max_ax0_shard0_i_m512_n256_v7x_i4_f32_1_alg».proof.Proof.Slots
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen
open Cert.Mesh4

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The device chains of the body: signal k and copy k address the device k+1 places on -/

theorem dev1_eq : ∀ c : Dev nD, (⟨k0_dev1 c, k0_dev1_lt c⟩ : Dev nD) = fwd 0 c := by decide +kernel
theorem dev2_eq : ∀ c : Dev nD, (⟨k0_dev2 c, k0_dev2_lt c⟩ : Dev nD) = fwd 1 c := by decide +kernel
theorem dev3_eq : ∀ c : Dev nD, (⟨k0_dev3 c, k0_dev3_lt c⟩ : Dev nD) = fwd 2 c := by decide +kernel
theorem dev4_eq : ∀ c : Dev nD, (⟨k0_dev4 c, k0_dev4_lt c⟩ : Dev nD) = fwd 0 c := by decide +kernel
theorem dev5_eq : ∀ c : Dev nD, (⟨k0_dev5 c, k0_dev5_lt c⟩ : Dev nD) = fwd 1 c := by decide +kernel
theorem dev6_eq : ∀ c : Dev nD, (⟨k0_dev6 c, k0_dev6_lt c⟩ : Dev nD) = fwd 2 c := by decide +kernel

/-! ## The semaphores and cells -/

/-- The runtime's barrier semaphore of collective id 0 (unscoped). -/
abbrev barS : Sem sig := (SemArray.scalar (sig.barrier 0 rfl) : Sems sig S_).sem
/-- The send semaphore of copy k and the receive semaphore of row k (scoped scratch). -/
abbrev sendSm (k : Fin 3) : DmaSem sig := ⟨2 + k.val, by have := k.isLt; show 2 + k.val < 8; omega⟩
abbrev recvSm (k : Fin 3) : DmaSem sig := ⟨5 + k.val, by have := k.isLt; show 5 + k.val < 8; omega⟩

abbrev barCell (c : Dev nD) : GSem nD τ sig := ((c : Thread nD τ), .reg barS)
abbrev sendCell (c : Dev nD) (k : Fin 3) : GSem nD τ sig := ((c : Thread nD τ), .dma (sendSm k))
abbrev recvCell (c : Dev nD) (k : Fin 3) : GSem nD τ sig := ((c : Thread nD τ), .dma (recvSm k))

/-- The kernel's OWN (scoped) semaphores, as the launch theorem indexes them: three send, three receive; -/
abbrev osem : Fin 6 → SemLoc sig := fun j => .dma ⟨2 + j.val, by have := j.isLt; show 2 + j.val < 8; omega⟩
/-- all seven of the protocol's: barrier, three send, three receive. -/
abbrev csem : Fin 7 → SemLoc sig := fun j => if h : j.val = 0 then .reg barS else .dma ⟨1 + j.val, by have := j.isLt; show 1 + j.val < 8; omega⟩
abbrev kcell (ck : Dev nD × Fin 7) : GSem nD τ sig := ((ck.1 : Thread nD τ), csem ck.2)

abbrev N : ℕ := (lM : Memref sig .tc .vmem S1x256 .f32).view.dmaCredit
theorem N_pos : 0 < N := View.dmaCredit_pos _ (by decide)

/-- The shares of the row of maxima the three copies read it at; the fourth quarter stays with the device. -/
abbrev shr : Fin 3 → PosShare TreeShare
  | 0 => fullShare.left.left
  | 1 => fullShare.left.right
  | 2 => fullShare.right.left
abbrev shrKeep : PosShare TreeShare := fullShare.right.right

/-! ## Contents -/

/-- Device c's staged block of x. -/
def xstg (c : Dev nD) : (cc0_stg0_0 : Ref sig .tc).ty.Contents (Elt F) :=
  (win0_0.blk (0 : Fin 1)).view.read (Elt F) ((s₀ m ρ).mem ((c : Thread nD τ).loc main_arg0))

/-- Device c's row of column maxima of its block. -/
def localv (c : Dev nD) : (cc0_scratch0 : Ref sig .tc).ty.Contents (Elt F) := k0_pay1 (xstg m ρ c)

/-- The running maximum of a row with three more rows, in the order the body folds them. -/
def combine (l a b d : FVec F S1x256 .f32) : FVec F S1x256 .f32 := maximumf (maximumf (maximumf l a) b) d

theorem pay_eq (l : Vec F S1x256 .f32) (v114 v123 v132 : Vec F S1x1x256 .f32) :
    k0_pay3 (k0_pay2 l v114 v123) v132
      = combine l (shapeCast S1x256 v114 shapeCasts_S1x1x256_S1x256) (shapeCast S1x256 v123 shapeCasts_S1x1x256_S1x256)
          (shapeCast S1x256 v132 shapeCasts_S1x1x256_S1x256) := rfl

/-- The kernel's result on device c: the maximum of its own row with the rows of the devices one, three and two places
    before it, in that order. -/
def outAt (c : Dev nD) : (cc0_stg1_0 : Ref sig .tc).ty.Contents (Elt F) :=
  combine (localv m ρ c) (localv m ρ (bwd 0 c)) (localv m ρ (bwd 2 c)) (localv m ρ (bwd 1 c))

/-! ## The schedule -/

/-- What the signal of the device e+1 places on (duty e of c's barrier cell) hands c: row e of that device's landing
    buffer and that the device has reached round 0 of its receive cell e — what c's copy e needs. -/
def barPay (c : Dev nD) (e : Fin 3) : sProp 𝕄 :=
  iprop((∃ f : CBuf (F := F) (fwd e c), slotPts (fwd e c) e f) ∗ reached ER (recvCell (fwd e c) e) 0)
/-- A landing: row k of c's landing buffer, holding the row of maxima of the device k+1 places before c. -/
def recvPay (c : Dev nD) (k : Fin 3) : sProp 𝕄 :=
  iprop(∃ f : CBuf (F := F) c, slotPts c k f ∗ ⌜slotVal c k f = localv m ρ (bwd k c)⌝)
/-- A copy read to the end: the share of the row of maxima it read comes back. -/
def sendPay (c : Dev nD) (k : Fin 3) : sProp 𝕄 := locPts c (shr k) (localv m ρ c)

/-- One round, round 0: a barrier cell has three duties of one unit; a send or receive cell one duty of the row's credit. -/
def sched : Rounds.Schedule (GSem nD τ sig) (Fin 3) 𝕄 where
  duties g r := if r = 0 ∧ g.1.2 = .tc then
      (match g.2 with | .reg _ => Finset.univ | .dma s => if 2 ≤ s.val then {0} else ∅) else ∅
  unitless _ := False
  amount g _ _ := match g.2 with | .reg _ => 1 | .dma _ => N
  payload g _ d := match g.2 with
    | .reg _ => barPay g.1.1 d
    | .dma s => if h : 2 ≤ s.val ∧ s.val < 5 then sendPay m ρ g.1.1 ⟨s.val - 2, by omega⟩
        else if h' : 5 ≤ s.val ∧ s.val < 8 then recvPay m ρ g.1.1 ⟨s.val - 5, by omega⟩ else iprop(emp)
  amount_pos g _ _ _ := by
    cases g.2 with
    | reg _ => exact Nat.one_pos
    | dma _ => exact N_pos

instance sched_payload_storable (g : GSem nD τ sig) (r : ℕ) (d : Fin 3) :
    BI.Storable (upEmb : UEmb _ 𝕄) ((sched (F := F) m ρ).payload g r d) := by
  obtain ⟨t, sm⟩ := g
  cases sm with
  | reg _ => show BI.Storable upEmb (barPay t.1 d); unfold barPay; infer_instance
  | dma s =>
    show BI.Storable upEmb (if h : 2 ≤ s.val ∧ s.val < 5 then sendPay m ρ t.1 ⟨s.val - 2, by omega⟩
        else if h' : 5 ≤ s.val ∧ s.val < 8 then recvPay m ρ t.1 ⟨s.val - 5, by omega⟩ else iprop(emp))
    unfold sendPay recvPay
    (repeat' split) <;> infer_instance

section Sched
variable (c : Dev nD) (k : Fin 3)

theorem duties_bar : (sched (F := F) m ρ).duties (barCell c) 0 = Finset.univ := by dsimp only [sched]; rw [if_pos ⟨rfl, rfl⟩]
theorem duties_send : (sched (F := F) m ρ).duties (sendCell c k) 0 = {0} := by
  dsimp only [sched]; rw [if_pos ⟨rfl, rfl⟩, if_pos (Nat.le_add_right 2 _)]
theorem duties_recv : (sched (F := F) m ρ).duties (recvCell c k) 0 = {0} := by
  dsimp only [sched]; rw [if_pos ⟨rfl, rfl⟩, if_pos (by show 2 ≤ 5 + k.val; omega)]
theorem duties_later (g : GSem nD τ sig) : ∀ r, 1 ≤ r → (sched (F := F) m ρ).duties g r = ∅ :=
  fun r hr => by dsimp only [sched]; rw [if_neg fun h => by omega]

theorem amount_bar (d : Fin 3) : (sched (F := F) m ρ).amount (barCell c) 0 d = 1 := rfl
theorem amount_send (d : Fin 3) : (sched (F := F) m ρ).amount (sendCell c k) 0 d = N := rfl
theorem amount_recv (d : Fin 3) : (sched (F := F) m ρ).amount (recvCell c k) 0 d = N := rfl

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c k) 0 = N := by
  unfold Schedule.expect Schedule.amountOf; rw [duties_send, Finset.sum_singleton, amount_send]
theorem expect_recv : (sched (F := F) m ρ).expect (recvCell c k) 0 = N := by
  unfold Schedule.expect Schedule.amountOf; rw [duties_recv, Finset.sum_singleton, amount_recv]

theorem payload_bar (e : Fin 3) : (sched (F := F) m ρ).payload (barCell c) 0 e = barPay c e := rfl
theorem payload_send (d : Fin 3) : (sched (F := F) m ρ).payload (sendCell c k) 0 d = sendPay m ρ c k := by
  fin_cases k <;> rfl
theorem payload_recv (d : Fin 3) : (sched (F := F) m ρ).payload (recvCell c k) 0 d = recvPay m ρ c k := by
  fin_cases k <;> rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- The rest of the barrier cell's round, no duty taken: the three signallers' payloads. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3]; rfl
theorem rest_send : bigSep ((sched (F := F) m ρ).duties (sendCell c k) 0 \ ∅) (fun d => (sched (F := F) m ρ).payload (sendCell c k) 0 d) = sendPay m ρ c k := by
  rw [Finset.sdiff_empty, duties_send, bigSep_singleton, payload_send]
theorem rest_recv : bigSep ((sched (F := F) m ρ).duties (recvCell c k) 0 \ ∅) (fun d => (sched (F := F) m ρ).payload (recvCell c k) 0 d) = recvPay m ρ c k := by
  rw [Finset.sdiff_empty, duties_recv, bigSep_singleton, payload_recv]

end Sched

/-! ## What each core owes at launch; the levels -/

/-- The credit of the three copies: owed to row k of the landing buffer of the device k+1 places on — summed so that
    copy 0 peels the last summand, copy 1 the middle one. -/
def Orecv (c : Dev nD) : CellTallies nD τ sig Unit :=
  tallyAt (recvCell (fwd 2 c) 2) () N + tallyAt (recvCell (fwd 1 c) 1) () N + tallyAt (recvCell (fwd 0 c) 0) () N
/-- With it, one unit to the barrier cell of each other device — the first signal peels the last summand. -/
def O₂ (c : Dev nD) : CellTallies nD τ sig Unit := Orecv c + tallyAt (barCell (fwd 2 c)) () 1
def O₁ (c : Dev nD) : CellTallies nD τ sig Unit := O₂ c + tallyAt (barCell (fwd 1 c)) () 1
def O₀ (c : Dev nD) : CellTallies nD τ sig Unit := O₁ c + tallyAt (barCell (fwd 0 c)) () 1

def L (g : GSem nD τ sig) : Finset Unit := if g.1.2 = .tc then {()} else ∅
/-- Barrier cells at 1, receive cells at 2, everything else (staging, send) at 0. -/
def lv (g : GSem nD τ sig) (_ : Unit) : ℕ := match g.2 with | .reg _ => 1 | .dma s => if 5 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem Orecv_pos {c : Dev nD} {g : GSem nD τ sig} {u : Unit} (h : 0 < Orecv c g u) : ∃ k, g = recvCell (fwd k c) k := by
  unfold Orecv at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ k, g = recvCell (fwd k c) k) ∨ (∃ k, g = barCell (fwd k c)) := by
  unfold O₀ O₁ O₂ at h
  rw [Pi.add_apply, Finsupp.add_apply, Pi.add_apply, Finsupp.add_apply, Pi.add_apply, Finsupp.add_apply, tallyAt_apply, tallyAt_apply, tallyAt_apply] at h
  by_contra hn
  rw [not_or, not_exists, not_exists] at hn
  rw [if_neg (fun h' => hn.2 2 h'.1), if_neg (fun h' => hn.2 1 h'.1), if_neg (fun h' => hn.2 0 h'.1)] at h
  obtain ⟨k, hk⟩ := Orecv_pos h
  exact hn.1 k hk

/-- A wait on a cell of level 0 (a staging cell, a send cell) is below everything a device owes at launch. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; dsimp only [lv]; rw [if_neg (by omega)])
      (fun g u hg => by
        rcases O₀_pos hg with ⟨k, rfl⟩ | ⟨k, rfl⟩
        · dsimp only [lv]; rw [if_pos (Nat.le_add_right 5 _)]; decide
        · dsimp only [lv]; decide)
  · rw [MayWait_zero]; iintro -; iempintro

/-- At its barrier wait a device owes the three copies' credit only: receive cells, above its barrier cell. -/
theorem mayWait_bar (c : Dev nD) :
    (levAts L lv : sProp 𝕄) ⊢ MayWait (c : Thread nD τ) (.reg barS) () (Orecv c) :=
  MayOwe.of_cut (L := L) (lev := lv) 1 (fun p hp => by rw [Finset.mem_singleton.mp hp, L_tc]; exact Finset.mem_singleton_self _)
    (fun g u hg => by obtain ⟨k, rfl⟩ := Orecv_pos hg; exact Finset.mem_singleton_self _)
    (fun p hp => by rw [Finset.mem_singleton.mp hp]; dsimp only [lv]; exact Nat.le_refl 1)
    (fun g u hg => by obtain ⟨k, rfl⟩ := Orecv_pos hg; dsimp only [lv]; rw [if_pos (Nat.le_add_right 5 _)]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device c's body opens, under the names K the launch allocated them at: its own seven, the barrier
    cells of the three other devices (its signals), and row k of the device k+1 places on (its copies). -/
def invs (K : Dev nD × Fin 7 → ℕ) (c : Dev nD) : sProp 𝕄 :=
  iprop(cellInv ER (sched m ρ) (K (c, 0)) (barCell c)
    ∗ (cellInv ER (sched m ρ) (K (c, 1)) (sendCell c 0) ∗ cellInv ER (sched m ρ) (K (c, 2)) (sendCell c 1) ∗ cellInv ER (sched m ρ) (K (c, 3)) (sendCell c 2))
    ∗ (cellInv ER (sched m ρ) (K (c, 4)) (recvCell c 0) ∗ cellInv ER (sched m ρ) (K (c, 5)) (recvCell c 1) ∗ cellInv ER (sched m ρ) (K (c, 6)) (recvCell c 2))
    ∗ (cellInv ER (sched m ρ) (K (fwd 0 c, 0)) (barCell (fwd 0 c)) ∗ cellInv ER (sched m ρ) (K (fwd 1 c, 0)) (barCell (fwd 1 c)) ∗ cellInv ER (sched m ρ) (K (fwd 2 c, 0)) (barCell (fwd 2 c)))
    ∗ (cellInv ER (sched m ρ) (K (fwd 0 c, 4)) (recvCell (fwd 0 c) 0) ∗ cellInv ER (sched m ρ) (K (fwd 1 c, 5)) (recvCell (fwd 1 c) 1) ∗ cellInv ER (sched m ρ) (K (fwd 2 c, 6)) (recvCell (fwd 2 c) 2)))

instance invs_persistent (K : Dev nD × Fin 7 → ℕ) (c : Dev nD) : BI.Persistent (invs m ρ K c) := by unfold invs; infer_instance

/-- The reached-marks device c's body presents: of the cells it pays and of its own send and receive cells. -/
def marks (c : Dev nD) : sProp 𝕄 :=
  iprop((reached ER (barCell (fwd 0 c)) 0 ∗ reached ER (barCell (fwd 1 c)) 0 ∗ reached ER (barCell (fwd 2 c)) 0)
    ∗ (reached ER (recvCell (fwd 0 c) 0) 0 ∗ reached ER (recvCell (fwd 1 c) 1) 0 ∗ reached ER (recvCell (fwd 2 c) 2) 0)
    ∗ (reached ER (sendCell c 0) 0 ∗ reached ER (sendCell c 1) 0 ∗ reached ER (sendCell c 2) 0)
    ∗ (reached ER (recvCell c 0) 0 ∗ reached ER (recvCell c 1) 0 ∗ reached ER (recvCell c 2) 0))

instance marks_persistent (c : Dev nD) : BI.Persistent (marks (F := F) c) := by unfold marks; infer_instance

/-- Device c's positions at round 0 of its seven cells. -/
def posns (c : Dev nD) : sProp 𝕄 :=
  iprop(atPos ER (barCell c) 0 ∅ 0
    ∗ (atPos ER (sendCell c 0) 0 ∅ 0 ∗ atPos ER (sendCell c 1) 0 ∅ 0 ∗ atPos ER (sendCell c 2) 0 ∅ 0)
    ∗ (atPos ER (recvCell c 0) 0 ∅ 0 ∗ atPos ER (recvCell c 1) 0 ∅ 0 ∗ atPos ER (recvCell c 2) 0 ∅ 0))

/-- The tokens of the nine duties device c pays: signal k pays duty (rev k) of the barrier cell of the device k+1 places
    on; copy k pays the duty of that device's receive cell k and of its own send cell k. -/
def payToks (c : Dev nD) : sProp 𝕄 :=
  iprop((dutyTok ER (barCell (fwd 0 c)) 0 (rev 0) ∗ dutyTok ER (barCell (fwd 1 c)) 0 (rev 1) ∗ dutyTok ER (barCell (fwd 2 c)) 0 (rev 2))
    ∗ (dutyTok ER (recvCell (fwd 0 c) 0) 0 0 ∗ dutyTok ER (recvCell (fwd 1 c) 1) 0 0 ∗ dutyTok ER (recvCell (fwd 2 c) 2) 0 0)
    ∗ (dutyTok ER (sendCell c 0) 0 0 ∗ dutyTok ER (sendCell c 1) 0 0 ∗ dutyTok ER (sendCell c 2) 0 0))

/-- The protocol's ghost state device c starts from. -/
def ghost (K : Dev nD × Fin 7 → ℕ) (c : Dev nD) : sProp 𝕄 :=
  iprop(invs m ρ K c ∗ marks c ∗ posns c ∗ payToks c)

/-- The credit tokens of device c's waits: its barrier's three units, each receive cell's credit. -/
def creds (c : Dev nD) : sProp 𝕄 :=
  iprop(cred (tallyAt (barCell c) () 3)
    ∗ cred (tallyAt (recvCell c 0) () N) ∗ cred (tallyAt (recvCell c 1) () N) ∗ cred (tallyAt (recvCell c 2) () N))

/-- What device c's body starts from besides its buffers. -/
def start (c : Dev nD) : sProp 𝕄 :=
  iprop((∃ K, ghost m ρ K c) ∗ creds c ∗ levAts L lv)

/-- The two scratch buffers, owned whole at some contents: how the launch hands them over and takes them back. -/
def scratches (c : Dev nD) : sProp 𝕄 :=
  iprop((∃ f : LBuf (F := F) c, ((c : Thread nD τ).loc cc0_scratch0) ↦{fullShare} f)
    ∗ (∃ f : CBuf (F := F) c, ((c : Thread nD τ).loc cc0_scratch1) ↦{fullShare} f))

def Φ₀ (c : Dev nD) : sProp 𝕄 := iprop(start m ρ c ∗ scratches c)
/-- After the point: the scratch buffers back, the six OWN cells at zero, closed (the barrier cell is the runtime's). -/
def Φ₁ (c : Dev nD) : sProp 𝕄 :=
  iprop(scratches c
    ∗ (semVal (sendCell c 0) 0 ∗ semVal (sendCell c 1) 0 ∗ semVal (sendCell c 2) 0)
    ∗ (semVal (recvCell c 0) 0 ∗ semVal (recvCell c 1) 0 ∗ semVal (recvCell c 2) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdealProof

end
-- ==== Proof.Body.lean ====
/-
  One device's body, stepped from the protocol's ghost state to the point's end.
-/
import proofs.«900927_g7700000000000928_dist_max_ax0_shard0_i_m512_n256_v7x_i4_f32_1_alg».proof.Proof.Sched
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen
open Cert.Mesh4

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 7 → ℕ)

def bodyPre (c : Dev nD) : sProp 𝕄 :=
  iprop((ghost m ρ K c ∗ creds c ∗ levAts L lv ∗ scratches c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

abbrev r0x : Rect S512x256 := Rect.unit (s := S512x256) ![0, 0] S512x256.size inb_S512x256_S512x256_0_0
abbrev r0l : Rect S1x256 := Rect.unit (s := S1x256) ![0, 0] S1x256.size inb_S1x256_S1x256_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) r0x.toLoadRect f = f :=
  Memref.readAt_unit_zero (Elt F) cc0_stg0_0 hz _ f
omit [FloatOps F] in
theorem read_l (f : (cc0_scratch0 : Ref sig .tc).ty.Contents (Elt F)) : (lM : Memref sig .tc .vmem S1x256 .f32).view.readAt (Elt F) r0l.toLoadRect f = f :=
  Memref.readAt_unit_zero (Elt F) cc0_scratch0 hz _ f
omit [FloatOps F] in
theorem write_l (f w : (cc0_scratch0 : Ref sig .tc).ty.Contents (Elt F)) :
    ((lM : Memref sig .tc .vmem S1x256 .f32).access r0l : View sig .tc _ _ _).write (Elt F) f w Finset.univ = w :=
  Memref.write_access_unit_zero_univ (Elt F) cc0_scratch0 hz _ f w
omit [FloatOps F] in
theorem write_out (f w : (cc0_stg1_0 : Ref sig .tc).ty.Contents (Elt F)) :
    ((oM : Memref sig .tc .vmem S1x256 .f32).access r0l : View sig .tc _ _ _).write (Elt F) f w Finset.univ = w :=
  Memref.write_access_unit_zero_univ (Elt F) cc0_stg1_0 hz _ f w

omit [FloatOps F] in
theorem l_set : (lM : Memref sig .tc .vmem S1x256 .f32).view.set = Finset.univ := View.set_whole _

/-- What signal k of device c hands over: row (rev k) of ITS OWN landing buffer, and that it is at round 0 of that row's
    receive cell — the device k+1 places on is the one that copies into that row. -/
theorem barPay_mine (c : Dev nD) (k : Fin 3) :
    barPay (F := F) (fwd k c) (rev k) = iprop((∃ f : CBuf (F := F) c, slotPts c (rev k) f) ∗ reached ER (recvCell c (rev k)) 0) := by
  unfold barPay; rw [fwd_rev_fwd]

omit [FloatOps F] in
theorem slotPts_eq0 (c : Dev nD) (f : CBuf (F := F) c) :
    slotPts c 0 f = ((slotM 0).view.loc (c : Thread nD τ) ↦[(slotM 0).view.set]{fullShare} f : sProp 𝕄) := rfl
omit [FloatOps F] in
theorem slotPts_eq1 (c : Dev nD) (f : CBuf (F := F) c) :
    slotPts c 1 f = ((slotM 1).view.loc (c : Thread nD τ) ↦[(slotM 1).view.set]{fullShare} f : sProp 𝕄) := rfl
omit [FloatOps F] in
theorem slotPts_eq2 (c : Dev nD) (f : CBuf (F := F) c) :
    slotPts c 2 f = ((slotM 2).view.loc (c : Thread nD τ) ↦[(slotM 2).view.set]{fullShare} f : sProp 𝕄) := rfl

omit [FloatOps F] in
/-- The row of maxima owned whole is its four quarter shares: one for each copy to read, one to keep reading. -/
theorem loc_quarter (c : Dev nD) (f : LBuf (F := F) c) :
    ((((c : Thread nD τ).loc cc0_scratch0) ↦{fullShare} f) : sProp 𝕄)
      ⊢ iprop(locPts c (shr 0) f ∗ locPts c (shr 1) f ∗ locPts c (shr 2) f ∗ locPts c shrKeep f) := by
  unfold locPts; rw [l_set]
  iintro H
  ihave H := (pointsTo_share (PosShare.mem_left_op_right fullShare)).1 $$ H
  icases H with ⟨HL, HR⟩
  ihave HL := (pointsTo_share (PosShare.mem_left_op_right fullShare.left)).1 $$ HL
  icases HL with ⟨HLL, HLR⟩
  ihave HR := (pointsTo_share (PosShare.mem_left_op_right fullShare.right)).1 $$ HR
  icases HR with ⟨HRL, HRR⟩
  isplitl [HLL]; · iexact HLL
  isplitl [HLR]; · iexact HLR
  isplitl [HRL]; · iexact HRL
  iexact HRR

omit [FloatOps F] in
theorem loc_unquarter (c : Dev nD) (f : LBuf (F := F) c) :
    iprop(locPts c (shr 0) f ∗ locPts c (shr 1) f ∗ locPts c (shr 2) f ∗ locPts c shrKeep f)
      ⊢ ((((c : Thread nD τ).loc cc0_scratch0) ↦{fullShare} f) : sProp 𝕄) := by
  unfold locPts; rw [l_set]
  iintro ⟨HLL, HLR, HRL, HRR⟩
  iapply (pointsTo_share (PosShare.mem_left_op_right fullShare)).2
  isplitl [HLL HLR]
  · iapply (pointsTo_share (PosShare.mem_left_op_right fullShare.left)).2
    isplitl [HLL]; · iexact HLL
    iexact HLR
  · iapply (pointsTo_share (PosShare.mem_left_op_right fullShare.right)).2
    isplitl [HRL]; · iexact HRL
    iexact HRR

set_option maxHeartbeats 1600000 in
/-- Copy 0 of device c at the protocol's cells: the row of maxima read at share (shr 0), row 0 of the landing buffer of the
    device n = fwd 0 c written (substituted, not rewritten). -/
theorem wp_send_slot0 (c n : Dev nD) (hn : n = fwd 0 c)
    {hsc : (slotM 0 : Memref sig (Dev.tc n : Thread nD τ).2.kind .vmem S1x256 .f32).view.ref.isScScratch = false}
    {hsrc : (lM : Memref sig .tc .vmem S1x256 .f32).view.WordExact} {hdst : (slotM 0 : Memref sig .tc .vmem S1x256 .f32).view.WordExact}
    {hsem : DmaTarget.Typed .vmem (.dma (recvSm 0)) (.remote (Dev.tc n : Thread nD τ) (slotM 0 : Memref sig .tc .vmem S1x256 .f32) (.dma (sendSm 0)) hsc)}
    {α : Type} {Q : α → sProp 𝕄} {kont : PUnit → Prog (TpuEff nD τ sig (Elt F) Λ₀ .tc) α}
    (fn : CBuf (F := F) (fwd 0 c)) (O₀' O : CellTallies nD τ sig Unit) (hO : O₀' = O + tallyAt (recvCell (fwd 0 c) 0) () N)
    (W : Waits sig Unit) (κ₁ κ₂ : ℕ) :
    iprop(cellInv ER (sched m ρ) κ₁ (sendCell c 0) ∗ cellInv ER (sched m ρ) κ₂ (recvCell (fwd 0 c) 0)
        ∗ locPts c (shr 0) (localv m ρ c) ∗ slotPts (fwd 0 c) 0 fn
        ∗ owes (c : Thread nD τ) O₀' W
        ∗ dutyTok ER (sendCell c 0) 0 0 ∗ reached ER (sendCell c 0) 0
        ∗ dutyTok ER (recvCell (fwd 0 c) 0) 0 0 ∗ reached ER (recvCell (fwd 0 c) 0) 0)
      ⊢ iprop(((cred (tallyAt (sendCell c 0) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma lM (.remote (Dev.tc n : Thread nD τ) (slotM 0) (.dma (sendSm 0)) hsc) (.dma (recvSm 0)) hsrc hdst hsem) kont) Q) := by
  subst hn
  unfold locPts
  rw [slotPts_eq0]
  exact Rounds.wp_send_pointsTo 𝒱₀ ER (sched m ρ) (c : Thread nD τ) none (κ₁ := κ₁) (κ₂ := κ₂)
    (c' := (Dev.tc (fwd 0 c) : Thread nD τ)) (src := (lM : Memref sig .tc .vmem S1x256 .f32)) (dst := (slotM 0 : Memref sig .tc .vmem S1x256 .f32))
    (sS := SemLoc.dma (sendSm 0)) (sem := SemLoc.dma (recvSm 0)) (q := shr 0) (fs := localv m ρ c)
    (r₁ := 0) (r₂ := 0) (d₁ := 0) (d₂ := 0) (fd := fn)
    (by rw [duties_send]; exact Finset.mem_singleton_self _) (by rw [duties_recv]; exact Finset.mem_singleton_self _)
    () () N rfl (amount_send m ρ c 0 0) (amount_recv m ρ (fwd 0 c) 0 0) O hO (W := W)
    (by rw [payload_send]; exact BI.Entails.refl _)
    (by
      rw [payload_recv]; unfold recvPay
      iintro H
      iexists (landedW (fwd 0 c) 0 fn (localv m ρ c))
      isplitl [H]; · rw [slotPts_eq0]; iexact H
      ipureintro
      rw [slot_write_read, bwd_fwd])

set_option maxHeartbeats 1600000 in
/-- Copy 1 of device c at the protocol's cells: the row of maxima read at share (shr 1), row 1 of the landing buffer of the
    device n = fwd 1 c written (substituted, not rewritten). -/
theorem wp_send_slot1 (c n : Dev nD) (hn : n = fwd 1 c)
    {hsc : (slotM 1 : Memref sig (Dev.tc n : Thread nD τ).2.kind .vmem S1x256 .f32).view.ref.isScScratch = false}
    {hsrc : (lM : Memref sig .tc .vmem S1x256 .f32).view.WordExact} {hdst : (slotM 1 : Memref sig .tc .vmem S1x256 .f32).view.WordExact}
    {hsem : DmaTarget.Typed .vmem (.dma (recvSm 1)) (.remote (Dev.tc n : Thread nD τ) (slotM 1 : Memref sig .tc .vmem S1x256 .f32) (.dma (sendSm 1)) hsc)}
    {α : Type} {Q : α → sProp 𝕄} {kont : PUnit → Prog (TpuEff nD τ sig (Elt F) Λ₀ .tc) α}
    (fn : CBuf (F := F) (fwd 1 c)) (O₀' O : CellTallies nD τ sig Unit) (hO : O₀' = O + tallyAt (recvCell (fwd 1 c) 1) () N)
    (W : Waits sig Unit) (κ₁ κ₂ : ℕ) :
    iprop(cellInv ER (sched m ρ) κ₁ (sendCell c 1) ∗ cellInv ER (sched m ρ) κ₂ (recvCell (fwd 1 c) 1)
        ∗ locPts c (shr 1) (localv m ρ c) ∗ slotPts (fwd 1 c) 1 fn
        ∗ owes (c : Thread nD τ) O₀' W
        ∗ dutyTok ER (sendCell c 1) 0 0 ∗ reached ER (sendCell c 1) 0
        ∗ dutyTok ER (recvCell (fwd 1 c) 1) 0 0 ∗ reached ER (recvCell (fwd 1 c) 1) 0)
      ⊢ iprop(((cred (tallyAt (sendCell c 1) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma lM (.remote (Dev.tc n : Thread nD τ) (slotM 1) (.dma (sendSm 1)) hsc) (.dma (recvSm 1)) hsrc hdst hsem) kont) Q) := by
  subst hn
  unfold locPts
  rw [slotPts_eq1]
  exact Rounds.wp_send_pointsTo 𝒱₀ ER (sched m ρ) (c : Thread nD τ) none (κ₁ := κ₁) (κ₂ := κ₂)
    (c' := (Dev.tc (fwd 1 c) : Thread nD τ)) (src := (lM : Memref sig .tc .vmem S1x256 .f32)) (dst := (slotM 1 : Memref sig .tc .vmem S1x256 .f32))
    (sS := SemLoc.dma (sendSm 1)) (sem := SemLoc.dma (recvSm 1)) (q := shr 1) (fs := localv m ρ c)
    (r₁ := 0) (r₂ := 0) (d₁ := 0) (d₂ := 0) (fd := fn)
    (by rw [duties_send]; exact Finset.mem_singleton_self _) (by rw [duties_recv]; exact Finset.mem_singleton_self _)
    () () N rfl (amount_send m ρ c 1 0) (amount_recv m ρ (fwd 1 c) 1 0) O hO (W := W)
    (by rw [payload_send]; exact BI.Entails.refl _)
    (by
      rw [payload_recv]; unfold recvPay
      iintro H
      iexists (landedW (fwd 1 c) 1 fn (localv m ρ c))
      isplitl [H]; · rw [slotPts_eq1]; iexact H
      ipureintro
      rw [slot_write_read, bwd_fwd])

set_option maxHeartbeats 1600000 in
/-- Copy 2 of device c at the protocol's cells: the row of maxima read at share (shr 2), row 2 of the landing buffer of the
    device n = fwd 2 c written (substituted, not rewritten). -/
theorem wp_send_slot2 (c n : Dev nD) (hn : n = fwd 2 c)
    {hsc : (slotM 2 : Memref sig (Dev.tc n : Thread nD τ).2.kind .vmem S1x256 .f32).view.ref.isScScratch = false}
    {hsrc : (lM : Memref sig .tc .vmem S1x256 .f32).view.WordExact} {hdst : (slotM 2 : Memref sig .tc .vmem S1x256 .f32).view.WordExact}
    {hsem : DmaTarget.Typed .vmem (.dma (recvSm 2)) (.remote (Dev.tc n : Thread nD τ) (slotM 2 : Memref sig .tc .vmem S1x256 .f32) (.dma (sendSm 2)) hsc)}
    {α : Type} {Q : α → sProp 𝕄} {kont : PUnit → Prog (TpuEff nD τ sig (Elt F) Λ₀ .tc) α}
    (fn : CBuf (F := F) (fwd 2 c)) (O₀' O : CellTallies nD τ sig Unit) (hO : O₀' = O + tallyAt (recvCell (fwd 2 c) 2) () N)
    (W : Waits sig Unit) (κ₁ κ₂ : ℕ) :
    iprop(cellInv ER (sched m ρ) κ₁ (sendCell c 2) ∗ cellInv ER (sched m ρ) κ₂ (recvCell (fwd 2 c) 2)
        ∗ locPts c (shr 2) (localv m ρ c) ∗ slotPts (fwd 2 c) 2 fn
        ∗ owes (c : Thread nD τ) O₀' W
        ∗ dutyTok ER (sendCell c 2) 0 0 ∗ reached ER (sendCell c 2) 0
        ∗ dutyTok ER (recvCell (fwd 2 c) 2) 0 0 ∗ reached ER (recvCell (fwd 2 c) 2) 0)
      ⊢ iprop(((cred (tallyAt (sendCell c 2) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma lM (.remote (Dev.tc n : Thread nD τ) (slotM 2) (.dma (sendSm 2)) hsc) (.dma (recvSm 2)) hsrc hdst hsem) kont) Q) := by
  subst hn
  unfold locPts
  rw [slotPts_eq2]
  exact Rounds.wp_send_pointsTo 𝒱₀ ER (sched m ρ) (c : Thread nD τ) none (κ₁ := κ₁) (κ₂ := κ₂)
    (c' := (Dev.tc (fwd 2 c) : Thread nD τ)) (src := (lM : Memref sig .tc .vmem S1x256 .f32)) (dst := (slotM 2 : Memref sig .tc .vmem S1x256 .f32))
    (sS := SemLoc.dma (sendSm 2)) (sem := SemLoc.dma (recvSm 2)) (q := shr 2) (fs := localv m ρ c)
    (r₁ := 0) (r₂ := 0) (d₁ := 0) (d₂ := 0) (fd := fn)
    (by rw [duties_send]; exact Finset.mem_singleton_self _) (by rw [duties_recv]; exact Finset.mem_singleton_self _)
    () () N rfl (amount_send m ρ c 2 0) (amount_recv m ρ (fwd 2 c) 2 0) O hO (W := W)
    (by rw [payload_send]; exact BI.Entails.refl _)
    (by
      rw [payload_recv]; unfold recvPay
      iintro H
      iexists (landedW (fwd 2 c) 2 fn (localv m ρ c))
      isplitl [H]; · rw [slotPts_eq2]; iexact H
      ipureintro
      rw [slot_write_read, bwd_fwd])

/-- The row of maxima as the store leaves it, quartered. -/
theorem loc_quarter_stored (c : Dev nD) :
    ((View.loc (c : Thread nD τ) ((lM : Memref sig .tc .vmem S1x256 .f32).access r0l) ↦{fullShare} k0_pay1 (xstg m ρ c)) : sProp 𝕄)
      ⊢ iprop(locPts c (shr 0) (localv m ρ c) ∗ locPts c (shr 1) (localv m ρ c) ∗ locPts c (shr 2) (localv m ρ c) ∗ locPts c shrKeep (localv m ρ c)) :=
  loc_quarter c (localv m ρ c)

omit [FloatOps F] in
theorem slotPts_back0 (c : Dev nD) (f : CBuf (F := F) c) :
    (((cM : Memref sig .tc .vmem S3x1x256 .f32).view.loc (c : Thread nD τ) ↦[(slotM 0).view.set]{fullShare} f) : sProp 𝕄) = slotPts c 0 f := rfl

omit [FloatOps F] in
theorem slotPts_back1 (c : Dev nD) (f : CBuf (F := F) c) :
    (((cM : Memref sig .tc .vmem S3x1x256 .f32).view.loc (c : Thread nD τ) ↦[(slotM 1).view.set]{fullShare} f) : sProp 𝕄) = slotPts c 1 f := rfl

omit [FloatOps F] in
theorem slotPts_back2 (c : Dev nD) (f : CBuf (F := F) c) :
    (((cM : Memref sig .tc .vmem S3x1x256 .f32).view.loc (c : Thread nD τ) ↦[(slotM 2).view.set]{fullShare} f) : sProp 𝕄) = slotPts c 2 f := rfl

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part5_eq_skeleton]; unfold k0_part5_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost invs marks posns payToks creds scratches
  iintro ⟨⟨⟨⟨⟨#HIbar, ⟨#HIs0, #HIs1, #HIs2⟩, ⟨#HIr0, #HIr1, #HIr2⟩, ⟨#HIb0, #HIb1, #HIb2⟩, ⟨#HIp0, #HIp1, #HIp2⟩⟩,
      ⟨⟨#HrB0, #HrB1, #HrB2⟩, ⟨#HrP0, #HrP1, #HrP2⟩, ⟨#HrS0, #HrS1, #HrS2⟩, ⟨#HrR0, #HrR1, #HrR2⟩⟩,
      ⟨HatB, ⟨HatS0, HatS1, HatS2⟩, ⟨HatR0, HatR1, HatR2⟩⟩,
      ⟨⟨HtB0, HtB1, HtB2⟩, ⟨HtP0, HtP1, HtP2⟩, ⟨HtS0, HtS1, HtS2⟩⟩⟩,
      ⟨HcB, HcR0, HcR1, HcR2⟩, #Hlev, ⟨⟨%fl, Hloc⟩, ⟨%fc, Hcomm⟩⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the landing buffer cut into its three rows
  ihave Hsl := (comm_split (F := F) c fc) $$ Hcomm
  icases Hsl with ⟨Hsl0, Hsl1, Hsl2⟩
  -- signal 0, to the device one place on: duty (rev 0) of its barrier cell, with row (rev 0) of this device's landing buffer
  iapply (Rounds.wp_signal 𝒱₀ ER (sched m ρ) (c : Thread nD τ) none (dst := (fwd 0 c : Thread nD τ)) (κ := K (fwd 0 c, 0))
      (d := rev 0) (by rw [duties_bar]; exact Finset.mem_univ _) ((amount_bar m ρ (fwd 0 c) (rev 0)).trans (by decide)) () (O₁ c) rfl)
    $$ [HO HtB0 Hsl2]
  · isplitr; · iexact HIb0
    isplitl [HO]; · iexact HO
    isplitl [HtB0]; · iexact HtB0
    isplitl [Hsl2]
    · rw [payload_bar, barPay_mine]
      isplitl [Hsl2]; · iexists fc; iexact Hsl2
      iexact HrR2
    · iexact HrB0
  iintro HO
  unfold O₁
  iapply (Rounds.wp_signal 𝒱₀ ER (sched m ρ) (c : Thread nD τ) none (dst := (fwd 1 c : Thread nD τ)) (κ := K (fwd 1 c, 0))
      (d := rev 1) (by rw [duties_bar]; exact Finset.mem_univ _) ((amount_bar m ρ (fwd 1 c) (rev 1)).trans (by decide)) () (O₂ c) rfl)
    $$ [HO HtB1 Hsl1]
  · isplitr; · iexact HIb1
    isplitl [HO]; · iexact HO
    isplitl [HtB1]; · iexact HtB1
    isplitl [Hsl1]
    · rw [payload_bar, barPay_mine]
      isplitl [Hsl1]; · iexists fc; iexact Hsl1
      iexact HrR1
    · iexact HrB1
  iintro HO
  unfold O₂
  iapply (Rounds.wp_signal 𝒱₀ ER (sched m ρ) (c : Thread nD τ) none (dst := (fwd 2 c : Thread nD τ)) (κ := K (fwd 2 c, 0))
      (d := rev 2) (by rw [duties_bar]; exact Finset.mem_univ _) ((amount_bar m ρ (fwd 2 c) (rev 2)).trans (by decide)) () (Orecv c) rfl)
    $$ [HO HtB2 Hsl0]
  · isplitr; · iexact HIb2
    isplitl [HO]; · iexact HO
    isplitl [HtB2]; · iexact HtB2
    isplitl [Hsl0]
    · rw [payload_bar, barPay_mine]
      isplitl [Hsl0]; · iexists fc; iexact Hsl0
      iexact HrR0
    · iexact HrB2
  iintro HO
  -- the block's column maxima, stored in the row of maxima
  iapply (wp_load 𝒱₀ (c : Thread nD τ) none Set.univ (m := xM) (Finset.subset_univ _)) $$ Hx; iintro Hx
  rw [read_x]
  iapply (wp_load 𝒱₀ (c : Thread nD τ) none Set.univ (m := lM) (Finset.subset_univ _)) $$ Hloc; iintro Hloc
  iapply (wp_store 𝒱₀ (c : Thread nD τ) none Set.univ (m := lM) (r := r0l) (Mk := Finset.univ) (Finset.subset_univ _)) $$ Hloc; iintro Hloc
  rw [write_l]
  -- the WAIT for 3 on its own barrier, owing the three copies' credit: the three rows it will write come with it
  iapply (Rounds.wp_wait_rest_token 𝒱₀ ER (sched m ρ) (c : Thread nD τ) none (κ := K (c, 0))
      (wpE_semWait_eq 𝒱₀ (c : Thread nD τ) none Set.univ) (Set.mem_univ _) () (O := Orecv c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨⟨%fn0, HscrN0⟩, #HrV0'⟩, ⟨⟨%fn1, HscrN1⟩, #HrV1'⟩, ⟨⟨%fn2, HscrN2⟩, #HrV2'⟩⟩
  -- the row of maxima quartered
  ihave Hq := (loc_quarter_stored m ρ c) $$ Hloc
  icases Hq with ⟨Hl0, Hl1, Hl2, Hlk⟩
  unfold Orecv
  -- the three copies
  iapply (wp_send_slot0 m ρ c _ (dev4_eq c) fn0 _ (tallyAt (recvCell (fwd 2 c) 2) () N + tallyAt (recvCell (fwd 1 c) 1) () N) rfl (insert (SemLoc.reg barS, ()) W) (K (c, 1)) (K (fwd 0 c, 4))) $$ [Hl0 HscrN0 HO HtS0 HtP0]
  · isplitr; · iexact HIs0
    isplitr; · iexact HIp0
    isplitl [Hl0]; · iexact Hl0
    isplitl [HscrN0]; · iexact HscrN0
    isplitl [HO]; · iexact HO
    isplitl [HtS0]; · iexact HtS0
    isplitr; · iexact HrS0
    isplitl [HtP0]; · iexact HtP0
    iexact HrP0
  iintro ⟨HcS0, HO⟩
  iapply (wp_send_slot1 m ρ c _ (dev5_eq c) fn1 _ (tallyAt (recvCell (fwd 2 c) 2) () N) rfl (insert (SemLoc.reg barS, ()) W) (K (c, 2)) (K (fwd 1 c, 5))) $$ [Hl1 HscrN1 HO HtS1 HtP1]
  · isplitr; · iexact HIs1
    isplitr; · iexact HIp1
    isplitl [Hl1]; · iexact Hl1
    isplitl [HscrN1]; · iexact HscrN1
    isplitl [HO]; · iexact HO
    isplitl [HtS1]; · iexact HtS1
    isplitr; · iexact HrS1
    isplitl [HtP1]; · iexact HtP1
    iexact HrP1
  iintro ⟨HcS1, HO⟩
  iapply (wp_send_slot2 m ρ c _ (dev6_eq c) fn2 _ 0 (by rw [zero_add]) (insert (SemLoc.reg barS, ()) W) (K (c, 3)) (K (fwd 2 c, 6))) $$ [Hl2 HscrN2 HO HtS2 HtP2]
  · isplitr; · iexact HIs2
    isplitr; · iexact HIp2
    isplitl [Hl2]; · iexact Hl2
    isplitl [HscrN2]; · iexact HscrN2
    isplitl [HO]; · iexact HO
    isplitl [HtS2]; · iexact HtS2
    isplitr; · iexact HrS2
    isplitl [HtP2]; · iexact HtP2
    iexact HrP2
  iintro ⟨HcS2, HO⟩
  -- its own row read again, at the share kept
  unfold locPts
  iapply (wp_load 𝒱₀ (c : Thread nD τ) none Set.univ (m := lM) (by rw [l_set]; exact Finset.subset_univ _)) $$ Hlk; iintro Hlk
  rw [read_l]
  -- the three landings, each waited for and then loaded
  iapply (Rounds.wp_wait_rest_token 𝒱₀ ER (sched m ρ) (c : Thread nD τ) none (κ := K (c, 4))
      (wpE_waitDma2_eq 𝒱₀ (c : Thread nD τ) none Set.univ) (Set.mem_univ _) () (O := 0) (W := (insert (SemLoc.reg barS, ()) W)) (R := 0) (m := 0) (T := ∅)
      (by rw [Nat.zero_add]; exact (expect_recv m ρ c 0).symm)) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hp := (Entails.of_eq (rest_recv m ρ c 0)) $$ [Hpay]
  · iexact Hpay
  unfold recvPay
  icases Hp with ⟨%f0, Hs0, %hf0⟩
  ihave Hs0 := (Entails.of_eq (slotPts_eq0 (F := F) c f0)) $$ Hs0
  iapply (wp_load 𝒱₀ (c : Thread nD τ) none Set.univ (m := cM) slot_load_sub0) $$ Hs0; iintro Hs0
  iapply (Rounds.wp_wait_rest_token 𝒱₀ ER (sched m ρ) (c : Thread nD τ) none (κ := K (c, 6))
      (wpE_waitDma2_eq 𝒱₀ (c : Thread nD τ) none Set.univ) (Set.mem_univ _) () (O := 0) (W := (insert (SemLoc.dma (recvSm 0), ()) (insert (SemLoc.reg barS, ()) W))) (R := 0) (m := 0) (T := ∅)
      (by rw [Nat.zero_add]; exact (expect_recv m ρ c 2).symm)) $$ [HcR2 HO HatR2]
  · isplitr; · iexact HIr2
    isplitl [HcR2]; · iexact HcR2
    isplitl [HO]; · iexact HO
    isplitr; · rw [MayWait_zero]; iempintro
    iexact HatR2
  iintro ⟨HO, HatR2, -, Hpay⟩
  ihave Hp := (Entails.of_eq (rest_recv m ρ c 2)) $$ [Hpay]
  · iexact Hpay
  unfold recvPay
  icases Hp with ⟨%f2, Hs2, %hf2⟩
  ihave Hs2 := (Entails.of_eq (slotPts_eq2 (F := F) c f2)) $$ Hs2
  iapply (wp_load 𝒱₀ (c : Thread nD τ) none Set.univ (m := cM) slot_load_sub2) $$ Hs2; iintro Hs2
  iapply (Rounds.wp_wait_rest_token 𝒱₀ ER (sched m ρ) (c : Thread nD τ) none (κ := K (c, 5))
      (wpE_waitDma2_eq 𝒱₀ (c : Thread nD τ) none Set.univ) (Set.mem_univ _) () (O := 0) (W := (insert (SemLoc.dma (recvSm 2), ()) (insert (SemLoc.dma (recvSm 0), ()) (insert (SemLoc.reg barS, ()) W)))) (R := 0) (m := 0) (T := ∅)
      (by rw [Nat.zero_add]; exact (expect_recv m ρ c 1).symm)) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hp := (Entails.of_eq (rest_recv m ρ c 1)) $$ [Hpay]
  · iexact Hpay
  unfold recvPay
  icases Hp with ⟨%f1, Hs1, %hf1⟩
  ihave Hs1 := (Entails.of_eq (slotPts_eq1 (F := F) c f1)) $$ Hs1
  iapply (wp_load 𝒱₀ (c : Thread nD τ) none Set.univ (m := cM) slot_load_sub1) $$ Hs1; iintro Hs1
  have hval : k0_pay3 (k0_pay2 (localv m ρ c) ((cM : Memref sig .tc .vmem S3x1x256 .f32).view.readAt (Elt F) (rectK 0).toLoadRect f0)
        ((cM : Memref sig .tc .vmem S3x1x256 .f32).view.readAt (Elt F) (rectK 2).toLoadRect f2))
        ((cM : Memref sig .tc .vmem S3x1x256 .f32).view.readAt (Elt F) (rectK 1).toLoadRect f1) = outAt m ρ c := by
    rw [pay_eq]; unfold outAt; rw [← hf0, ← hf2, ← hf1]; rfl
  -- the result stored
  iapply (wp_load 𝒱₀ (c : Thread nD τ) none Set.univ (m := oM) (Finset.subset_univ _)) $$ Hout; iintro Hout
  iapply (wp_store 𝒱₀ (c : Thread nD τ) none Set.univ (m := oM) (r := r0l) (Mk := Finset.univ) (Finset.subset_univ _)) $$ Hout; iintro Hout
  rw [write_out, hval]
  -- the three copies read to the end: the shares of the row of maxima back
  iapply (Rounds.wp_wait_rest_token 𝒱₀ ER (sched m ρ) (c : Thread nD τ) none (κ := K (c, 1))
      (wpE_waitDma2_eq 𝒱₀ (c : Thread nD τ) none Set.univ) (Set.mem_univ _) () (O := 0) (W := (insert (SemLoc.dma (recvSm 1), ()) (insert (SemLoc.dma (recvSm 2), ()) (insert (SemLoc.dma (recvSm 0), ()) (insert (SemLoc.reg barS, ()) W))))) (R := 0) (m := 0) (T := ∅)
      (by rw [Nat.zero_add]; exact (expect_send m ρ c 0).symm)) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hl0 := (Entails.of_eq (rest_send m ρ c 0)) $$ [Hpay]
  · iexact Hpay
  iapply (Rounds.wp_wait_rest_token 𝒱₀ ER (sched m ρ) (c : Thread nD τ) none (κ := K (c, 2))
      (wpE_waitDma2_eq 𝒱₀ (c : Thread nD τ) none Set.univ) (Set.mem_univ _) () (O := 0) (W := (insert (SemLoc.dma (sendSm 0), ()) (insert (SemLoc.dma (recvSm 1), ()) (insert (SemLoc.dma (recvSm 2), ()) (insert (SemLoc.dma (recvSm 0), ()) (insert (SemLoc.reg barS, ()) W)))))) (R := 0) (m := 0) (T := ∅)
      (by rw [Nat.zero_add]; exact (expect_send m ρ c 1).symm)) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hl1 := (Entails.of_eq (rest_send m ρ c 1)) $$ [Hpay]
  · iexact Hpay
  iapply (Rounds.wp_wait_rest_token 𝒱₀ ER (sched m ρ) (c : Thread nD τ) none (κ := K (c, 3))
      (wpE_waitDma2_eq 𝒱₀ (c : Thread nD τ) none Set.univ) (Set.mem_univ _) () (O := 0) (W := (insert (SemLoc.dma (sendSm 1), ()) (insert (SemLoc.dma (sendSm 0), ()) (insert (SemLoc.dma (recvSm 1), ()) (insert (SemLoc.dma (recvSm 2), ()) (insert (SemLoc.dma (recvSm 0), ()) (insert (SemLoc.reg barS, ()) W))))))) (R := 0) (m := 0) (T := ∅)
      (by rw [Nat.zero_add]; exact (expect_send m ρ c 2).symm)) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave Hl2 := (Entails.of_eq (rest_send m ρ c 2)) $$ [Hpay]
  · iexact Hpay
  -- the six own cells close: their counters at zero are the core's again
  imod (Rounds.cell_close ER (sched m ρ) (Set.mem_univ (K (c, 1))) (fun h => h) (R := 0 + 1) (duties_later m ρ (sendCell c 0))) $$ [HatS0] with HzS0
  · isplitr; · iexact HIs0
    iexact HatS0
  imod (Rounds.cell_close ER (sched m ρ) (Set.mem_univ (K (c, 2))) (fun h => h) (R := 0 + 1) (duties_later m ρ (sendCell c 1))) $$ [HatS1] with HzS1
  · isplitr; · iexact HIs1
    iexact HatS1
  imod (Rounds.cell_close ER (sched m ρ) (Set.mem_univ (K (c, 3))) (fun h => h) (R := 0 + 1) (duties_later m ρ (sendCell c 2))) $$ [HatS2] with HzS2
  · isplitr; · iexact HIs2
    iexact HatS2
  imod (Rounds.cell_close ER (sched m ρ) (Set.mem_univ (K (c, 4))) (fun h => h) (R := 0 + 1) (duties_later m ρ (recvCell c 0))) $$ [HatR0] with HzR0
  · isplitr; · iexact HIr0
    iexact HatR0
  imod (Rounds.cell_close ER (sched m ρ) (Set.mem_univ (K (c, 5))) (fun h => h) (R := 0 + 1) (duties_later m ρ (recvCell c 1))) $$ [HatR1] with HzR1
  · isplitr; · iexact HIr1
    iexact HatR1
  imod (Rounds.cell_close ER (sched m ρ) (Set.mem_univ (K (c, 6))) (fun h => h) (R := 0 + 1) (duties_later m ρ (recvCell c 2))) $$ [HatR2] with HzR2
  · isplitr; · iexact HIr2
    iexact HatR2
  ihave Hs0 := (Entails.of_eq (slotPts_back0 (F := F) c f0)) $$ Hs0
  ihave Hs1 := (Entails.of_eq (slotPts_back1 (F := F) c f1)) $$ Hs1
  ihave Hs2 := (Entails.of_eq (slotPts_back2 (F := F) c f2)) $$ Hs2
  rw [wp_ret]; imodintro
  iapply Hk
  unfold bodyPost Φ₁ scratches Dat.owesAt Pipeline.owesWithin sendPay
  rw [show (dats m ρ 0 c).owed t₀.succ = 0 from rfl]
  isplitl [Hl0 Hl1 Hl2 Hlk Hs0 Hs1 Hs2 HzS0 HzS1 HzS2 HzR0 HzR1 HzR2]
  · isplitl [Hl0 Hl1 Hl2 Hlk Hs0 Hs1 Hs2]
    · isplitl [Hl0 Hl1 Hl2 Hlk]
      · iexists (localv m ρ c)
        iapply (loc_unquarter (F := F) c (localv m ρ c))
        unfold locPts
        isplitl [Hl0]; · iexact Hl0
        isplitl [Hl1]; · iexact Hl1
        isplitl [Hl2]; · iexact Hl2
        iexact Hlk
      · iapply (comm_join (F := F) c f0 f1 f2)
        isplitl [Hs0]; · iexact Hs0
        isplitl [Hs1]; · iexact Hs1
        iexact Hs2
    isplitl [HzS0 HzS1 HzS2]
    · isplitl [HzS0]; · iexact HzS0
      isplitl [HzS1]; · iexact HzS1
      iexact HzS2
    · isplitl [HzR0]; · iexact HzR0
      isplitl [HzR1]; · iexact HzR1
      iexact HzR2
  isplitl [HO]
  · iexists (insert (SemLoc.dma (sendSm 2), ()) (insert (SemLoc.dma (sendSm 1), ()) (insert (SemLoc.dma (sendSm 0), ()) (insert (SemLoc.dma (recvSm 1), ()) (insert (SemLoc.dma (recvSm 2), ()) (insert (SemLoc.dma (recvSm 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-- info: 'Cert.KernelIdealProof.body_obligation' depends on axioms: [propext, Classical.choice, Quot.sound] -/
#guard_msgs in #print axioms body_obligation

end Body
end Cert.KernelIdealProof
end
-- ==== Proof.Launch.lean ====
/-
  The launch of the four-device all-reduce of column maxima: the protocol's cells and duty tokens funded
  in the launch element, every device's cells' invariants allocated in one step over all devices, the
  tokens dealt around the ring to the devices that pay them, the launch credit counted, and the run of
  the program from any memory with zero counters to each device's arrays at their final contents.
-/
import proofs.«900927_g7700000000000928_dist_max_ax0_shard0_i_m512_n256_v7x_i4_f32_1_alg».proof.Proof.Body
import proofs.«900927_g7700000000000928_dist_max_ax0_shard0_i_m512_n256_v7x_i4_f32_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdealProof

open Cert.KernelIdeal Cert.KernelIdeal.Gen
open Cert.Mesh4

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-! ### The cells and the duty tokens of the launch element -/

theorem dma_ne_reg (q : DmaSem sig) : (SemLoc.dma q : SemLoc sig) ≠ .reg barS := fun h => by cases h

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def protoCells : Finset (GSem nD τ sig) := Finset.univ.map ⟨kcell, kcell_injective⟩

/-- A device's own cells' duty tokens as minted: (device, which of the nine) — its barrier's three duties, the one duty
    of each of its send cells, the one duty of each of its receive cells. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0)
  | 6 => (recvCell cj.1 0, 0, 0) | 7 => (recvCell cj.1 1, 0, 0) | 8 => (recvCell cj.1 2, 0, 0)

/-- Which of the nine a token is, read off its semaphore and its duty alone. -/
abbrev tokCode (j : Fin 9) : SemLoc sig × Fin 3 := match j with
  | 0 => (.reg barS, 0) | 1 => (.reg barS, 1) | 2 => (.reg barS, 2)
  | 3 => (.dma (sendSm 0), 0) | 4 => (.dma (sendSm 1), 0) | 5 => (.dma (sendSm 2), 0)
  | 6 => (.dma (recvSm 0), 0) | 7 => (.dma (recvSm 1), 0) | 8 => (.dma (recvSm 2), 0)
theorem tokCode_injective : Function.Injective tokCode := by decide
theorem tokOf_dev (c : Dev nD) (j : Fin 9) : (tokOf (c, j)).1.1.1 = c := by fin_cases j <;> rfl
theorem tokOf_code (c : Dev nD) (j : Fin 9) : ((tokOf (c, j)).1.2, (tokOf (c, j)).2.2) = tokCode j := by fin_cases j <;> rfl

theorem tokOf_injective : Function.Injective (tokOf : Dev nD × Fin 9 → GSem nD τ sig × ℕ × Fin 3) := by
  rintro ⟨c, j⟩ ⟨c', j'⟩ h
  have h1 : c = c' := by
    have := congrArg (fun x : GSem nD τ sig × ℕ × Fin 3 => x.1.1.1) h
    rwa [tokOf_dev, tokOf_dev] at this
  subst h1
  have h2 : j = j' := tokCode_injective (by
    rw [← tokOf_code c j, ← tokOf_code c j']
    exact congrArg (fun x : GSem nD τ sig × ℕ × Fin 3 => (x.1.2, x.2.2)) h)
  subst h2; rfl
def protoToks : Finset (GSem nD τ sig × ℕ × Fin 3) := Finset.univ.map ⟨tokOf, tokOf_injective⟩

def u₀ : UU :=
  (initOf (Pipeline.cells cfgs cellOf_inj) (Pipeline.launchToks cfgs cellOf_inj), initOf protoCells protoToks)

/-- The duty tokens of device c's own cells. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device c. -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the step over all devices makes of it. -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 7 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin9]; rfl
  iintro HX
  imod (Rounds.fund ER (sched m ρ) protoCells protoToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The three send and three receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨HS0, HS1, HS2, HV0, HV1, HV2⟩, HB⟩
  isplitl [HB]; · iexact HB
  isplitl [HS0]; · iexact HS0
  isplitl [HS1]; · iexact HS1
  isplitl [HS2]; · iexact HS2
  isplitl [HV0]; · iexact HV0
  isplitl [HV1]; · iexact HV1
  iexact HV2

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 7 => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k : Fin 7 => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants of every device's cells under the names they were allocated at, and that round 0 of each is reached. -/
def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device c: its positions, and the tokens of the duties it pays. -/
def linear (c : Dev nD) : sProp 𝕄 := iprop(posns c ∗ payToks c)

theorem ghost_intro (K : Dev nD × Fin 7 → ℕ) (c : Dev nD) : iprop(records m ρ K ∗ linear c) ⊢ G' m ρ c := by
  unfold records linear G' ghost
  iintro ⟨⟨#HI, #HR⟩, Hpos, Htok⟩
  iexists K
  isplitr
  · unfold invs
    isplitr; · iapply (inv_at m ρ K (c, 0)); iexact HI
    isplitr
    · isplitr; · iapply (inv_at m ρ K (c, 1)); iexact HI
      isplitr; · iapply (inv_at m ρ K (c, 2)); iexact HI
      iapply (inv_at m ρ K (c, 3)); iexact HI
    isplitr
    · isplitr; · iapply (inv_at m ρ K (c, 4)); iexact HI
      isplitr; · iapply (inv_at m ρ K (c, 5)); iexact HI
      iapply (inv_at m ρ K (c, 6)); iexact HI
    isplitr
    · isplitr; · iapply (inv_at m ρ K (fwd 0 c, 0)); iexact HI
      isplitr; · iapply (inv_at m ρ K (fwd 1 c, 0)); iexact HI
      iapply (inv_at m ρ K (fwd 2 c, 0)); iexact HI
    · isplitr; · iapply (inv_at m ρ K (fwd 0 c, 4)); iexact HI
      isplitr; · iapply (inv_at m ρ K (fwd 1 c, 5)); iexact HI
      iapply (inv_at m ρ K (fwd 2 c, 6)); iexact HI
  isplitr
  · unfold marks
    isplitr
    · isplitr; · iapply (reached_at (F := F) (fwd 0 c, 0)); iexact HR
      isplitr; · iapply (reached_at (F := F) (fwd 1 c, 0)); iexact HR
      iapply (reached_at (F := F) (fwd 2 c, 0)); iexact HR
    isplitr
    · isplitr; · iapply (reached_at (F := F) (fwd 0 c, 4)); iexact HR
      isplitr; · iapply (reached_at (F := F) (fwd 1 c, 5)); iexact HR
      iapply (reached_at (F := F) (fwd 2 c, 6)); iexact HR
    isplitr
    · isplitr; · iapply (reached_at (F := F) (c, 1)); iexact HR
      isplitr; · iapply (reached_at (F := F) (c, 2)); iexact HR
      iapply (reached_at (F := F) (c, 3)); iexact HR
    · isplitr; · iapply (reached_at (F := F) (c, 4)); iexact HR
      isplitr; · iapply (reached_at (F := F) (c, 5)); iexact HR
      iapply (reached_at (F := F) (c, 6)); iexact HR
  isplitl [Hpos]; · iexact Hpos
  iexact Htok

/-- The tokens dealt around the ring. Duty e of a device's barrier cell is paid by the device e+1 places on (whose signal
    of distance (rev e)+1 reaches it), so the token goes there: summed over the ring, the tokens of duty e are the tokens
    each device holds for the barrier cell (rev e)+1 places on. The token of receive cell k goes to the device k+1 places
    before, whose copy k lands there. The send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (ring 2) (fun c : Dev nD => (dutyTok ER (barCell c) 0 0 : sProp 𝕄)),
    bigSep_univ_equiv (ring 1) (fun c : Dev nD => (dutyTok ER (barCell c) 0 1 : sProp 𝕄)),
    bigSep_univ_equiv (ring 0) (fun c : Dev nD => (dutyTok ER (barCell c) 0 2 : sProp 𝕄)),
    bigSep_univ_equiv (ring 0) (fun c : Dev nD => (dutyTok ER (recvCell c 0) 0 0 : sProp 𝕄)),
    bigSep_univ_equiv (ring 1) (fun c : Dev nD => (dutyTok ER (recvCell c 1) 0 0 : sProp 𝕄)),
    bigSep_univ_equiv (ring 2) (fun c : Dev nD => (dutyTok ER (recvCell c 2) 0 0 : sProp 𝕄))]
  iintro ⟨B0, B1, B2, S0, S1, S2, R0, R1, R2⟩
  isplitl [B0 B1 B2]
  · isplitl [B2]; · iexact B2
    isplitl [B1]; · iexact B1
    iexact B0
  isplitl [R0 R1 R2]
  · isplitl [R0]; · iexact R0
    isplitl [R1]; · iexact R1
    iexact R2
  isplitl [S0]; · iexact S0
  isplitl [S1]; · iexact S1
  iexact S2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem posns_intro (c : Dev nD) : (bigSep Finset.univ fun k : Fin 7 => (atPos ER (kcell (c, k)) 0 ∅ 0 : sProp 𝕄)) ⊢ posns c := by
  rw [bigSep_fin7]; unfold posns
  iintro ⟨H0, H1, H2, H3, H4, H5, H6⟩
  isplitl [H0]; · iexact H0
  isplitl [H1 H2 H3]
  · isplitl [H1]; · iexact H1
    isplitl [H2]; · iexact H2
    iexact H3
  isplitl [H4]; · iexact H4
  isplitl [H5]; · iexact H5
  iexact H6

theorem regroup :
    (bigSep Finset.univ fun c : Dev nD => iprop((bigSep Finset.univ fun k : Fin 7 => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from by unfold linear; exact sep_mono_left (posns_intro c)))
    isplitl [Hat]; · iexact Hat
    iexact Htk

/-- The step over all devices: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {j k : Fin 3} : Iff (recvCell a j = recvCell b k) (a = b ∧ j = k) :=
  ⟨fun h => ⟨Fin.ext (congrArg (fun g : GSem nD τ sig => g.1.1.val) h), by
      have h2 : (SemLoc.dma (recvSm j) : SemLoc sig) = .dma (recvSm k) := congrArg Prod.snd h
      have h3 : 5 + j.val = 5 + k.val := congrArg Fin.val (SemLoc.dma.inj h2)
      exact Fin.ext (by omega)⟩,
    fun h => by obtain ⟨rfl, rfl⟩ := h; rfl⟩
theorem bar_ne_recv (a b : Dev nD) (k : Fin 3) : barCell a ≠ recvCell b k := fun h => dma_ne_reg _ (congrArg Prod.snd h).symm

/-- What the signal of distance k+1 of device d owes the barrier cell of c: its unit, if c is where it lands. -/
theorem tally_bar (d c : Dev nD) (k : Fin 3) : tallyAt (barCell (fwd k d)) () 1 (barCell c) () = if d = bwd k c then 1 else 0 := by
  rw [tallyAt_apply]
  by_cases h : d = bwd k c
  · subst h; rw [fwd_bwd, if_pos ⟨rfl, rfl⟩, if_pos rfl]
  · rw [if_neg (fun h' => h (by rw [bar_eq_iff.mp h'.1, bwd_fwd])), if_neg h]

/-- What copy j of device d owes receive cell k of c: the row's credit, if that is the cell it lands on. -/
theorem tally_recv (d c : Dev nD) (j k : Fin 3) :
    tallyAt (recvCell (fwd j d) j) () N (recvCell c k) () = if j = k ∧ d = bwd k c then N else 0 := by
  rw [tallyAt_apply]
  by_cases h : j = k ∧ d = bwd k c
  · obtain ⟨rfl, rfl⟩ := h; rw [fwd_bwd, if_pos ⟨rfl, rfl⟩, if_pos ⟨rfl, rfl⟩]
  · rw [if_neg h, if_neg]
    intro h'
    obtain ⟨hc, hk⟩ := recv_eq_iff.mp h'.1
    subst hk
    exact h ⟨rfl, by rw [hc, bwd_fwd]⟩

theorem Orecv_bar (d c : Dev nD) : Orecv d (barCell c) () = 0 := by
  unfold Orecv
  rw [Pi.add_apply, Finsupp.add_apply, Pi.add_apply, Finsupp.add_apply,
    tallyAt_ne_cell (bar_ne_recv _ _ _), tallyAt_ne_cell (bar_ne_recv _ _ _), tallyAt_ne_cell (bar_ne_recv _ _ _), Finsupp.zero_apply]
  rfl

/-- What device d owes device c's barrier cell: a unit if it is one, two or three places before c — every device but c. -/
theorem owed_bar (d c : Dev nD) :
    O₀ d (barCell c) () = (if d = bwd 0 c then 1 else 0) + (if d = bwd 1 c then 1 else 0) + (if d = bwd 2 c then 1 else 0) := by
  unfold O₀ O₁ O₂
  rw [Pi.add_apply, Finsupp.add_apply, Pi.add_apply, Finsupp.add_apply, Pi.add_apply, Finsupp.add_apply,
    Orecv_bar, tally_bar, tally_bar, tally_bar]
  omega

theorem owed_recv (d c : Dev nD) (k : Fin 3) : O₀ d (recvCell c k) () = if d = bwd k c then N else 0 := by
  unfold O₀ O₁ O₂ Orecv
  rw [Pi.add_apply, Finsupp.add_apply, Pi.add_apply, Finsupp.add_apply, Pi.add_apply, Finsupp.add_apply,
    Pi.add_apply, Finsupp.add_apply, Pi.add_apply, Finsupp.add_apply,
    tallyAt_ne_cell (bar_ne_recv _ _ _).symm, tallyAt_ne_cell (bar_ne_recv _ _ _).symm, tallyAt_ne_cell (bar_ne_recv _ _ _).symm,
    Finsupp.zero_apply, tally_recv, tally_recv, tally_recv]
  fin_cases k <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (bwd 0 c) fun _ => 1, Finset.sum_ite_eq' Finset.univ (bwd 1 c) fun _ => 1, Finset.sum_ite_eq' Finset.univ (bwd 2 c) fun _ => 1,
    if_pos (Finset.mem_univ _), if_pos (Finset.mem_univ _), if_pos (Finset.mem_univ _)]

theorem launch_recv (c : Dev nD) (k : Fin 3) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (bwd k c) fun _ => N,
    if_pos (Finset.mem_univ _)]

theorem creds_intro (c : Dev nD) : (Pipeline.launchCred O₀ c : sProp 𝕄) ⊢ creds c := by
  unfold Pipeline.launchCred creds
  rw [bigSep_univ_at _ (SemLoc.reg barS), launch_bar]
  refine sep_mono_right ?_
  rw [bigSep_erase (i := SemLoc.dma (recvSm 0)) (Finset.mem_erase.mpr ⟨dma_ne_reg _, Finset.mem_univ _⟩), launch_recv]
  refine sep_mono_right ?_
  rw [bigSep_erase (i := SemLoc.dma (recvSm 1)) (Finset.mem_erase.mpr ⟨by decide, Finset.mem_erase.mpr ⟨dma_ne_reg _, Finset.mem_univ _⟩⟩), launch_recv]
  refine sep_mono_right ?_
  rw [← launch_recv]
  exact bigSep_elim (Finset.mem_erase.mpr ⟨by decide, Finset.mem_erase.mpr ⟨by decide, Finset.mem_erase.mpr ⟨dma_ne_reg _, Finset.mem_univ _⟩⟩⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratches
  iintro ⟨Hr, ⟨HS0, HS1, HS2⟩, HV0, HV1, HV2⟩
  isplitr; · iempintro
  isplitr [Hr]
  · isplitl [HS0]; · iexact HS0
    isplitl [HS1]; · iexact HS1
    isplitl [HS2]; · iexact HS2
    isplitl [HV0]; · iexact HV0
    isplitl [HV1]; · iexact HV1
    iexact HV2
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- Device c's arrays after the run: each window's array after the write-backs of the one point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The run from the body obligation: at the compiled mesh of four devices, for any float values, from any memory with zero
    counters, if every device's body meets its obligation then every weakly fair execution of the program terminates and
    every final state has each device's arrays at their final contents. -/
theorem run_main_of (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main_of' depends on axioms: [propext, Classical.choice, Quot.sound] -/
#guard_msgs in #print axioms run_main_of

/-- At the compiled mesh of four devices, for any float values, from any memory with zero counters: every weakly fair
    execution of the program — the four kernels signalling each other's barrier semaphore, waiting for the three others,
    copying their rows of column maxima into each other's landing buffers and folding what landed — terminates, and
    every final state has each device's result array at the computed contents and its block of x unchanged. -/
theorem run_main : θ_run defs (onTc (τ := τ) (main (F := F))) (s₀ m ρ) (QC m ρ) := run_main_of m ρ (body_obligation m ρ)

/-- info: 'Cert.KernelIdealProof.run_main' depends on axioms: [propext, Classical.choice, Quot.sound] -/
#guard_msgs in #print axioms run_main

/-- The array of x after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The output window's one block is the whole result array: read through it, the array is itself. -/
theorem read_blk_out (c : Dev nD) (X : Buf (Elt F) ((cfg0.win (1 : Fin 2)).arr.view.loc (c : Thread nD τ))) :
    ((cfg0.win (1 : Fin 2)).blk t₀).view.read (Elt F) X = X :=
  Memref.read_access_unit_zero (Elt F) main_v1 (funext fun a => by fin_cases a <;> rfl) _ X

/-- The result array after the run holds the maximum of the four devices' rows of column maxima: the output window's one
    block is the whole array, written back at the one point with what the body left in its staging buffer. -/
theorem finalA_out (c : Dev nD) : finalA m ρ c (1 : Fin 2) = outAt m ρ c := by
  show (dats m ρ 0 c).arrAt (1 : Fin 2) (t₀.val + 1) = outAt m ρ c
  rw [Dat.arrAt_succ, flush0_1 t₀, if_pos rfl]
  exact (read_blk_out c _).symm.trans (View.read_write_univ _ _)

/-- info: 'Cert.KernelIdealProof.finalA_x' depends on axioms: [propext, Classical.choice, Quot.sound] -/
#guard_msgs in #print axioms finalA_x

/-- info: 'Cert.KernelIdealProof.finalA_out' depends on axioms: [propext, Classical.choice, Quot.sound] -/
#guard_msgs in #print axioms finalA_out

end Cert.KernelIdealProof

end
-- ==== Proof.KSlots.lean ====
/-
  The buffers of one device of the all-reduce: the staged block of x, the result row, the row of local
  column maxima (one row of 256), and the landing buffer of three rows, one per sender; the landing
  buffer cut into its three rows and put together again; what a row holds after a sender's copy landed.
-/
import proofs.«900927_g7700000000000928_dist_max_ax0_shard0_i_m512_n256_v7x_i4_f32_1_alg».proof.Proof.Gen.Kernel.Skeleton
import proofs.«900927_g7700000000000928_dist_max_ax0_shard0_i_m512_n256_v7x_i4_f32_1_alg».proof.Proof.Gen.Kernel.Launch
import proofs.«900927_g7700000000000928_dist_max_ax0_shard0_i_m512_n256_v7x_i4_f32_1_alg».proof.Proof.Mesh4
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen
open Cert.Mesh4

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties Unit) and the protocol's (duties Fin 3) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The memrefs -/

abbrev xM : Memref sig .tc .vmem S512x256 .f32 := Memref.whole cc0_stg0_0
abbrev oM : Memref sig .tc .vmem S1x256 .f32 := Memref.whole cc0_stg1_0
/-- The row of the device's own column maxima. -/
abbrev lM : Memref sig .tc .vmem S1x256 .f32 := Memref.whole cc0_scratch0
/-- The landing buffer: three rows. -/
abbrev cM : Memref sig .tc .vmem S3x1x256 .f32 := Memref.whole cc0_scratch1

/-- Row k of the landing buffer, as the access of a load reads it. -/
abbrev rectK : Fin 3 → Rect S3x1x256
  | 0 => Rect.unit (s := S3x1x256) ![0, 0, 0] S1x1x256.size inb_S3x1x256_S1x1x256_0_0_0
  | 1 => Rect.unit (s := S3x1x256) ![1, 0, 0] S1x1x256.size inb_S3x1x256_S1x1x256_1_0_0
  | 2 => Rect.unit (s := S3x1x256) ![2, 0, 0] S1x1x256.size inb_S3x1x256_S1x1x256_2_0_0

/-- Row k of the landing buffer as a memref of one row: what a copy is addressed to. -/
abbrev slotM : Fin 3 → Memref sig .tc .vmem S1x256 .f32
  | 0 => (cM.slice (Rect.unit (s := S3x1x256) ![0, 0, 0] S1x1x256.size inb_S3x1x256_S1x1x256_0_0_0) (fun _ => rfl)).squeeze S1x256 squeezes_S1x1x256_S1x256
  | 1 => (cM.slice (Rect.unit (s := S3x1x256) ![1, 0, 0] S1x1x256.size inb_S3x1x256_S1x1x256_1_0_0) (fun _ => rfl)).squeeze S1x256 squeezes_S1x1x256_S1x256
  | 2 => (cM.slice (Rect.unit (s := S3x1x256) ![2, 0, 0] S1x1x256.size inb_S3x1x256_S1x1x256_2_0_0) (fun _ => rfl)).squeeze S1x256 squeezes_S1x1x256_S1x256

/-- The contents of a device's landing buffer. -/
abbrev CBuf (c : Dev nD) : Type := Buf (Elt F) ((cM : Memref sig .tc .vmem S3x1x256 .f32).view.loc (c : Thread nD τ))
/-- The contents of a device's row of maxima. -/
abbrev LBuf (c : Dev nD) : Type := Buf (Elt F) ((lM : Memref sig .tc .vmem S1x256 .f32).view.loc (c : Thread nD τ))

/-- Row k of device c's landing buffer, owned whole, at contents f (only the row's entries matter). -/
def slotPts (c : Dev nD) (k : Fin 3) (f : CBuf (F := F) c) : sProp 𝕄 :=
  match k with
  | 0 => (slotM 0).view.loc (c : Thread nD τ) ↦[(slotM 0).view.set]{fullShare} f
  | 1 => (slotM 1).view.loc (c : Thread nD τ) ↦[(slotM 1).view.set]{fullShare} f
  | 2 => (slotM 2).view.loc (c : Thread nD τ) ↦[(slotM 2).view.set]{fullShare} f

/-- Device c's row of maxima, at share q. -/
def locPts (c : Dev nD) (q : PosShare TreeShare) (f : LBuf (F := F) c) : sProp 𝕄 :=
  (lM : Memref sig .tc .vmem S1x256 .f32).view.loc (c : Thread nD τ) ↦[(lM : Memref sig .tc .vmem S1x256 .f32).view.set]{q} f

/-- What a load of row k of the landing buffer yields, as one row. -/
def slotVal (c : Dev nD) (k : Fin 3) (f : CBuf (F := F) c) : FVec F S1x256 .f32 :=
  match k with
  | 0 => shapeCast S1x256 ((cM : Memref sig .tc .vmem S3x1x256 .f32).view.readAt (Elt F) (rectK 0).toLoadRect f) shapeCasts_S1x1x256_S1x256
  | 1 => shapeCast S1x256 ((cM : Memref sig .tc .vmem S3x1x256 .f32).view.readAt (Elt F) (rectK 1).toLoadRect f) shapeCasts_S1x1x256_S1x256
  | 2 => shapeCast S1x256 ((cM : Memref sig .tc .vmem S3x1x256 .f32).view.readAt (Elt F) (rectK 2).toLoadRect f) shapeCasts_S1x1x256_S1x256

/-- The landing buffer after a copy of the row v of maxima into its row k, from contents fd. -/
def landedW (c : Dev nD) (k : Fin 3) (fd : CBuf (F := F) c) (v : (cc0_scratch0 : Ref sig .tc).ty.Contents (Elt F)) : CBuf (F := F) c :=
  match k with
  | 0 => (slotM 0).view.write (Elt F) fd ((lM : Memref sig .tc .vmem S1x256 .f32).view.read (Elt F) v) Finset.univ
  | 1 => (slotM 1).view.write (Elt F) fd ((lM : Memref sig .tc .vmem S1x256 .f32).view.read (Elt F) v) Finset.univ
  | 2 => (slotM 2).view.write (Elt F) fd ((lM : Memref sig .tc .vmem S1x256 .f32).view.read (Elt F) v) Finset.univ

omit [FloatOps F] in
instance slotPts_storable (c : Dev nD) (k : Fin 3) (f : CBuf (F := F) c) : BI.Storable (upEmb : UEmb _ 𝕄) (slotPts c k f) := by
  unfold slotPts; split <;> infer_instance
omit [FloatOps F] in
instance locPts_storable (c : Dev nD) (q) (f : LBuf (F := F) c) : BI.Storable (upEmb : UEmb _ 𝕄) (locPts c q f) := by
  unfold locPts; infer_instance

/-! ## The rows as sets of entries -/

omit [FloatOps F] in
/-- The entries of the squeezed slice of the landing buffer at a rectangle are the entries of the rectangle. -/
theorem slotM_set_eq (r : Rect S3x1x256) (hr : ∀ a, r.stride a = 1) (hq : r.shape.Squeezes S1x256) :
    (((cM : Memref sig .tc .vmem S3x1x256 .f32).slice r hr).squeeze S1x256 hq).view.set = r.set :=
  (View.set_reshape ((cM : Memref sig .tc .vmem S3x1x256 .f32).view.slice r) hq.numel_eq).trans (View.set_slice_whole cc0_scratch1 r)

omit [FloatOps F] in
theorem slotM_set0 : (slotM 0).view.set = (rectK 0).set := slotM_set_eq _ (fun _ => rfl) squeezes_S1x1x256_S1x256
omit [FloatOps F] in
theorem slotM_set1 : (slotM 1).view.set = (rectK 1).set := slotM_set_eq _ (fun _ => rfl) squeezes_S1x1x256_S1x256
omit [FloatOps F] in
theorem slotM_set2 : (slotM 2).view.set = (rectK 2).set := slotM_set_eq _ (fun _ => rfl) squeezes_S1x1x256_S1x256

omit [FloatOps F] in
/-- Two different rows share no entry: they are apart on the first axis. -/
theorem rectK_disj01 : Disjoint (rectK 0).set (rectK 1).set :=
  Rect.unit_disjoint (0 : Fin 3) (Or.inl (by decide))
omit [FloatOps F] in
theorem rectK_disj02 : Disjoint (rectK 0).set (rectK 2).set :=
  Rect.unit_disjoint (0 : Fin 3) (Or.inl (by decide))
omit [FloatOps F] in
theorem rectK_disj12 : Disjoint (rectK 1).set (rectK 2).set :=
  Rect.unit_disjoint (0 : Fin 3) (Or.inl (by decide))

omit [FloatOps F] in
/-- Every entry of the landing buffer lies in one of its three rows: its first coordinate is 0, 1 or 2. -/
theorem rectK_cover : (rectK 0).set ∪ ((rectK 1).set ∪ (rectK 2).set) = (Finset.univ : Finset S3x1x256.Idx) := by
  ext i
  simp only [Finset.mem_union, Finset.mem_univ, iff_true, Rect.mem_set_unit]
  have h0 : (i 0 : ℕ) < 3 := (i 0).isLt
  have h1 : (i 1 : ℕ) < 1 := (i 1).isLt
  have h2 : (i 2 : ℕ) < 256 := (i 2).isLt
  rcases (show (i 0 : ℕ) = 0 ∨ (i 0 : ℕ) = 1 ∨ (i 0 : ℕ) = 2 by omega) with h | h | h
  · refine Or.inl fun a => ?_
    match a with
    | ⟨0, _⟩ => exact ⟨by show 0 ≤ (i 0 : ℕ); omega, by show (i 0 : ℕ) < 0 + 1; omega⟩
    | ⟨1, _⟩ => exact ⟨by show 0 ≤ (i 1 : ℕ); omega, by show (i 1 : ℕ) < 0 + 1; omega⟩
    | ⟨2, _⟩ => exact ⟨by show 0 ≤ (i 2 : ℕ); omega, by show (i 2 : ℕ) < 0 + 256; omega⟩
  · refine Or.inr (Or.inl fun a => ?_)
    match a with
    | ⟨0, _⟩ => exact ⟨by show 1 ≤ (i 0 : ℕ); omega, by show (i 0 : ℕ) < 1 + 1; omega⟩
    | ⟨1, _⟩ => exact ⟨by show 0 ≤ (i 1 : ℕ); omega, by show (i 1 : ℕ) < 0 + 1; omega⟩
    | ⟨2, _⟩ => exact ⟨by show 0 ≤ (i 2 : ℕ); omega, by show (i 2 : ℕ) < 0 + 256; omega⟩
  · refine Or.inr (Or.inr fun a => ?_)
    match a with
    | ⟨0, _⟩ => exact ⟨by show 2 ≤ (i 0 : ℕ); omega, by show (i 0 : ℕ) < 2 + 1; omega⟩
    | ⟨1, _⟩ => exact ⟨by show 0 ≤ (i 1 : ℕ); omega, by show (i 1 : ℕ) < 0 + 1; omega⟩
    | ⟨2, _⟩ => exact ⟨by show 0 ≤ (i 2 : ℕ); omega, by show (i 2 : ℕ) < 0 + 256; omega⟩

omit [FloatOps F] in
/-- A load of row k reads entries of row k only. -/
theorem slot_load_sub0 :
    (cM : Memref sig .tc .vmem S3x1x256 .f32).view.setOn (rectK 0).toLoadRect.set ⊆ (slotM 0).view.set := by
  intro i hi
  rw [slotM_set0]
  obtain ⟨j, hj, rfl⟩ := Finset.mem_map.mp hi
  exact hj
omit [FloatOps F] in
theorem slot_load_sub1 :
    (cM : Memref sig .tc .vmem S3x1x256 .f32).view.setOn (rectK 1).toLoadRect.set ⊆ (slotM 1).view.set := by
  intro i hi
  rw [slotM_set1]
  obtain ⟨j, hj, rfl⟩ := Finset.mem_map.mp hi
  exact hj
omit [FloatOps F] in
theorem slot_load_sub2 :
    (cM : Memref sig .tc .vmem S3x1x256 .f32).view.setOn (rectK 2).toLoadRect.set ⊆ (slotM 2).view.set := by
  intro i hi
  rw [slotM_set2]
  obtain ⟨j, hj, rfl⟩ := Finset.mem_map.mp hi
  exact hj

omit [FloatOps F] in
/-- After a copy of a whole row v of maxima into row k (whatever the buffer held, fd), a load of row k yields v. -/
theorem slot_write_read (c : Dev nD) (k : Fin 3) (fd : CBuf (F := F) c) (v : (cc0_scratch0 : Ref sig .tc).ty.Contents (Elt F)) :
    slotVal c k (landedW c k fd v) = v := by
  -- the load of row k, cast to one row, is the read through row k's own view; reading back a whole write gives the payload
  match k with
  | 0 =>
    show (slotM 0).view.read (Elt F) ((slotM 0).view.write (Elt F) fd ((lM : Memref sig .tc .vmem S1x256 .f32).view.read (Elt F) v) Finset.univ) = v
    rw [View.read_write_univ]; rfl
  | 1 =>
    show (slotM 1).view.read (Elt F) ((slotM 1).view.write (Elt F) fd ((lM : Memref sig .tc .vmem S1x256 .f32).view.read (Elt F) v) Finset.univ) = v
    rw [View.read_write_univ]; rfl
  | 2 =>
    show (slotM 2).view.read (Elt F) ((slotM 2).view.write (Elt F) fd ((lM : Memref sig .tc .vmem S1x256 .f32).view.read (Elt F) v) Finset.univ) = v
    rw [View.read_write_univ]; rfl

omit [FloatOps F] in
/-- The landing buffer owned whole is its three rows owned. -/
theorem comm_split (c : Dev nD) (f : CBuf (F := F) c) :
    ((((c : Thread nD τ).loc cc0_scratch1) ↦{fullShare} f) : sProp 𝕄) ⊢ iprop(slotPts c 0 f ∗ slotPts c 1 f ∗ slotPts c 2 f) := by
  show (((((c : Thread nD τ).loc cc0_scratch1)) ↦[Finset.univ]{fullShare} f) : sProp 𝕄) ⊢
    iprop(((((c : Thread nD τ).loc cc0_scratch1)) ↦[(slotM 0).view.set]{fullShare} f) ∗
      ((((c : Thread nD τ).loc cc0_scratch1)) ↦[(slotM 1).view.set]{fullShare} f) ∗
      ((((c : Thread nD τ).loc cc0_scratch1)) ↦[(slotM 2).view.set]{fullShare} f))
  rw [slotM_set0, slotM_set1, slotM_set2, ← rectK_cover]
  refine (pointsTo_union (Finset.disjoint_union_right.mpr ⟨rectK_disj01, rectK_disj02⟩)).1.trans ?_
  exact sep_mono_r (pointsTo_union rectK_disj12).1

omit [FloatOps F] in
/-- The three rows owned, at whatever contents, are the landing buffer owned whole at some contents. -/
theorem comm_join (c : Dev nD) (f0 f1 f2 : CBuf (F := F) c) :
    iprop(slotPts c 0 f0 ∗ slotPts c 1 f1 ∗ slotPts c 2 f2) ⊢ (iprop(∃ f : CBuf (F := F) c, (((c : Thread nD τ).loc cc0_scratch1) ↦{fullShare} f)) : sProp 𝕄) := by
  show iprop(((((c : Thread nD τ).loc cc0_scratch1)) ↦[(slotM 0).view.set]{fullShare} f0) ∗
      ((((c : Thread nD τ).loc cc0_scratch1)) ↦[(slotM 1).view.set]{fullShare} f1) ∗
      ((((c : Thread nD τ).loc cc0_scratch1)) ↦[(slotM 2).view.set]{fullShare} f2)) ⊢
    (iprop(∃ f : CBuf (F := F) c, ((((c : Thread nD τ).loc cc0_scratch1)) ↦[Finset.univ]{fullShare} f)) : sProp 𝕄)
  rw [slotM_set0, slotM_set1, slotM_set2, ← rectK_cover]
  -- rows 1 and 2 joined at a piecewise contents, then row 0 with them; the union is the whole buffer
  refine (sep_mono_r (pointsTo_join rectK_disj12)).trans ?_
  refine (pointsTo_join (Finset.disjoint_union_right.mpr ⟨rectK_disj01, rectK_disj02⟩)).trans ?_
  exact exists_intro (Φ := fun f : CBuf (F := F) c => (((((c : Thread nD τ).loc cc0_scratch1)) ↦[(rectK 0).set ∪ ((rectK 1).set ∪ (rectK 2).set)]{fullShare} f) : sProp 𝕄)) _

end Cert.KernelProof

end
-- ==== Proof.KSched.lean ====
/-
  The protocol of the four-device all-reduce of column maxima, written down: per device one barrier
  cell (three duties of one unit, one from each other device, each handing over the row of the signaller's
  landing buffer the waiter will write), three send cells and three receive cells (one duty each, the
  copy's credit; a send cell returns the share of the row of maxima the copy read, a receive cell hands
  the landed row with its contents). What each device owes at launch, the levels, and the proof data of
  the one grid point.
-/
import proofs.«900927_g7700000000000928_dist_max_ax0_shard0_i_m512_n256_v7x_i4_f32_1_alg».proof.Proof.KSlots
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen
open Cert.Mesh4

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The device chains of the body: signal k and copy k address the device k+1 places on -/

theorem dev1_eq : ∀ c : Dev nD, (⟨k0_dev1 c, k0_dev1_lt c⟩ : Dev nD) = fwd 0 c := by decide +kernel
theorem dev2_eq : ∀ c : Dev nD, (⟨k0_dev2 c, k0_dev2_lt c⟩ : Dev nD) = fwd 1 c := by decide +kernel
theorem dev3_eq : ∀ c : Dev nD, (⟨k0_dev3 c, k0_dev3_lt c⟩ : Dev nD) = fwd 2 c := by decide +kernel
theorem dev4_eq : ∀ c : Dev nD, (⟨k0_dev4 c, k0_dev4_lt c⟩ : Dev nD) = fwd 0 c := by decide +kernel
theorem dev5_eq : ∀ c : Dev nD, (⟨k0_dev5 c, k0_dev5_lt c⟩ : Dev nD) = fwd 1 c := by decide +kernel
theorem dev6_eq : ∀ c : Dev nD, (⟨k0_dev6 c, k0_dev6_lt c⟩ : Dev nD) = fwd 2 c := by decide +kernel

/-! ## The semaphores and cells -/

/-- The runtime's barrier semaphore of collective id 0 (unscoped). -/
abbrev barS : Sem sig := (SemArray.scalar (sig.barrier 0 rfl) : Sems sig S_).sem
/-- The send semaphore of copy k and the receive semaphore of row k (scoped scratch). -/
abbrev sendSm (k : Fin 3) : DmaSem sig := ⟨2 + k.val, by have := k.isLt; show 2 + k.val < 8; omega⟩
abbrev recvSm (k : Fin 3) : DmaSem sig := ⟨5 + k.val, by have := k.isLt; show 5 + k.val < 8; omega⟩

abbrev barCell (c : Dev nD) : GSem nD τ sig := ((c : Thread nD τ), .reg barS)
abbrev sendCell (c : Dev nD) (k : Fin 3) : GSem nD τ sig := ((c : Thread nD τ), .dma (sendSm k))
abbrev recvCell (c : Dev nD) (k : Fin 3) : GSem nD τ sig := ((c : Thread nD τ), .dma (recvSm k))

/-- The kernel's OWN (scoped) semaphores, as the launch theorem indexes them: three send, three receive; -/
abbrev osem : Fin 6 → SemLoc sig := fun j => .dma ⟨2 + j.val, by have := j.isLt; show 2 + j.val < 8; omega⟩
/-- all seven of the protocol's: barrier, three send, three receive. -/
abbrev csem : Fin 7 → SemLoc sig := fun j => if h : j.val = 0 then .reg barS else .dma ⟨1 + j.val, by have := j.isLt; show 1 + j.val < 8; omega⟩
abbrev kcell (ck : Dev nD × Fin 7) : GSem nD τ sig := ((ck.1 : Thread nD τ), csem ck.2)

abbrev N : ℕ := (lM : Memref sig .tc .vmem S1x256 .f32).view.dmaCredit
theorem N_pos : 0 < N := View.dmaCredit_pos _ (by decide)

/-- The shares of the row of maxima the three copies read it at; the fourth quarter stays with the device. -/
abbrev shr : Fin 3 → PosShare TreeShare
  | 0 => fullShare.left.left
  | 1 => fullShare.left.right
  | 2 => fullShare.right.left
abbrev shrKeep : PosShare TreeShare := fullShare.right.right

/-! ## Contents -/

/-- Device c's staged block of x. -/
def xstg (c : Dev nD) : (cc0_stg0_0 : Ref sig .tc).ty.Contents (Elt F) :=
  (win0_0.blk (0 : Fin 1)).view.read (Elt F) ((s₀ m ρ).mem ((c : Thread nD τ).loc main_arg0))

/-- Device c's row of column maxima of its block. -/
def localv (c : Dev nD) : (cc0_scratch0 : Ref sig .tc).ty.Contents (Elt F) := k0_pay1 (xstg m ρ c)

/-- The running maximum of a row with three more rows, in the order the body folds them. -/
def combine (l a b d : FVec F S1x256 .f32) : FVec F S1x256 .f32 := maximumf (maximumf (maximumf l a) b) d

theorem pay_eq (l : Vec F S1x256 .f32) (v114 v123 v132 : Vec F S1x1x256 .f32) :
    k0_pay3 (k0_pay2 l v114 v123) v132
      = combine l (shapeCast S1x256 v114 shapeCasts_S1x1x256_S1x256) (shapeCast S1x256 v123 shapeCasts_S1x1x256_S1x256)
          (shapeCast S1x256 v132 shapeCasts_S1x1x256_S1x256) := rfl

/-- The kernel's result on device c: the maximum of its own row with the rows of the devices one, three and two places
    before it, in that order. -/
def outAt (c : Dev nD) : (cc0_stg1_0 : Ref sig .tc).ty.Contents (Elt F) :=
  combine (localv m ρ c) (localv m ρ (bwd 0 c)) (localv m ρ (bwd 2 c)) (localv m ρ (bwd 1 c))

/-! ## The schedule -/

/-- What the signal of the device e+1 places on (duty e of c's barrier cell) hands c: row e of that device's landing
    buffer and that the device has reached round 0 of its receive cell e — what c's copy e needs. -/
def barPay (c : Dev nD) (e : Fin 3) : sProp 𝕄 :=
  iprop((∃ f : CBuf (F := F) (fwd e c), slotPts (fwd e c) e f) ∗ reached ER (recvCell (fwd e c) e) 0)
/-- A landing: row k of c's landing buffer, holding the row of maxima of the device k+1 places before c. -/
def recvPay (c : Dev nD) (k : Fin 3) : sProp 𝕄 :=
  iprop(∃ f : CBuf (F := F) c, slotPts c k f ∗ ⌜slotVal c k f = localv m ρ (bwd k c)⌝)
/-- A copy read to the end: the share of the row of maxima it read comes back. -/
def sendPay (c : Dev nD) (k : Fin 3) : sProp 𝕄 := locPts c (shr k) (localv m ρ c)

/-- One round, round 0: a barrier cell has three duties of one unit; a send or receive cell one duty of the row's credit. -/
def sched : Rounds.Schedule (GSem nD τ sig) (Fin 3) 𝕄 where
  duties g r := if r = 0 ∧ g.1.2 = .tc then
      (match g.2 with | .reg _ => Finset.univ | .dma s => if 2 ≤ s.val then {0} else ∅) else ∅
  unitless _ := False
  amount g _ _ := match g.2 with | .reg _ => 1 | .dma _ => N
  payload g _ d := match g.2 with
    | .reg _ => barPay g.1.1 d
    | .dma s => if h : 2 ≤ s.val ∧ s.val < 5 then sendPay m ρ g.1.1 ⟨s.val - 2, by omega⟩
        else if h' : 5 ≤ s.val ∧ s.val < 8 then recvPay m ρ g.1.1 ⟨s.val - 5, by omega⟩ else iprop(emp)
  amount_pos g _ _ _ := by
    cases g.2 with
    | reg _ => exact Nat.one_pos
    | dma _ => exact N_pos

instance sched_payload_storable (g : GSem nD τ sig) (r : ℕ) (d : Fin 3) :
    BI.Storable (upEmb : UEmb _ 𝕄) ((sched (F := F) m ρ).payload g r d) := by
  obtain ⟨t, sm⟩ := g
  cases sm with
  | reg _ => show BI.Storable upEmb (barPay t.1 d); unfold barPay; infer_instance
  | dma s =>
    show BI.Storable upEmb (if h : 2 ≤ s.val ∧ s.val < 5 then sendPay m ρ t.1 ⟨s.val - 2, by omega⟩
        else if h' : 5 ≤ s.val ∧ s.val < 8 then recvPay m ρ t.1 ⟨s.val - 5, by omega⟩ else iprop(emp))
    unfold sendPay recvPay
    (repeat' split) <;> infer_instance

section Sched
variable (c : Dev nD) (k : Fin 3)

theorem duties_bar : (sched (F := F) m ρ).duties (barCell c) 0 = Finset.univ := by dsimp only [sched]; rw [if_pos ⟨rfl, rfl⟩]
theorem duties_send : (sched (F := F) m ρ).duties (sendCell c k) 0 = {0} := by
  dsimp only [sched]; rw [if_pos ⟨rfl, rfl⟩, if_pos (Nat.le_add_right 2 _)]
theorem duties_recv : (sched (F := F) m ρ).duties (recvCell c k) 0 = {0} := by
  dsimp only [sched]; rw [if_pos ⟨rfl, rfl⟩, if_pos (by show 2 ≤ 5 + k.val; omega)]
theorem duties_later (g : GSem nD τ sig) : ∀ r, 1 ≤ r → (sched (F := F) m ρ).duties g r = ∅ :=
  fun r hr => by dsimp only [sched]; rw [if_neg fun h => by omega]

theorem amount_bar (d : Fin 3) : (sched (F := F) m ρ).amount (barCell c) 0 d = 1 := rfl
theorem amount_send (d : Fin 3) : (sched (F := F) m ρ).amount (sendCell c k) 0 d = N := rfl
theorem amount_recv (d : Fin 3) : (sched (F := F) m ρ).amount (recvCell c k) 0 d = N := rfl

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c k) 0 = N := by
  unfold Schedule.expect Schedule.amountOf; rw [duties_send, Finset.sum_singleton, amount_send]
theorem expect_recv : (sched (F := F) m ρ).expect (recvCell c k) 0 = N := by
  unfold Schedule.expect Schedule.amountOf; rw [duties_recv, Finset.sum_singleton, amount_recv]

theorem payload_bar (e : Fin 3) : (sched (F := F) m ρ).payload (barCell c) 0 e = barPay c e := rfl
theorem payload_send (d : Fin 3) : (sched (F := F) m ρ).payload (sendCell c k) 0 d = sendPay m ρ c k := by
  fin_cases k <;> rfl
theorem payload_recv (d : Fin 3) : (sched (F := F) m ρ).payload (recvCell c k) 0 d = recvPay m ρ c k := by
  fin_cases k <;> rfl

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- The rest of the barrier cell's round, no duty taken: the three signallers' payloads. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3]; rfl
theorem rest_send : bigSep ((sched (F := F) m ρ).duties (sendCell c k) 0 \ ∅) (fun d => (sched (F := F) m ρ).payload (sendCell c k) 0 d) = sendPay m ρ c k := by
  rw [Finset.sdiff_empty, duties_send, bigSep_singleton, payload_send]
theorem rest_recv : bigSep ((sched (F := F) m ρ).duties (recvCell c k) 0 \ ∅) (fun d => (sched (F := F) m ρ).payload (recvCell c k) 0 d) = recvPay m ρ c k := by
  rw [Finset.sdiff_empty, duties_recv, bigSep_singleton, payload_recv]

end Sched

/-! ## What each core owes at launch; the levels -/

/-- The credit of the three copies: owed to row k of the landing buffer of the device k+1 places on — summed so that
    copy 0 peels the last summand, copy 1 the middle one. -/
def Orecv (c : Dev nD) : CellTallies nD τ sig Unit :=
  tallyAt (recvCell (fwd 2 c) 2) () N + tallyAt (recvCell (fwd 1 c) 1) () N + tallyAt (recvCell (fwd 0 c) 0) () N
/-- With it, one unit to the barrier cell of each other device — the first signal peels the last summand. -/
def O₂ (c : Dev nD) : CellTallies nD τ sig Unit := Orecv c + tallyAt (barCell (fwd 2 c)) () 1
def O₁ (c : Dev nD) : CellTallies nD τ sig Unit := O₂ c + tallyAt (barCell (fwd 1 c)) () 1
def O₀ (c : Dev nD) : CellTallies nD τ sig Unit := O₁ c + tallyAt (barCell (fwd 0 c)) () 1

def L (g : GSem nD τ sig) : Finset Unit := if g.1.2 = .tc then {()} else ∅
/-- Barrier cells at 1, receive cells at 2, everything else (staging, send) at 0. -/
def lv (g : GSem nD τ sig) (_ : Unit) : ℕ := match g.2 with | .reg _ => 1 | .dma s => if 5 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem Orecv_pos {c : Dev nD} {g : GSem nD τ sig} {u : Unit} (h : 0 < Orecv c g u) : ∃ k, g = recvCell (fwd k c) k := by
  unfold Orecv at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ k, g = recvCell (fwd k c) k) ∨ (∃ k, g = barCell (fwd k c)) := by
  unfold O₀ O₁ O₂ at h
  rw [Pi.add_apply, Finsupp.add_apply, Pi.add_apply, Finsupp.add_apply, Pi.add_apply, Finsupp.add_apply, tallyAt_apply, tallyAt_apply, tallyAt_apply] at h
  by_contra hn
  rw [not_or, not_exists, not_exists] at hn
  rw [if_neg (fun h' => hn.2 2 h'.1), if_neg (fun h' => hn.2 1 h'.1), if_neg (fun h' => hn.2 0 h'.1)] at h
  obtain ⟨k, hk⟩ := Orecv_pos h
  exact hn.1 k hk

/-- A wait on a cell of level 0 (a staging cell, a send cell) is below everything a device owes at launch. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; dsimp only [lv]; rw [if_neg (by omega)])
      (fun g u hg => by
        rcases O₀_pos hg with ⟨k, rfl⟩ | ⟨k, rfl⟩
        · dsimp only [lv]; rw [if_pos (Nat.le_add_right 5 _)]; decide
        · dsimp only [lv]; decide)
  · rw [MayWait_zero]; iintro -; iempintro

/-- At its barrier wait a device owes the three copies' credit only: receive cells, above its barrier cell. -/
theorem mayWait_bar (c : Dev nD) :
    (levAts L lv : sProp 𝕄) ⊢ MayWait (c : Thread nD τ) (.reg barS) () (Orecv c) :=
  MayOwe.of_cut (L := L) (lev := lv) 1 (fun p hp => by rw [Finset.mem_singleton.mp hp, L_tc]; exact Finset.mem_singleton_self _)
    (fun g u hg => by obtain ⟨k, rfl⟩ := Orecv_pos hg; exact Finset.mem_singleton_self _)
    (fun p hp => by rw [Finset.mem_singleton.mp hp]; dsimp only [lv]; exact Nat.le_refl 1)
    (fun g u hg => by obtain ⟨k, rfl⟩ := Orecv_pos hg; dsimp only [lv]; rw [if_pos (Nat.le_add_right 5 _)]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device c's body opens, under the names K the launch allocated them at: its own seven, the barrier
    cells of the three other devices (its signals), and row k of the device k+1 places on (its copies). -/
def invs (K : Dev nD × Fin 7 → ℕ) (c : Dev nD) : sProp 𝕄 :=
  iprop(cellInv ER (sched m ρ) (K (c, 0)) (barCell c)
    ∗ (cellInv ER (sched m ρ) (K (c, 1)) (sendCell c 0) ∗ cellInv ER (sched m ρ) (K (c, 2)) (sendCell c 1) ∗ cellInv ER (sched m ρ) (K (c, 3)) (sendCell c 2))
    ∗ (cellInv ER (sched m ρ) (K (c, 4)) (recvCell c 0) ∗ cellInv ER (sched m ρ) (K (c, 5)) (recvCell c 1) ∗ cellInv ER (sched m ρ) (K (c, 6)) (recvCell c 2))
    ∗ (cellInv ER (sched m ρ) (K (fwd 0 c, 0)) (barCell (fwd 0 c)) ∗ cellInv ER (sched m ρ) (K (fwd 1 c, 0)) (barCell (fwd 1 c)) ∗ cellInv ER (sched m ρ) (K (fwd 2 c, 0)) (barCell (fwd 2 c)))
    ∗ (cellInv ER (sched m ρ) (K (fwd 0 c, 4)) (recvCell (fwd 0 c) 0) ∗ cellInv ER (sched m ρ) (K (fwd 1 c, 5)) (recvCell (fwd 1 c) 1) ∗ cellInv ER (sched m ρ) (K (fwd 2 c, 6)) (recvCell (fwd 2 c) 2)))

instance invs_persistent (K : Dev nD × Fin 7 → ℕ) (c : Dev nD) : BI.Persistent (invs m ρ K c) := by unfold invs; infer_instance

/-- The reached-marks device c's body presents: of the cells it pays and of its own send and receive cells. -/
def marks (c : Dev nD) : sProp 𝕄 :=
  iprop((reached ER (barCell (fwd 0 c)) 0 ∗ reached ER (barCell (fwd 1 c)) 0 ∗ reached ER (barCell (fwd 2 c)) 0)
    ∗ (reached ER (recvCell (fwd 0 c) 0) 0 ∗ reached ER (recvCell (fwd 1 c) 1) 0 ∗ reached ER (recvCell (fwd 2 c) 2) 0)
    ∗ (reached ER (sendCell c 0) 0 ∗ reached ER (sendCell c 1) 0 ∗ reached ER (sendCell c 2) 0)
    ∗ (reached ER (recvCell c 0) 0 ∗ reached ER (recvCell c 1) 0 ∗ reached ER (recvCell c 2) 0))

instance marks_persistent (c : Dev nD) : BI.Persistent (marks (F := F) c) := by unfold marks; infer_instance

/-- Device c's positions at round 0 of its seven cells. -/
def posns (c : Dev nD) : sProp 𝕄 :=
  iprop(atPos ER (barCell c) 0 ∅ 0
    ∗ (atPos ER (sendCell c 0) 0 ∅ 0 ∗ atPos ER (sendCell c 1) 0 ∅ 0 ∗ atPos ER (sendCell c 2) 0 ∅ 0)
    ∗ (atPos ER (recvCell c 0) 0 ∅ 0 ∗ atPos ER (recvCell c 1) 0 ∅ 0 ∗ atPos ER (recvCell c 2) 0 ∅ 0))

/-- The tokens of the nine duties device c pays: signal k pays duty (rev k) of the barrier cell of the device k+1 places
    on; copy k pays the duty of that device's receive cell k and of its own send cell k. -/
def payToks (c : Dev nD) : sProp 𝕄 :=
  iprop((dutyTok ER (barCell (fwd 0 c)) 0 (rev 0) ∗ dutyTok ER (barCell (fwd 1 c)) 0 (rev 1) ∗ dutyTok ER (barCell (fwd 2 c)) 0 (rev 2))
    ∗ (dutyTok ER (recvCell (fwd 0 c) 0) 0 0 ∗ dutyTok ER (recvCell (fwd 1 c) 1) 0 0 ∗ dutyTok ER (recvCell (fwd 2 c) 2) 0 0)
    ∗ (dutyTok ER (sendCell c 0) 0 0 ∗ dutyTok ER (sendCell c 1) 0 0 ∗ dutyTok ER (sendCell c 2) 0 0))

/-- The protocol's ghost state device c starts from. -/
def ghost (K : Dev nD × Fin 7 → ℕ) (c : Dev nD) : sProp 𝕄 :=
  iprop(invs m ρ K c ∗ marks c ∗ posns c ∗ payToks c)

/-- The credit tokens of device c's waits: its barrier's three units, each receive cell's credit. -/
def creds (c : Dev nD) : sProp 𝕄 :=
  iprop(cred (tallyAt (barCell c) () 3)
    ∗ cred (tallyAt (recvCell c 0) () N) ∗ cred (tallyAt (recvCell c 1) () N) ∗ cred (tallyAt (recvCell c 2) () N))

/-- What device c's body starts from besides its buffers. -/
def start (c : Dev nD) : sProp 𝕄 :=
  iprop((∃ K, ghost m ρ K c) ∗ creds c ∗ levAts L lv)

/-- The two scratch buffers, owned whole at some contents: how the launch hands them over and takes them back. -/
def scratches (c : Dev nD) : sProp 𝕄 :=
  iprop((∃ f : LBuf (F := F) c, ((c : Thread nD τ).loc cc0_scratch0) ↦{fullShare} f)
    ∗ (∃ f : CBuf (F := F) c, ((c : Thread nD τ).loc cc0_scratch1) ↦{fullShare} f))

def Φ₀ (c : Dev nD) : sProp 𝕄 := iprop(start m ρ c ∗ scratches c)
/-- After the point: the scratch buffers back, the six OWN cells at zero, closed (the barrier cell is the runtime's). -/
def Φ₁ (c : Dev nD) : sProp 𝕄 :=
  iprop(scratches c
    ∗ (semVal (sendCell c 0) 0 ∗ semVal (sendCell c 1) 0 ∗ semVal (sendCell c 2) 0)
    ∗ (semVal (recvCell c 0) 0 ∗ semVal (recvCell c 1) 0 ∗ semVal (recvCell c 2) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelProof

end
-- ==== Proof.KBody.lean ====
/-
  One device's body, stepped from the protocol's ghost state to the point's end.
-/
import proofs.«900927_g7700000000000928_dist_max_ax0_shard0_i_m512_n256_v7x_i4_f32_1_alg».proof.Proof.KSched
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen
open Cert.Mesh4

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 7 → ℕ)

def bodyPre (c : Dev nD) : sProp 𝕄 :=
  iprop((ghost m ρ K c ∗ creds c ∗ levAts L lv ∗ scratches c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

abbrev r0x : Rect S512x256 := Rect.unit (s := S512x256) ![0, 0] S512x256.size inb_S512x256_S512x256_0_0
abbrev r0l : Rect S1x256 := Rect.unit (s := S1x256) ![0, 0] S1x256.size inb_S1x256_S1x256_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) r0x.toLoadRect f = f :=
  Memref.readAt_unit_zero (Elt F) cc0_stg0_0 hz _ f
omit [FloatOps F] in
theorem read_l (f : (cc0_scratch0 : Ref sig .tc).ty.Contents (Elt F)) : (lM : Memref sig .tc .vmem S1x256 .f32).view.readAt (Elt F) r0l.toLoadRect f = f :=
  Memref.readAt_unit_zero (Elt F) cc0_scratch0 hz _ f
omit [FloatOps F] in
theorem write_l (f w : (cc0_scratch0 : Ref sig .tc).ty.Contents (Elt F)) :
    ((lM : Memref sig .tc .vmem S1x256 .f32).access r0l : View sig .tc _ _ _).write (Elt F) f w Finset.univ = w :=
  Memref.write_access_unit_zero_univ (Elt F) cc0_scratch0 hz _ f w
omit [FloatOps F] in
theorem write_out (f w : (cc0_stg1_0 : Ref sig .tc).ty.Contents (Elt F)) :
    ((oM : Memref sig .tc .vmem S1x256 .f32).access r0l : View sig .tc _ _ _).write (Elt F) f w Finset.univ = w :=
  Memref.write_access_unit_zero_univ (Elt F) cc0_stg1_0 hz _ f w

omit [FloatOps F] in
theorem l_set : (lM : Memref sig .tc .vmem S1x256 .f32).view.set = Finset.univ := View.set_whole _

/-- What signal k of device c hands over: row (rev k) of ITS OWN landing buffer, and that it is at round 0 of that row's
    receive cell — the device k+1 places on is the one that copies into that row. -/
theorem barPay_mine (c : Dev nD) (k : Fin 3) :
    barPay (F := F) (fwd k c) (rev k) = iprop((∃ f : CBuf (F := F) c, slotPts c (rev k) f) ∗ reached ER (recvCell c (rev k)) 0) := by
  unfold barPay; rw [fwd_rev_fwd]

omit [FloatOps F] in
theorem slotPts_eq0 (c : Dev nD) (f : CBuf (F := F) c) :
    slotPts c 0 f = ((slotM 0).view.loc (c : Thread nD τ) ↦[(slotM 0).view.set]{fullShare} f : sProp 𝕄) := rfl
omit [FloatOps F] in
theorem slotPts_eq1 (c : Dev nD) (f : CBuf (F := F) c) :
    slotPts c 1 f = ((slotM 1).view.loc (c : Thread nD τ) ↦[(slotM 1).view.set]{fullShare} f : sProp 𝕄) := rfl
omit [FloatOps F] in
theorem slotPts_eq2 (c : Dev nD) (f : CBuf (F := F) c) :
    slotPts c 2 f = ((slotM 2).view.loc (c : Thread nD τ) ↦[(slotM 2).view.set]{fullShare} f : sProp 𝕄) := rfl

omit [FloatOps F] in
/-- The row of maxima owned whole is its four quarter shares: one for each copy to read, one to keep reading. -/
theorem loc_quarter (c : Dev nD) (f : LBuf (F := F) c) :
    ((((c : Thread nD τ).loc cc0_scratch0) ↦{fullShare} f) : sProp 𝕄)
      ⊢ iprop(locPts c (shr 0) f ∗ locPts c (shr 1) f ∗ locPts c (shr 2) f ∗ locPts c shrKeep f) := by
  unfold locPts; rw [l_set]
  iintro H
  ihave H := (pointsTo_share (PosShare.mem_left_op_right fullShare)).1 $$ H
  icases H with ⟨HL, HR⟩
  ihave HL := (pointsTo_share (PosShare.mem_left_op_right fullShare.left)).1 $$ HL
  icases HL with ⟨HLL, HLR⟩
  ihave HR := (pointsTo_share (PosShare.mem_left_op_right fullShare.right)).1 $$ HR
  icases HR with ⟨HRL, HRR⟩
  isplitl [HLL]; · iexact HLL
  isplitl [HLR]; · iexact HLR
  isplitl [HRL]; · iexact HRL
  iexact HRR

omit [FloatOps F] in
theorem loc_unquarter (c : Dev nD) (f : LBuf (F := F) c) :
    iprop(locPts c (shr 0) f ∗ locPts c (shr 1) f ∗ locPts c (shr 2) f ∗ locPts c shrKeep f)
      ⊢ ((((c : Thread nD τ).loc cc0_scratch0) ↦{fullShare} f) : sProp 𝕄) := by
  unfold locPts; rw [l_set]
  iintro ⟨HLL, HLR, HRL, HRR⟩
  iapply (pointsTo_share (PosShare.mem_left_op_right fullShare)).2
  isplitl [HLL HLR]
  · iapply (pointsTo_share (PosShare.mem_left_op_right fullShare.left)).2
    isplitl [HLL]; · iexact HLL
    iexact HLR
  · iapply (pointsTo_share (PosShare.mem_left_op_right fullShare.right)).2
    isplitl [HRL]; · iexact HRL
    iexact HRR

set_option maxHeartbeats 1600000 in
/-- Copy 0 of device c at the protocol's cells: the row of maxima read at share (shr 0), row 0 of the landing buffer of the
    device n = fwd 0 c written (substituted, not rewritten). -/
theorem wp_send_slot0 (c n : Dev nD) (hn : n = fwd 0 c)
    {hsc : (slotM 0 : Memref sig (Dev.tc n : Thread nD τ).2.kind .vmem S1x256 .f32).view.ref.isScScratch = false}
    {hsrc : (lM : Memref sig .tc .vmem S1x256 .f32).view.WordExact} {hdst : (slotM 0 : Memref sig .tc .vmem S1x256 .f32).view.WordExact}
    {hsem : DmaTarget.Typed .vmem (.dma (recvSm 0)) (.remote (Dev.tc n : Thread nD τ) (slotM 0 : Memref sig .tc .vmem S1x256 .f32) (.dma (sendSm 0)) hsc)}
    {α : Type} {Q : α → sProp 𝕄} {kont : PUnit → Prog (TpuEff nD τ sig (Elt F) Λ₀ .tc) α}
    (fn : CBuf (F := F) (fwd 0 c)) (O₀' O : CellTallies nD τ sig Unit) (hO : O₀' = O + tallyAt (recvCell (fwd 0 c) 0) () N)
    (W : Waits sig Unit) (κ₁ κ₂ : ℕ) :
    iprop(cellInv ER (sched m ρ) κ₁ (sendCell c 0) ∗ cellInv ER (sched m ρ) κ₂ (recvCell (fwd 0 c) 0)
        ∗ locPts c (shr 0) (localv m ρ c) ∗ slotPts (fwd 0 c) 0 fn
        ∗ owes (c : Thread nD τ) O₀' W
        ∗ dutyTok ER (sendCell c 0) 0 0 ∗ reached ER (sendCell c 0) 0
        ∗ dutyTok ER (recvCell (fwd 0 c) 0) 0 0 ∗ reached ER (recvCell (fwd 0 c) 0) 0)
      ⊢ iprop(((cred (tallyAt (sendCell c 0) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma lM (.remote (Dev.tc n : Thread nD τ) (slotM 0) (.dma (sendSm 0)) hsc) (.dma (recvSm 0)) hsrc hdst hsem) kont) Q) := by
  subst hn
  unfold locPts
  rw [slotPts_eq0]
  exact Rounds.wp_send_pointsTo 𝒱₀ ER (sched m ρ) (c : Thread nD τ) none (κ₁ := κ₁) (κ₂ := κ₂)
    (c' := (Dev.tc (fwd 0 c) : Thread nD τ)) (src := (lM : Memref sig .tc .vmem S1x256 .f32)) (dst := (slotM 0 : Memref sig .tc .vmem S1x256 .f32))
    (sS := SemLoc.dma (sendSm 0)) (sem := SemLoc.dma (recvSm 0)) (q := shr 0) (fs := localv m ρ c)
    (r₁ := 0) (r₂ := 0) (d₁ := 0) (d₂ := 0) (fd := fn)
    (by rw [duties_send]; exact Finset.mem_singleton_self _) (by rw [duties_recv]; exact Finset.mem_singleton_self _)
    () () N rfl (amount_send m ρ c 0 0) (amount_recv m ρ (fwd 0 c) 0 0) O hO (W := W)
    (by rw [payload_send]; exact BI.Entails.refl _)
    (by
      rw [payload_recv]; unfold recvPay
      iintro H
      iexists (landedW (fwd 0 c) 0 fn (localv m ρ c))
      isplitl [H]; · rw [slotPts_eq0]; iexact H
      ipureintro
      rw [slot_write_read, bwd_fwd])

set_option maxHeartbeats 1600000 in
/-- Copy 1 of device c at the protocol's cells: the row of maxima read at share (shr 1), row 1 of the landing buffer of the
    device n = fwd 1 c written (substituted, not rewritten). -/
theorem wp_send_slot1 (c n : Dev nD) (hn : n = fwd 1 c)
    {hsc : (slotM 1 : Memref sig (Dev.tc n : Thread nD τ).2.kind .vmem S1x256 .f32).view.ref.isScScratch = false}
    {hsrc : (lM : Memref sig .tc .vmem S1x256 .f32).view.WordExact} {hdst : (slotM 1 : Memref sig .tc .vmem S1x256 .f32).view.WordExact}
    {hsem : DmaTarget.Typed .vmem (.dma (recvSm 1)) (.remote (Dev.tc n : Thread nD τ) (slotM 1 : Memref sig .tc .vmem S1x256 .f32) (.dma (sendSm 1)) hsc)}
    {α : Type} {Q : α → sProp 𝕄} {kont : PUnit → Prog (TpuEff nD τ sig (Elt F) Λ₀ .tc) α}
    (fn : CBuf (F := F) (fwd 1 c)) (O₀' O : CellTallies nD τ sig Unit) (hO : O₀' = O + tallyAt (recvCell (fwd 1 c) 1) () N)
    (W : Waits sig Unit) (κ₁ κ₂ : ℕ) :
    iprop(cellInv ER (sched m ρ) κ₁ (sendCell c 1) ∗ cellInv ER (sched m ρ) κ₂ (recvCell (fwd 1 c) 1)
        ∗ locPts c (shr 1) (localv m ρ c) ∗ slotPts (fwd 1 c) 1 fn
        ∗ owes (c : Thread nD τ) O₀' W
        ∗ dutyTok ER (sendCell c 1) 0 0 ∗ reached ER (sendCell c 1) 0
        ∗ dutyTok ER (recvCell (fwd 1 c) 1) 0 0 ∗ reached ER (recvCell (fwd 1 c) 1) 0)
      ⊢ iprop(((cred (tallyAt (sendCell c 1) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma lM (.remote (Dev.tc n : Thread nD τ) (slotM 1) (.dma (sendSm 1)) hsc) (.dma (recvSm 1)) hsrc hdst hsem) kont) Q) := by
  subst hn
  unfold locPts
  rw [slotPts_eq1]
  exact Rounds.wp_send_pointsTo 𝒱₀ ER (sched m ρ) (c : Thread nD τ) none (κ₁ := κ₁) (κ₂ := κ₂)
    (c' := (Dev.tc (fwd 1 c) : Thread nD τ)) (src := (lM : Memref sig .tc .vmem S1x256 .f32)) (dst := (slotM 1 : Memref sig .tc .vmem S1x256 .f32))
    (sS := SemLoc.dma (sendSm 1)) (sem := SemLoc.dma (recvSm 1)) (q := shr 1) (fs := localv m ρ c)
    (r₁ := 0) (r₂ := 0) (d₁ := 0) (d₂ := 0) (fd := fn)
    (by rw [duties_send]; exact Finset.mem_singleton_self _) (by rw [duties_recv]; exact Finset.mem_singleton_self _)
    () () N rfl (amount_send m ρ c 1 0) (amount_recv m ρ (fwd 1 c) 1 0) O hO (W := W)
    (by rw [payload_send]; exact BI.Entails.refl _)
    (by
      rw [payload_recv]; unfold recvPay
      iintro H
      iexists (landedW (fwd 1 c) 1 fn (localv m ρ c))
      isplitl [H]; · rw [slotPts_eq1]; iexact H
      ipureintro
      rw [slot_write_read, bwd_fwd])

set_option maxHeartbeats 1600000 in
/-- Copy 2 of device c at the protocol's cells: the row of maxima read at share (shr 2), row 2 of the landing buffer of the
    device n = fwd 2 c written (substituted, not rewritten). -/
theorem wp_send_slot2 (c n : Dev nD) (hn : n = fwd 2 c)
    {hsc : (slotM 2 : Memref sig (Dev.tc n : Thread nD τ).2.kind .vmem S1x256 .f32).view.ref.isScScratch = false}
    {hsrc : (lM : Memref sig .tc .vmem S1x256 .f32).view.WordExact} {hdst : (slotM 2 : Memref sig .tc .vmem S1x256 .f32).view.WordExact}
    {hsem : DmaTarget.Typed .vmem (.dma (recvSm 2)) (.remote (Dev.tc n : Thread nD τ) (slotM 2 : Memref sig .tc .vmem S1x256 .f32) (.dma (sendSm 2)) hsc)}
    {α : Type} {Q : α → sProp 𝕄} {kont : PUnit → Prog (TpuEff nD τ sig (Elt F) Λ₀ .tc) α}
    (fn : CBuf (F := F) (fwd 2 c)) (O₀' O : CellTallies nD τ sig Unit) (hO : O₀' = O + tallyAt (recvCell (fwd 2 c) 2) () N)
    (W : Waits sig Unit) (κ₁ κ₂ : ℕ) :
    iprop(cellInv ER (sched m ρ) κ₁ (sendCell c 2) ∗ cellInv ER (sched m ρ) κ₂ (recvCell (fwd 2 c) 2)
        ∗ locPts c (shr 2) (localv m ρ c) ∗ slotPts (fwd 2 c) 2 fn
        ∗ owes (c : Thread nD τ) O₀' W
        ∗ dutyTok ER (sendCell c 2) 0 0 ∗ reached ER (sendCell c 2) 0
        ∗ dutyTok ER (recvCell (fwd 2 c) 2) 0 0 ∗ reached ER (recvCell (fwd 2 c) 2) 0)
      ⊢ iprop(((cred (tallyAt (sendCell c 2) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma lM (.remote (Dev.tc n : Thread nD τ) (slotM 2) (.dma (sendSm 2)) hsc) (.dma (recvSm 2)) hsrc hdst hsem) kont) Q) := by
  subst hn
  unfold locPts
  rw [slotPts_eq2]
  exact Rounds.wp_send_pointsTo 𝒱₀ ER (sched m ρ) (c : Thread nD τ) none (κ₁ := κ₁) (κ₂ := κ₂)
    (c' := (Dev.tc (fwd 2 c) : Thread nD τ)) (src := (lM : Memref sig .tc .vmem S1x256 .f32)) (dst := (slotM 2 : Memref sig .tc .vmem S1x256 .f32))
    (sS := SemLoc.dma (sendSm 2)) (sem := SemLoc.dma (recvSm 2)) (q := shr 2) (fs := localv m ρ c)
    (r₁ := 0) (r₂ := 0) (d₁ := 0) (d₂ := 0) (fd := fn)
    (by rw [duties_send]; exact Finset.mem_singleton_self _) (by rw [duties_recv]; exact Finset.mem_singleton_self _)
    () () N rfl (amount_send m ρ c 2 0) (amount_recv m ρ (fwd 2 c) 2 0) O hO (W := W)
    (by rw [payload_send]; exact BI.Entails.refl _)
    (by
      rw [payload_recv]; unfold recvPay
      iintro H
      iexists (landedW (fwd 2 c) 2 fn (localv m ρ c))
      isplitl [H]; · rw [slotPts_eq2]; iexact H
      ipureintro
      rw [slot_write_read, bwd_fwd])

/-- The row of maxima as the store leaves it, quartered. -/
theorem loc_quarter_stored (c : Dev nD) :
    ((View.loc (c : Thread nD τ) ((lM : Memref sig .tc .vmem S1x256 .f32).access r0l) ↦{fullShare} k0_pay1 (xstg m ρ c)) : sProp 𝕄)
      ⊢ iprop(locPts c (shr 0) (localv m ρ c) ∗ locPts c (shr 1) (localv m ρ c) ∗ locPts c (shr 2) (localv m ρ c) ∗ locPts c shrKeep (localv m ρ c)) :=
  loc_quarter c (localv m ρ c)

omit [FloatOps F] in
theorem slotPts_back0 (c : Dev nD) (f : CBuf (F := F) c) :
    (((cM : Memref sig .tc .vmem S3x1x256 .f32).view.loc (c : Thread nD τ) ↦[(slotM 0).view.set]{fullShare} f) : sProp 𝕄) = slotPts c 0 f := rfl

omit [FloatOps F] in
theorem slotPts_back1 (c : Dev nD) (f : CBuf (F := F) c) :
    (((cM : Memref sig .tc .vmem S3x1x256 .f32).view.loc (c : Thread nD τ) ↦[(slotM 1).view.set]{fullShare} f) : sProp 𝕄) = slotPts c 1 f := rfl

omit [FloatOps F] in
theorem slotPts_back2 (c : Dev nD) (f : CBuf (F := F) c) :
    (((cM : Memref sig .tc .vmem S3x1x256 .f32).view.loc (c : Thread nD τ) ↦[(slotM 2).view.set]{fullShare} f) : sProp 𝕄) = slotPts c 2 f := rfl

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part5_eq_skeleton]; unfold k0_part5_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost invs marks posns payToks creds scratches
  iintro ⟨⟨⟨⟨⟨#HIbar, ⟨#HIs0, #HIs1, #HIs2⟩, ⟨#HIr0, #HIr1, #HIr2⟩, ⟨#HIb0, #HIb1, #HIb2⟩, ⟨#HIp0, #HIp1, #HIp2⟩⟩,
      ⟨⟨#HrB0, #HrB1, #HrB2⟩, ⟨#HrP0, #HrP1, #HrP2⟩, ⟨#HrS0, #HrS1, #HrS2⟩, ⟨#HrR0, #HrR1, #HrR2⟩⟩,
      ⟨HatB, ⟨HatS0, HatS1, HatS2⟩, ⟨HatR0, HatR1, HatR2⟩⟩,
      ⟨⟨HtB0, HtB1, HtB2⟩, ⟨HtP0, HtP1, HtP2⟩, ⟨HtS0, HtS1, HtS2⟩⟩⟩,
      ⟨HcB, HcR0, HcR1, HcR2⟩, #Hlev, ⟨⟨%fl, Hloc⟩, ⟨%fc, Hcomm⟩⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the landing buffer cut into its three rows
  ihave Hsl := (comm_split (F := F) c fc) $$ Hcomm
  icases Hsl with ⟨Hsl0, Hsl1, Hsl2⟩
  -- signal 0, to the device one place on: duty (rev 0) of its barrier cell, with row (rev 0) of this device's landing buffer
  iapply (Rounds.wp_signal 𝒱₀ ER (sched m ρ) (c : Thread nD τ) none (dst := (fwd 0 c : Thread nD τ)) (κ := K (fwd 0 c, 0))
      (d := rev 0) (by rw [duties_bar]; exact Finset.mem_univ _) ((amount_bar m ρ (fwd 0 c) (rev 0)).trans (by decide)) () (O₁ c) rfl)
    $$ [HO HtB0 Hsl2]
  · isplitr; · iexact HIb0
    isplitl [HO]; · iexact HO
    isplitl [HtB0]; · iexact HtB0
    isplitl [Hsl2]
    · rw [payload_bar, barPay_mine]
      isplitl [Hsl2]; · iexists fc; iexact Hsl2
      iexact HrR2
    · iexact HrB0
  iintro HO
  unfold O₁
  iapply (Rounds.wp_signal 𝒱₀ ER (sched m ρ) (c : Thread nD τ) none (dst := (fwd 1 c : Thread nD τ)) (κ := K (fwd 1 c, 0))
      (d := rev 1) (by rw [duties_bar]; exact Finset.mem_univ _) ((amount_bar m ρ (fwd 1 c) (rev 1)).trans (by decide)) () (O₂ c) rfl)
    $$ [HO HtB1 Hsl1]
  · isplitr; · iexact HIb1
    isplitl [HO]; · iexact HO
    isplitl [HtB1]; · iexact HtB1
    isplitl [Hsl1]
    · rw [payload_bar, barPay_mine]
      isplitl [Hsl1]; · iexists fc; iexact Hsl1
      iexact HrR1
    · iexact HrB1
  iintro HO
  unfold O₂
  iapply (Rounds.wp_signal 𝒱₀ ER (sched m ρ) (c : Thread nD τ) none (dst := (fwd 2 c : Thread nD τ)) (κ := K (fwd 2 c, 0))
      (d := rev 2) (by rw [duties_bar]; exact Finset.mem_univ _) ((amount_bar m ρ (fwd 2 c) (rev 2)).trans (by decide)) () (Orecv c) rfl)
    $$ [HO HtB2 Hsl0]
  · isplitr; · iexact HIb2
    isplitl [HO]; · iexact HO
    isplitl [HtB2]; · iexact HtB2
    isplitl [Hsl0]
    · rw [payload_bar, barPay_mine]
      isplitl [Hsl0]; · iexists fc; iexact Hsl0
      iexact HrR0
    · iexact HrB2
  iintro HO
  -- the block's column maxima, stored in the row of maxima
  iapply (wp_load 𝒱₀ (c : Thread nD τ) none Set.univ (m := xM) (Finset.subset_univ _)) $$ Hx; iintro Hx
  rw [read_x]
  iapply (wp_load 𝒱₀ (c : Thread nD τ) none Set.univ (m := lM) (Finset.subset_univ _)) $$ Hloc; iintro Hloc
  iapply (wp_store 𝒱₀ (c : Thread nD τ) none Set.univ (m := lM) (r := r0l) (Mk := Finset.univ) (Finset.subset_univ _)) $$ Hloc; iintro Hloc
  rw [write_l]
  -- the WAIT for 3 on its own barrier, owing the three copies' credit: the three rows it will write come with it
  iapply (Rounds.wp_wait_rest_token 𝒱₀ ER (sched m ρ) (c : Thread nD τ) none (κ := K (c, 0))
      (wpE_semWait_eq 𝒱₀ (c : Thread nD τ) none Set.univ) (Set.mem_univ _) () (O := Orecv c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨⟨%fn0, HscrN0⟩, #HrV0'⟩, ⟨⟨%fn1, HscrN1⟩, #HrV1'⟩, ⟨⟨%fn2, HscrN2⟩, #HrV2'⟩⟩
  -- the row of maxima quartered
  ihave Hq := (loc_quarter_stored m ρ c) $$ Hloc
  icases Hq with ⟨Hl0, Hl1, Hl2, Hlk⟩
  unfold Orecv
  -- the three copies
  iapply (wp_send_slot0 m ρ c _ (dev4_eq c) fn0 _ (tallyAt (recvCell (fwd 2 c) 2) () N + tallyAt (recvCell (fwd 1 c) 1) () N) rfl (insert (SemLoc.reg barS, ()) W) (K (c, 1)) (K (fwd 0 c, 4))) $$ [Hl0 HscrN0 HO HtS0 HtP0]
  · isplitr; · iexact HIs0
    isplitr; · iexact HIp0
    isplitl [Hl0]; · iexact Hl0
    isplitl [HscrN0]; · iexact HscrN0
    isplitl [HO]; · iexact HO
    isplitl [HtS0]; · iexact HtS0
    isplitr; · iexact HrS0
    isplitl [HtP0]; · iexact HtP0
    iexact HrP0
  iintro ⟨HcS0, HO⟩
  iapply (wp_send_slot1 m ρ c _ (dev5_eq c) fn1 _ (tallyAt (recvCell (fwd 2 c) 2) () N) rfl (insert (SemLoc.reg barS, ()) W) (K (c, 2)) (K (fwd 1 c, 5))) $$ [Hl1 HscrN1 HO HtS1 HtP1]
  · isplitr; · iexact HIs1
    isplitr; · iexact HIp1
    isplitl [Hl1]; · iexact Hl1
    isplitl [HscrN1]; · iexact HscrN1
    isplitl [HO]; · iexact HO
    isplitl [HtS1]; · iexact HtS1
    isplitr; · iexact HrS1
    isplitl [HtP1]; · iexact HtP1
    iexact HrP1
  iintro ⟨HcS1, HO⟩
  iapply (wp_send_slot2 m ρ c _ (dev6_eq c) fn2 _ 0 (by rw [zero_add]) (insert (SemLoc.reg barS, ()) W) (K (c, 3)) (K (fwd 2 c, 6))) $$ [Hl2 HscrN2 HO HtS2 HtP2]
  · isplitr; · iexact HIs2
    isplitr; · iexact HIp2
    isplitl [Hl2]; · iexact Hl2
    isplitl [HscrN2]; · iexact HscrN2
    isplitl [HO]; · iexact HO
    isplitl [HtS2]; · iexact HtS2
    isplitr; · iexact HrS2
    isplitl [HtP2]; · iexact HtP2
    iexact HrP2
  iintro ⟨HcS2, HO⟩
  -- its own row read again, at the share kept
  unfold locPts
  iapply (wp_load 𝒱₀ (c : Thread nD τ) none Set.univ (m := lM) (by rw [l_set]; exact Finset.subset_univ _)) $$ Hlk; iintro Hlk
  rw [read_l]
  -- the three landings, each waited for and then loaded
  iapply (Rounds.wp_wait_rest_token 𝒱₀ ER (sched m ρ) (c : Thread nD τ) none (κ := K (c, 4))
      (wpE_waitDma2_eq 𝒱₀ (c : Thread nD τ) none Set.univ) (Set.mem_univ _) () (O := 0) (W := (insert (SemLoc.reg barS, ()) W)) (R := 0) (m := 0) (T := ∅)
      (by rw [Nat.zero_add]; exact (expect_recv m ρ c 0).symm)) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hp := (Entails.of_eq (rest_recv m ρ c 0)) $$ [Hpay]
  · iexact Hpay
  unfold recvPay
  icases Hp with ⟨%f0, Hs0, %hf0⟩
  ihave Hs0 := (Entails.of_eq (slotPts_eq0 (F := F) c f0)) $$ Hs0
  iapply (wp_load 𝒱₀ (c : Thread nD τ) none Set.univ (m := cM) slot_load_sub0) $$ Hs0; iintro Hs0
  iapply (Rounds.wp_wait_rest_token 𝒱₀ ER (sched m ρ) (c : Thread nD τ) none (κ := K (c, 6))
      (wpE_waitDma2_eq 𝒱₀ (c : Thread nD τ) none Set.univ) (Set.mem_univ _) () (O := 0) (W := (insert (SemLoc.dma (recvSm 0), ()) (insert (SemLoc.reg barS, ()) W))) (R := 0) (m := 0) (T := ∅)
      (by rw [Nat.zero_add]; exact (expect_recv m ρ c 2).symm)) $$ [HcR2 HO HatR2]
  · isplitr; · iexact HIr2
    isplitl [HcR2]; · iexact HcR2
    isplitl [HO]; · iexact HO
    isplitr; · rw [MayWait_zero]; iempintro
    iexact HatR2
  iintro ⟨HO, HatR2, -, Hpay⟩
  ihave Hp := (Entails.of_eq (rest_recv m ρ c 2)) $$ [Hpay]
  · iexact Hpay
  unfold recvPay
  icases Hp with ⟨%f2, Hs2, %hf2⟩
  ihave Hs2 := (Entails.of_eq (slotPts_eq2 (F := F) c f2)) $$ Hs2
  iapply (wp_load 𝒱₀ (c : Thread nD τ) none Set.univ (m := cM) slot_load_sub2) $$ Hs2; iintro Hs2
  iapply (Rounds.wp_wait_rest_token 𝒱₀ ER (sched m ρ) (c : Thread nD τ) none (κ := K (c, 5))
      (wpE_waitDma2_eq 𝒱₀ (c : Thread nD τ) none Set.univ) (Set.mem_univ _) () (O := 0) (W := (insert (SemLoc.dma (recvSm 2), ()) (insert (SemLoc.dma (recvSm 0), ()) (insert (SemLoc.reg barS, ()) W)))) (R := 0) (m := 0) (T := ∅)
      (by rw [Nat.zero_add]; exact (expect_recv m ρ c 1).symm)) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hp := (Entails.of_eq (rest_recv m ρ c 1)) $$ [Hpay]
  · iexact Hpay
  unfold recvPay
  icases Hp with ⟨%f1, Hs1, %hf1⟩
  ihave Hs1 := (Entails.of_eq (slotPts_eq1 (F := F) c f1)) $$ Hs1
  iapply (wp_load 𝒱₀ (c : Thread nD τ) none Set.univ (m := cM) slot_load_sub1) $$ Hs1; iintro Hs1
  have hval : k0_pay3 (k0_pay2 (localv m ρ c) ((cM : Memref sig .tc .vmem S3x1x256 .f32).view.readAt (Elt F) (rectK 0).toLoadRect f0)
        ((cM : Memref sig .tc .vmem S3x1x256 .f32).view.readAt (Elt F) (rectK 2).toLoadRect f2))
        ((cM : Memref sig .tc .vmem S3x1x256 .f32).view.readAt (Elt F) (rectK 1).toLoadRect f1) = outAt m ρ c := by
    rw [pay_eq]; unfold outAt; rw [← hf0, ← hf2, ← hf1]; rfl
  -- the result stored
  iapply (wp_load 𝒱₀ (c : Thread nD τ) none Set.univ (m := oM) (Finset.subset_univ _)) $$ Hout; iintro Hout
  iapply (wp_store 𝒱₀ (c : Thread nD τ) none Set.univ (m := oM) (r := r0l) (Mk := Finset.univ) (Finset.subset_univ _)) $$ Hout; iintro Hout
  rw [write_out, hval]
  -- the three copies read to the end: the shares of the row of maxima back
  iapply (Rounds.wp_wait_rest_token 𝒱₀ ER (sched m ρ) (c : Thread nD τ) none (κ := K (c, 1))
      (wpE_waitDma2_eq 𝒱₀ (c : Thread nD τ) none Set.univ) (Set.mem_univ _) () (O := 0) (W := (insert (SemLoc.dma (recvSm 1), ()) (insert (SemLoc.dma (recvSm 2), ()) (insert (SemLoc.dma (recvSm 0), ()) (insert (SemLoc.reg barS, ()) W))))) (R := 0) (m := 0) (T := ∅)
      (by rw [Nat.zero_add]; exact (expect_send m ρ c 0).symm)) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hl0 := (Entails.of_eq (rest_send m ρ c 0)) $$ [Hpay]
  · iexact Hpay
  iapply (Rounds.wp_wait_rest_token 𝒱₀ ER (sched m ρ) (c : Thread nD τ) none (κ := K (c, 2))
      (wpE_waitDma2_eq 𝒱₀ (c : Thread nD τ) none Set.univ) (Set.mem_univ _) () (O := 0) (W := (insert (SemLoc.dma (sendSm 0), ()) (insert (SemLoc.dma (recvSm 1), ()) (insert (SemLoc.dma (recvSm 2), ()) (insert (SemLoc.dma (recvSm 0), ()) (insert (SemLoc.reg barS, ()) W)))))) (R := 0) (m := 0) (T := ∅)
      (by rw [Nat.zero_add]; exact (expect_send m ρ c 1).symm)) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hl1 := (Entails.of_eq (rest_send m ρ c 1)) $$ [Hpay]
  · iexact Hpay
  iapply (Rounds.wp_wait_rest_token 𝒱₀ ER (sched m ρ) (c : Thread nD τ) none (κ := K (c, 3))
      (wpE_waitDma2_eq 𝒱₀ (c : Thread nD τ) none Set.univ) (Set.mem_univ _) () (O := 0) (W := (insert (SemLoc.dma (sendSm 1), ()) (insert (SemLoc.dma (sendSm 0), ()) (insert (SemLoc.dma (recvSm 1), ()) (insert (SemLoc.dma (recvSm 2), ()) (insert (SemLoc.dma (recvSm 0), ()) (insert (SemLoc.reg barS, ()) W))))))) (R := 0) (m := 0) (T := ∅)
      (by rw [Nat.zero_add]; exact (expect_send m ρ c 2).symm)) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave Hl2 := (Entails.of_eq (rest_send m ρ c 2)) $$ [Hpay]
  · iexact Hpay
  -- the six own cells close: their counters at zero are the core's again
  imod (Rounds.cell_close ER (sched m ρ) (Set.mem_univ (K (c, 1))) (fun h => h) (R := 0 + 1) (duties_later m ρ (sendCell c 0))) $$ [HatS0] with HzS0
  · isplitr; · iexact HIs0
    iexact HatS0
  imod (Rounds.cell_close ER (sched m ρ) (Set.mem_univ (K (c, 2))) (fun h => h) (R := 0 + 1) (duties_later m ρ (sendCell c 1))) $$ [HatS1] with HzS1
  · isplitr; · iexact HIs1
    iexact HatS1
  imod (Rounds.cell_close ER (sched m ρ) (Set.mem_univ (K (c, 3))) (fun h => h) (R := 0 + 1) (duties_later m ρ (sendCell c 2))) $$ [HatS2] with HzS2
  · isplitr; · iexact HIs2
    iexact HatS2
  imod (Rounds.cell_close ER (sched m ρ) (Set.mem_univ (K (c, 4))) (fun h => h) (R := 0 + 1) (duties_later m ρ (recvCell c 0))) $$ [HatR0] with HzR0
  · isplitr; · iexact HIr0
    iexact HatR0
  imod (Rounds.cell_close ER (sched m ρ) (Set.mem_univ (K (c, 5))) (fun h => h) (R := 0 + 1) (duties_later m ρ (recvCell c 1))) $$ [HatR1] with HzR1
  · isplitr; · iexact HIr1
    iexact HatR1
  imod (Rounds.cell_close ER (sched m ρ) (Set.mem_univ (K (c, 6))) (fun h => h) (R := 0 + 1) (duties_later m ρ (recvCell c 2))) $$ [HatR2] with HzR2
  · isplitr; · iexact HIr2
    iexact HatR2
  ihave Hs0 := (Entails.of_eq (slotPts_back0 (F := F) c f0)) $$ Hs0
  ihave Hs1 := (Entails.of_eq (slotPts_back1 (F := F) c f1)) $$ Hs1
  ihave Hs2 := (Entails.of_eq (slotPts_back2 (F := F) c f2)) $$ Hs2
  rw [wp_ret]; imodintro
  iapply Hk
  unfold bodyPost Φ₁ scratches Dat.owesAt Pipeline.owesWithin sendPay
  rw [show (dats m ρ 0 c).owed t₀.succ = 0 from rfl]
  isplitl [Hl0 Hl1 Hl2 Hlk Hs0 Hs1 Hs2 HzS0 HzS1 HzS2 HzR0 HzR1 HzR2]
  · isplitl [Hl0 Hl1 Hl2 Hlk Hs0 Hs1 Hs2]
    · isplitl [Hl0 Hl1 Hl2 Hlk]
      · iexists (localv m ρ c)
        iapply (loc_unquarter (F := F) c (localv m ρ c))
        unfold locPts
        isplitl [Hl0]; · iexact Hl0
        isplitl [Hl1]; · iexact Hl1
        isplitl [Hl2]; · iexact Hl2
        iexact Hlk
      · iapply (comm_join (F := F) c f0 f1 f2)
        isplitl [Hs0]; · iexact Hs0
        isplitl [Hs1]; · iexact Hs1
        iexact Hs2
    isplitl [HzS0 HzS1 HzS2]
    · isplitl [HzS0]; · iexact HzS0
      isplitl [HzS1]; · iexact HzS1
      iexact HzS2
    · isplitl [HzR0]; · iexact HzR0
      isplitl [HzR1]; · iexact HzR1
      iexact HzR2
  isplitl [HO]
  · iexists (insert (SemLoc.dma (sendSm 2), ()) (insert (SemLoc.dma (sendSm 1), ()) (insert (SemLoc.dma (sendSm 0), ()) (insert (SemLoc.dma (recvSm 1), ()) (insert (SemLoc.dma (recvSm 2), ()) (insert (SemLoc.dma (recvSm 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-- info: 'Cert.KernelProof.body_obligation' depends on axioms: [propext, Classical.choice, Quot.sound] -/
#guard_msgs in #print axioms body_obligation

end Body
end Cert.KernelProof
end
-- ==== Proof.KLaunch.lean ====
/-
  The launch of the four-device all-reduce of column maxima: the protocol's cells and duty tokens funded
  in the launch element, every device's cells' invariants allocated in one step over all devices, the
  tokens dealt around the ring to the devices that pay them, the launch credit counted, and the run of
  the program from any memory with zero counters to each device's arrays at their final contents.
-/
import proofs.«900927_g7700000000000928_dist_max_ax0_shard0_i_m512_n256_v7x_i4_f32_1_alg».proof.Proof.KBody
import proofs.«900927_g7700000000000928_dist_max_ax0_shard0_i_m512_n256_v7x_i4_f32_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.Tactic

noncomputable section

namespace Cert.KernelProof

open Cert.Kernel Cert.Kernel.Gen
open Cert.Mesh4

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-! ### The cells and the duty tokens of the launch element -/

theorem dma_ne_reg (q : DmaSem sig) : (SemLoc.dma q : SemLoc sig) ≠ .reg barS := fun h => by cases h

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def protoCells : Finset (GSem nD τ sig) := Finset.univ.map ⟨kcell, kcell_injective⟩

/-- A device's own cells' duty tokens as minted: (device, which of the nine) — its barrier's three duties, the one duty
    of each of its send cells, the one duty of each of its receive cells. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0)
  | 6 => (recvCell cj.1 0, 0, 0) | 7 => (recvCell cj.1 1, 0, 0) | 8 => (recvCell cj.1 2, 0, 0)

/-- Which of the nine a token is, read off its semaphore and its duty alone. -/
abbrev tokCode (j : Fin 9) : SemLoc sig × Fin 3 := match j with
  | 0 => (.reg barS, 0) | 1 => (.reg barS, 1) | 2 => (.reg barS, 2)
  | 3 => (.dma (sendSm 0), 0) | 4 => (.dma (sendSm 1), 0) | 5 => (.dma (sendSm 2), 0)
  | 6 => (.dma (recvSm 0), 0) | 7 => (.dma (recvSm 1), 0) | 8 => (.dma (recvSm 2), 0)
theorem tokCode_injective : Function.Injective tokCode := by decide
theorem tokOf_dev (c : Dev nD) (j : Fin 9) : (tokOf (c, j)).1.1.1 = c := by fin_cases j <;> rfl
theorem tokOf_code (c : Dev nD) (j : Fin 9) : ((tokOf (c, j)).1.2, (tokOf (c, j)).2.2) = tokCode j := by fin_cases j <;> rfl

theorem tokOf_injective : Function.Injective (tokOf : Dev nD × Fin 9 → GSem nD τ sig × ℕ × Fin 3) := by
  rintro ⟨c, j⟩ ⟨c', j'⟩ h
  have h1 : c = c' := by
    have := congrArg (fun x : GSem nD τ sig × ℕ × Fin 3 => x.1.1.1) h
    rwa [tokOf_dev, tokOf_dev] at this
  subst h1
  have h2 : j = j' := tokCode_injective (by
    rw [← tokOf_code c j, ← tokOf_code c j']
    exact congrArg (fun x : GSem nD τ sig × ℕ × Fin 3 => (x.1.2, x.2.2)) h)
  subst h2; rfl
def protoToks : Finset (GSem nD τ sig × ℕ × Fin 3) := Finset.univ.map ⟨tokOf, tokOf_injective⟩

def u₀ : UU :=
  (initOf (Pipeline.cells cfgs cellOf_inj) (Pipeline.launchToks cfgs cellOf_inj), initOf protoCells protoToks)

/-- The duty tokens of device c's own cells. -/
def toks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device c. -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the step over all devices makes of it. -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem fund : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 7 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin9]; rfl
  iintro HX
  imod (Rounds.fund ER (sched m ρ) protoCells protoToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The three send and three receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨HS0, HS1, HS2, HV0, HV1, HV2⟩, HB⟩
  isplitl [HB]; · iexact HB
  isplitl [HS0]; · iexact HS0
  isplitl [HS1]; · iexact HS1
  isplitl [HS2]; · iexact HS2
  isplitl [HV0]; · iexact HV0
  isplitl [HV1]; · iexact HV1
  iexact HV2

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 7 => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k : Fin 7 => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants of every device's cells under the names they were allocated at, and that round 0 of each is reached. -/
def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device c: its positions, and the tokens of the duties it pays. -/
def linear (c : Dev nD) : sProp 𝕄 := iprop(posns c ∗ payToks c)

theorem ghost_intro (K : Dev nD × Fin 7 → ℕ) (c : Dev nD) : iprop(records m ρ K ∗ linear c) ⊢ G' m ρ c := by
  unfold records linear G' ghost
  iintro ⟨⟨#HI, #HR⟩, Hpos, Htok⟩
  iexists K
  isplitr
  · unfold invs
    isplitr; · iapply (inv_at m ρ K (c, 0)); iexact HI
    isplitr
    · isplitr; · iapply (inv_at m ρ K (c, 1)); iexact HI
      isplitr; · iapply (inv_at m ρ K (c, 2)); iexact HI
      iapply (inv_at m ρ K (c, 3)); iexact HI
    isplitr
    · isplitr; · iapply (inv_at m ρ K (c, 4)); iexact HI
      isplitr; · iapply (inv_at m ρ K (c, 5)); iexact HI
      iapply (inv_at m ρ K (c, 6)); iexact HI
    isplitr
    · isplitr; · iapply (inv_at m ρ K (fwd 0 c, 0)); iexact HI
      isplitr; · iapply (inv_at m ρ K (fwd 1 c, 0)); iexact HI
      iapply (inv_at m ρ K (fwd 2 c, 0)); iexact HI
    · isplitr; · iapply (inv_at m ρ K (fwd 0 c, 4)); iexact HI
      isplitr; · iapply (inv_at m ρ K (fwd 1 c, 5)); iexact HI
      iapply (inv_at m ρ K (fwd 2 c, 6)); iexact HI
  isplitr
  · unfold marks
    isplitr
    · isplitr; · iapply (reached_at (F := F) (fwd 0 c, 0)); iexact HR
      isplitr; · iapply (reached_at (F := F) (fwd 1 c, 0)); iexact HR
      iapply (reached_at (F := F) (fwd 2 c, 0)); iexact HR
    isplitr
    · isplitr; · iapply (reached_at (F := F) (fwd 0 c, 4)); iexact HR
      isplitr; · iapply (reached_at (F := F) (fwd 1 c, 5)); iexact HR
      iapply (reached_at (F := F) (fwd 2 c, 6)); iexact HR
    isplitr
    · isplitr; · iapply (reached_at (F := F) (c, 1)); iexact HR
      isplitr; · iapply (reached_at (F := F) (c, 2)); iexact HR
      iapply (reached_at (F := F) (c, 3)); iexact HR
    · isplitr; · iapply (reached_at (F := F) (c, 4)); iexact HR
      isplitr; · iapply (reached_at (F := F) (c, 5)); iexact HR
      iapply (reached_at (F := F) (c, 6)); iexact HR
  isplitl [Hpos]; · iexact Hpos
  iexact Htok

/-- The tokens dealt around the ring. Duty e of a device's barrier cell is paid by the device e+1 places on (whose signal
    of distance (rev e)+1 reaches it), so the token goes there: summed over the ring, the tokens of duty e are the tokens
    each device holds for the barrier cell (rev e)+1 places on. The token of receive cell k goes to the device k+1 places
    before, whose copy k lands there. The send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (ring 2) (fun c : Dev nD => (dutyTok ER (barCell c) 0 0 : sProp 𝕄)),
    bigSep_univ_equiv (ring 1) (fun c : Dev nD => (dutyTok ER (barCell c) 0 1 : sProp 𝕄)),
    bigSep_univ_equiv (ring 0) (fun c : Dev nD => (dutyTok ER (barCell c) 0 2 : sProp 𝕄)),
    bigSep_univ_equiv (ring 0) (fun c : Dev nD => (dutyTok ER (recvCell c 0) 0 0 : sProp 𝕄)),
    bigSep_univ_equiv (ring 1) (fun c : Dev nD => (dutyTok ER (recvCell c 1) 0 0 : sProp 𝕄)),
    bigSep_univ_equiv (ring 2) (fun c : Dev nD => (dutyTok ER (recvCell c 2) 0 0 : sProp 𝕄))]
  iintro ⟨B0, B1, B2, S0, S1, S2, R0, R1, R2⟩
  isplitl [B0 B1 B2]
  · isplitl [B2]; · iexact B2
    isplitl [B1]; · iexact B1
    iexact B0
  isplitl [R0 R1 R2]
  · isplitl [R0]; · iexact R0
    isplitl [R1]; · iexact R1
    iexact R2
  isplitl [S0]; · iexact S0
  isplitl [S1]; · iexact S1
  iexact S2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem posns_intro (c : Dev nD) : (bigSep Finset.univ fun k : Fin 7 => (atPos ER (kcell (c, k)) 0 ∅ 0 : sProp 𝕄)) ⊢ posns c := by
  rw [bigSep_fin7]; unfold posns
  iintro ⟨H0, H1, H2, H3, H4, H5, H6⟩
  isplitl [H0]; · iexact H0
  isplitl [H1 H2 H3]
  · isplitl [H1]; · iexact H1
    isplitl [H2]; · iexact H2
    iexact H3
  isplitl [H4]; · iexact H4
  isplitl [H5]; · iexact H5
  iexact H6

theorem regroup :
    (bigSep Finset.univ fun c : Dev nD => iprop((bigSep Finset.univ fun k : Fin 7 => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from by unfold linear; exact sep_mono_left (posns_intro c)))
    isplitl [Hat]; · iexact Hat
    iexact Htk

/-- The step over all devices: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {j k : Fin 3} : Iff (recvCell a j = recvCell b k) (a = b ∧ j = k) :=
  ⟨fun h => ⟨Fin.ext (congrArg (fun g : GSem nD τ sig => g.1.1.val) h), by
      have h2 : (SemLoc.dma (recvSm j) : SemLoc sig) = .dma (recvSm k) := congrArg Prod.snd h
      have h3 : 5 + j.val = 5 + k.val := congrArg Fin.val (SemLoc.dma.inj h2)
      exact Fin.ext (by omega)⟩,
    fun h => by obtain ⟨rfl, rfl⟩ := h; rfl⟩
theorem bar_ne_recv (a b : Dev nD) (k : Fin 3) : barCell a ≠ recvCell b k := fun h => dma_ne_reg _ (congrArg Prod.snd h).symm

/-- What the signal of distance k+1 of device d owes the barrier cell of c: its unit, if c is where it lands. -/
theorem tally_bar (d c : Dev nD) (k : Fin 3) : tallyAt (barCell (fwd k d)) () 1 (barCell c) () = if d = bwd k c then 1 else 0 := by
  rw [tallyAt_apply]
  by_cases h : d = bwd k c
  · subst h; rw [fwd_bwd, if_pos ⟨rfl, rfl⟩, if_pos rfl]
  · rw [if_neg (fun h' => h (by rw [bar_eq_iff.mp h'.1, bwd_fwd])), if_neg h]

/-- What copy j of device d owes receive cell k of c: the row's credit, if that is the cell it lands on. -/
theorem tally_recv (d c : Dev nD) (j k : Fin 3) :
    tallyAt (recvCell (fwd j d) j) () N (recvCell c k) () = if j = k ∧ d = bwd k c then N else 0 := by
  rw [tallyAt_apply]
  by_cases h : j = k ∧ d = bwd k c
  · obtain ⟨rfl, rfl⟩ := h; rw [fwd_bwd, if_pos ⟨rfl, rfl⟩, if_pos ⟨rfl, rfl⟩]
  · rw [if_neg h, if_neg]
    intro h'
    obtain ⟨hc, hk⟩ := recv_eq_iff.mp h'.1
    subst hk
    exact h ⟨rfl, by rw [hc, bwd_fwd]⟩

theorem Orecv_bar (d c : Dev nD) : Orecv d (barCell c) () = 0 := by
  unfold Orecv
  rw [Pi.add_apply, Finsupp.add_apply, Pi.add_apply, Finsupp.add_apply,
    tallyAt_ne_cell (bar_ne_recv _ _ _), tallyAt_ne_cell (bar_ne_recv _ _ _), tallyAt_ne_cell (bar_ne_recv _ _ _), Finsupp.zero_apply]
  rfl

/-- What device d owes device c's barrier cell: a unit if it is one, two or three places before c — every device but c. -/
theorem owed_bar (d c : Dev nD) :
    O₀ d (barCell c) () = (if d = bwd 0 c then 1 else 0) + (if d = bwd 1 c then 1 else 0) + (if d = bwd 2 c then 1 else 0) := by
  unfold O₀ O₁ O₂
  rw [Pi.add_apply, Finsupp.add_apply, Pi.add_apply, Finsupp.add_apply, Pi.add_apply, Finsupp.add_apply,
    Orecv_bar, tally_bar, tally_bar, tally_bar]
  omega

theorem owed_recv (d c : Dev nD) (k : Fin 3) : O₀ d (recvCell c k) () = if d = bwd k c then N else 0 := by
  unfold O₀ O₁ O₂ Orecv
  rw [Pi.add_apply, Finsupp.add_apply, Pi.add_apply, Finsupp.add_apply, Pi.add_apply, Finsupp.add_apply,
    Pi.add_apply, Finsupp.add_apply, Pi.add_apply, Finsupp.add_apply,
    tallyAt_ne_cell (bar_ne_recv _ _ _).symm, tallyAt_ne_cell (bar_ne_recv _ _ _).symm, tallyAt_ne_cell (bar_ne_recv _ _ _).symm,
    Finsupp.zero_apply, tally_recv, tally_recv, tally_recv]
  fin_cases k <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (bwd 0 c) fun _ => 1, Finset.sum_ite_eq' Finset.univ (bwd 1 c) fun _ => 1, Finset.sum_ite_eq' Finset.univ (bwd 2 c) fun _ => 1,
    if_pos (Finset.mem_univ _), if_pos (Finset.mem_univ _), if_pos (Finset.mem_univ _)]

theorem launch_recv (c : Dev nD) (k : Fin 3) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (bwd k c) fun _ => N,
    if_pos (Finset.mem_univ _)]

theorem creds_intro (c : Dev nD) : (Pipeline.launchCred O₀ c : sProp 𝕄) ⊢ creds c := by
  unfold Pipeline.launchCred creds
  rw [bigSep_univ_at _ (SemLoc.reg barS), launch_bar]
  refine sep_mono_right ?_
  rw [bigSep_erase (i := SemLoc.dma (recvSm 0)) (Finset.mem_erase.mpr ⟨dma_ne_reg _, Finset.mem_univ _⟩), launch_recv]
  refine sep_mono_right ?_
  rw [bigSep_erase (i := SemLoc.dma (recvSm 1)) (Finset.mem_erase.mpr ⟨by decide, Finset.mem_erase.mpr ⟨dma_ne_reg _, Finset.mem_univ _⟩⟩), launch_recv]
  refine sep_mono_right ?_
  rw [← launch_recv]
  exact bigSep_elim (Finset.mem_erase.mpr ⟨by decide, Finset.mem_erase.mpr ⟨by decide, Finset.mem_erase.mpr ⟨dma_ne_reg _, Finset.mem_univ _⟩⟩⟩)

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratches
  iintro ⟨Hr, ⟨HS0, HS1, HS2⟩, HV0, HV1, HV2⟩
  isplitr; · iempintro
  isplitr [Hr]
  · isplitl [HS0]; · iexact HS0
    isplitl [HS1]; · iexact HS1
    isplitl [HS2]; · iexact HS2
    isplitl [HV0]; · iexact HV0
    isplitl [HV1]; · iexact HV1
    iexact HV2
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- Device c's arrays after the run: each window's array after the write-backs of the one point. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The run from the body obligation: at the compiled mesh of four devices, for any float values, from any memory with zero
    counters, if every device's body meets its obligation then every weakly fair execution of the program terminates and
    every final state has each device's arrays at their final contents. -/
theorem run_main_of (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelProof.run_main_of' depends on axioms: [propext, Classical.choice, Quot.sound] -/
#guard_msgs in #print axioms run_main_of

/-- At the compiled mesh of four devices, for any float values, from any memory with zero counters: every weakly fair
    execution of the program — the four kernels signalling each other's barrier semaphore, waiting for the three others,
    copying their rows of column maxima into each other's landing buffers and folding what landed — terminates, and
    every final state has each device's result array at the computed contents and its block of x unchanged. -/
theorem run_main : θ_run defs (onTc (τ := τ) (main (F := F))) (s₀ m ρ) (QC m ρ) := run_main_of m ρ (body_obligation m ρ)

/-- info: 'Cert.KernelProof.run_main' depends on axioms: [propext, Classical.choice, Quot.sound] -/
#guard_msgs in #print axioms run_main

/-- The array of x after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The output window's one block is the whole result array: read through it, the array is itself. -/
theorem read_blk_out (c : Dev nD) (X : Buf (Elt F) ((cfg0.win (1 : Fin 2)).arr.view.loc (c : Thread nD τ))) :
    ((cfg0.win (1 : Fin 2)).blk t₀).view.read (Elt F) X = X :=
  Memref.read_access_unit_zero (Elt F) main_v1 (funext fun a => by fin_cases a <;> rfl) _ X

/-- The result array after the run holds the maximum of the four devices' rows of column maxima: the output window's one
    block is the whole array, written back at the one point with what the body left in its staging buffer. -/
theorem finalA_out (c : Dev nD) : finalA m ρ c (1 : Fin 2) = outAt m ρ c := by
  show (dats m ρ 0 c).arrAt (1 : Fin 2) (t₀.val + 1) = outAt m ρ c
  rw [Dat.arrAt_succ, flush0_1 t₀, if_pos rfl]
  exact (read_blk_out c _).symm.trans (View.read_write_univ _ _)

/-- info: 'Cert.KernelProof.finalA_x' depends on axioms: [propext, Classical.choice, Quot.sound] -/
#guard_msgs in #print axioms finalA_x

/-- info: 'Cert.KernelProof.finalA_out' depends on axioms: [propext, Classical.choice, Quot.sound] -/
#guard_msgs in #print axioms finalA_out

end Cert.KernelProof

end
-- ==== Proof.ColMax.lean ====
/-
  The column-wise maximum of an array of 2048 rows and 256 columns of extended reals, and the fact
  that a device's result is that maximum: the maximum over all rows of a column is the maximum of
  the four maxima over the blocks of 512 consecutive rows, in any order and grouping.

  Every step is the universal property of a maximum: a maximum is below a bound exactly when every
  entry it ranges over is; two extended reals below the same bounds are equal.
-/
import proofs.«900927_g7700000000000928_dist_max_ax0_shard0_i_m512_n256_v7x_i4_f32_1_alg».proof.Proof.Gen.KernelIdeal.Skeleton
import proofs.«900927_g7700000000000928_dist_max_ax0_shard0_i_m512_n256_v7x_i4_f32_1_alg».proof.Proof.Mesh4
import Idealize.ShloMosaic.Lib.Layout
import Idealize.ShloMosaic.Lib.ValueIdx
import Idealize.ShloMosaic.Lib.ValueLayout
import Idealize.ShloMosaic.PureOps.Ideal
import Idealize.ShloMosaic.PureOps.Ideal.Laws
import Mathlib.Data.Finset.Fold
import Mathlib.Data.Finset.Lattice.Fold

noncomputable section

namespace Cert.ColMax

open Idealize.ShloMosaic Idealize.ShloMosaic.ValueIdx Cert.Mesh4

/-- The column-wise supremum over the 2048 rows: entry (0, t) is the least upper bound of column t. -/
def colmax (X : (⟨2, ![2048, 256]⟩ : Shape).Idx → EReal) : (⟨2, ![1, 256]⟩ : Shape).Idx → EReal :=
  fun j => Finset.univ.sup fun r : Fin 2048 => X (ix2 r (j 1))

/-- Block c' (512 consecutive rows) of the whole array. -/
abbrev blockOf (c' : Dev 4) (X : (⟨2, ![2048, 256]⟩ : Shape).Idx → EReal) : (⟨2, ![512, 256]⟩ : Shape).Idx → EReal :=
  Layout.block ⟨2, ![512, 256]⟩ ⟨2, ![2048, 256]⟩ 0 4 c' X

/-- The pattern of −∞ denotes the least extended real. -/
theorem ofBits_neg_inf : FloatOps.ofBits (F := Ideal) .f32 0xFF800000#32 = (⊥ : EReal) := by
  simp [Ideal.ofBits, Ideal.ieee]

/-- The column maximum is below a bound exactly when every entry of the column is. -/
theorem colmax_le (X : (⟨2, ![2048, 256]⟩ : Shape).Idx → EReal) (u : Fin 1) (t : Fin 256) (z : EReal) :
    colmax X (ix2 u t) ≤ z ↔ ∀ R : Fin 2048, X (ix2 R t) ≤ z := by
  show (Finset.univ.sup fun r : Fin 2048 => X (ix2 r t)) ≤ z ↔ _
  rw [Finset.sup_le_iff]
  exact ⟨fun H R => H R (Finset.mem_univ _), fun H R _ => H R⟩

/-- Over a reduction along the rows, the source index above column t at row k is (k, t). -/
theorem lift_rows {n m : Nat} (h : (⟨2, ![n, m]⟩ : Shape).Reduces [0] ⟨1, ![m]⟩) (t : Fin m) (k : Fin n) :
    h.lift (ix1 t) k = ix2 k t := by
  funext a
  match a with
  | ⟨0, _⟩ => rfl
  | ⟨1, _⟩ => rfl

/-- A block's column maxima, as the kernel computes them, read at column t: the fold of the
    maximum from −∞ over the 512 entries of the block's column t. -/
theorem pay1_apply (B : (⟨2, ![512, 256]⟩ : Shape).Idx → EReal) (u : Fin 1) (t : Fin 256) :
    Cert.KernelIdeal.Gen.k0_pay1 (F := Ideal) B (ix2 u t)
      = (Finset.univ : Finset (Fin 512)).fold max (FloatOps.ofBits (F := Ideal) .f32 0xFF800000#32)
          (B ∘ Cert.KernelIdeal.Gen.reduces_S512x256_S256.lift (ix1 t)) := by
  unfold Cert.KernelIdeal.Gen.k0_pay1
  simp only [shapeCast_self]
  rw [shapeCast_a_1a_apply]
  exact Ideal.multiReduction_maximumf_single (φ := .f32) B 0xFF800000#32
    Cert.KernelIdeal.Gen.reduces_S512x256_S256 (.inl rfl) rfl (ix1 t)

/-- So at column t they are below a bound exactly when every entry of the block's column t is. -/
theorem pay1_le (B : (⟨2, ![512, 256]⟩ : Shape).Idx → EReal) (u : Fin 1) (t : Fin 256) (z : EReal) :
    Cert.KernelIdeal.Gen.k0_pay1 (F := Ideal) B (ix2 u t) ≤ z ↔ ∀ r : Fin 512, B (ix2 r t) ≤ z := by
  rw [pay1_apply]
  refine Iff.trans (Finset.fold_max_le z) ⟨fun H r => ?_, fun H => ⟨?_, fun r _ => ?_⟩⟩
  · exact (congrArg B (lift_rows Cert.KernelIdeal.Gen.reduces_S512x256_S256 t r)).symm.trans_le
      (H.2 r (Finset.mem_univ _))
  · exact ofBits_neg_inf.trans_le bot_le
  · exact (congrArg B (lift_rows Cert.KernelIdeal.Gen.reduces_S512x256_S256 t r)).trans_le (H r)

/-- Row r of block c' is row 512 c' + r of the whole array. -/
theorem block_rows (c' : Dev 4) (X : (⟨2, ![2048, 256]⟩ : Shape).Idx → EReal) (r : Fin 512) (t : Fin 256) :
    blockOf c' X (ix2 r t)
      = X (ix2 (⟨c'.val * 512 + r.val, by have := c'.isLt; have := r.isLt; omega⟩ : Fin 2048) t) := by
  show X _ = X _
  congr 1
  funext a
  match a with
  | ⟨0, _⟩ => rfl
  | ⟨1, _⟩ => rfl

/-- Every row of the whole array is a row of one of the four blocks. -/
theorem row_in_block (X : (⟨2, ![2048, 256]⟩ : Shape).Idx → EReal) (R : Fin 2048) (t : Fin 256) :
    ∃ (c' : Dev 4) (r : Fin 512), X (ix2 R t) = blockOf c' X (ix2 r t) := by
  refine ⟨⟨R.val / 512, by have := R.isLt; omega⟩, ⟨R.val % 512, by omega⟩, ?_⟩
  rw [block_rows]
  congr 2
  exact Fin.ext (by show R.val = R.val / 512 * 512 + R.val % 512; omega)

/-- The four blocks' column maxima joined, in the order and grouping the kernel joins them, are
    the column-wise maximum of the whole array. -/
theorem kernel_eq' (X : (⟨2, ![2048, 256]⟩ : Shape).Idx → EReal) (c : Dev 4) :
    maximumf (maximumf (maximumf (Cert.KernelIdeal.Gen.k0_pay1 (F := Ideal) (blockOf c X))
          (Cert.KernelIdeal.Gen.k0_pay1 (F := Ideal) (blockOf (bwd 0 c) X)))
        (Cert.KernelIdeal.Gen.k0_pay1 (F := Ideal) (blockOf (bwd 2 c) X)))
      (Cert.KernelIdeal.Gen.k0_pay1 (F := Ideal) (blockOf (bwd 1 c) X))
      = colmax X := by
  funext j
  obtain ⟨u, t, rfl⟩ : ∃ (u : Fin 1) (t : Fin 256), j = ix2 u t := ⟨j 0, j 1, eq_ix2 j⟩
  refine eq_of_forall_ge_iff fun z => ?_
  -- the three joins, read at the entry
  show max (max (max (Cert.KernelIdeal.Gen.k0_pay1 (F := Ideal) (blockOf c X) (ix2 u t))
                     (Cert.KernelIdeal.Gen.k0_pay1 (F := Ideal) (blockOf (bwd 0 c) X) (ix2 u t)))
                (Cert.KernelIdeal.Gen.k0_pay1 (F := Ideal) (blockOf (bwd 2 c) X) (ix2 u t)))
           (Cert.KernelIdeal.Gen.k0_pay1 (F := Ideal) (blockOf (bwd 1 c) X) (ix2 u t)) ≤ z ↔ _
  rw [max_le_iff, max_le_iff, max_le_iff, pay1_le, pay1_le, pay1_le, pay1_le, colmax_le]
  constructor
  · rintro ⟨⟨⟨Hc, H0⟩, H2⟩, H1⟩ R
    obtain ⟨c', r, hR⟩ := row_in_block X R t
    rw [hR]
    rcases cover c c' with rfl | rfl | rfl | rfl
    · exact Hc r
    · exact H0 r
    · exact H1 r
    · exact H2 r
  · intro H
    refine ⟨⟨⟨fun r => ?_, fun r => ?_⟩, fun r => ?_⟩, fun r => ?_⟩ <;>
      (rw [block_rows]; exact H _)

/-- What a device ends with, its own block's column maxima joined with the three vectors it
    received (each, as one row, the column maxima of another device's block), is the column-wise
    maximum of the whole array. -/
theorem kernel_eq (X : (⟨2, ![2048, 256]⟩ : Shape).Idx → EReal) (c : Dev 4)
    (v0 v1 v2 : Vec Ideal Cert.KernelIdeal.S1x1x256 .f32)
    (h0 : shapeCast Cert.KernelIdeal.S1x256 v0 Cert.KernelIdeal.Gen.shapeCasts_S1x1x256_S1x256
            = Cert.KernelIdeal.Gen.k0_pay1 (F := Ideal) (blockOf (bwd 0 c) X))
    (h1 : shapeCast Cert.KernelIdeal.S1x256 v1 Cert.KernelIdeal.Gen.shapeCasts_S1x1x256_S1x256
            = Cert.KernelIdeal.Gen.k0_pay1 (F := Ideal) (blockOf (bwd 1 c) X))
    (h2 : shapeCast Cert.KernelIdeal.S1x256 v2 Cert.KernelIdeal.Gen.shapeCasts_S1x1x256_S1x256
            = Cert.KernelIdeal.Gen.k0_pay1 (F := Ideal) (blockOf (bwd 2 c) X)) :
    Cert.KernelIdeal.Gen.k0_pay3 (F := Ideal)
        (Cert.KernelIdeal.Gen.k0_pay2 (F := Ideal) (Cert.KernelIdeal.Gen.k0_pay1 (F := Ideal) (blockOf c X)) v0 v2) v1
      = colmax X := by
  rw [← kernel_eq' X c, ← h0, ← h1, ← h2]
  rfl

/-- info: 'Cert.ColMax.kernel_eq'' depends on axioms: [propext, Classical.choice, Quot.sound] -/
#guard_msgs in #print axioms kernel_eq'

/-- info: 'Cert.ColMax.kernel_eq' depends on axioms: [propext, Classical.choice, Quot.sound] -/
#guard_msgs in #print axioms kernel_eq

end Cert.ColMax

end
-- ==== Proof.RefValue.lean ====
/-
  The reference's result, a maximum-reduction over the rows from −∞ broadcast to one row, is the
  column-wise maximum of its argument: at column t both are below a bound exactly when every entry
  of column t is.
-/
import proofs.«900927_g7700000000000928_dist_max_ax0_shard0_i_m512_n256_v7x_i4_f32_1_alg».proof.Proof.Gen.ReferenceIdeal.Run
import proofs.«900927_g7700000000000928_dist_max_ax0_shard0_i_m512_n256_v7x_i4_f32_1_alg».proof.Proof.Gen.ReferenceIdeal.Read
import proofs.«900927_g7700000000000928_dist_max_ax0_shard0_i_m512_n256_v7x_i4_f32_1_alg».proof.Proof.ColMax
import Idealize.ShloMosaic.PureOps.Reduce

noncomputable section

namespace Cert.ColMax

open Idealize.ShloMosaic Idealize.ShloMosaic.ValueIdx

/-- A fold of the ideal maximum from b is below a bound exactly when b and every entry are. -/
theorem fold_maximumf_le {ι : Type} (s : Finset ι) (b : EReal) (f : ι → EReal) (z : EReal) :
    s.fold (FloatOps.maximumf (F := Ideal) (φ := .f32)) b f ≤ z ↔ b ≤ z ∧ ∀ x ∈ s, f x ≤ z :=
  Finset.fold_max_le z

/-- The reference's result term (the one its run ends with) is the column-wise maximum of its argument. -/
theorem ref_eq (X : (⟨2, ![2048, 256]⟩ : Shape).Idx → EReal) :
    broadcastInDim Cert.ReferenceIdeal.S1x256 ![1] Cert.ReferenceIdeal.Gen.bcast_S256_S1x256_1
        (Host.reduce (FloatOps.maximumf (F := Ideal) (φ := .f32)) X
          (constant (F := Ideal) Cert.ReferenceIdeal.S_ .f32 0xFF800000#32)
          Cert.ReferenceIdeal.Gen.reducesTo_S2048x256_S256_d0 Cert.ReferenceIdeal.Gen.h_S_)
      = colmax X := by
  funext j
  obtain ⟨u, t, rfl⟩ : ∃ (u : Fin 1) (t : Fin 256), j = ix2 u t := ⟨j 0, j 1, eq_ix2 j⟩
  refine eq_of_forall_ge_iff fun z => ?_
  rw [colmax_le]
  have hred : Cert.ReferenceIdeal.S2048x256.Reduces [0] Cert.ReferenceIdeal.S256 := by decide
  have hidx : Cert.ReferenceIdeal.Read.idx_main_v1 (ix2 u t) = ix1 t := by
    funext a
    match a with
    | ⟨0, _⟩ => rfl
  rw [Cert.ReferenceIdeal.Read.val_main_v1_eq, Cert.ReferenceIdeal.Read.val_main_v1_apply, hidx]
  unfold Cert.ReferenceIdeal.Read.val_main_v0
  refine (iff_of_eq (congrArg (fun w : EReal => w ≤ z)
    (Host.reduce_eq_fold_single (FloatOps.maximumf (F := Ideal) (φ := .f32)) X _
      Cert.ReferenceIdeal.Gen.reducesTo_S2048x256_S256_d0 hred Cert.ReferenceIdeal.Gen.h_S_ (ix1 t)))).trans ?_
  refine (fold_maximumf_le _ _ _ z).trans ⟨fun H R => ?_, fun H => ⟨?_, fun R _ => ?_⟩⟩
  · exact (congrArg X (lift_rows hred t R)).symm.trans_le (H.2 R (Finset.mem_univ _))
  · exact (ofBits_neg_inf).trans_le bot_le
  · exact (congrArg X (lift_rows hred t R)).trans_le (H R)

/-- info: 'Cert.ColMax.ref_eq' depends on axioms: [propext, Classical.choice, Quot.sound] -/
#guard_msgs in #print axioms ref_eq

end Cert.ColMax

end
-- ==== Proof.Claims.lean ====
/-
  The five conjuncts of the claim, from the runs. Each device's staged block of x is its whole argument
  array; its result is the maximum of its own row of column maxima with the rows of the three other
  devices, each the column maxima of that device's block; the maximum over all 2048 rows of a column is the
  maximum of the four maxima over the blocks of 512 rows, which is what the reference computes of the
  whole array. The frames are the runs with the values dropped.
-/
import proofs.«900927_g7700000000000928_dist_max_ax0_shard0_i_m512_n256_v7x_i4_f32_1_alg».proof.Defs
import proofs.«900927_g7700000000000928_dist_max_ax0_shard0_i_m512_n256_v7x_i4_f32_1_alg».proof.Proof.Launch
import proofs.«900927_g7700000000000928_dist_max_ax0_shard0_i_m512_n256_v7x_i4_f32_1_alg».proof.Proof.KLaunch
import proofs.«900927_g7700000000000928_dist_max_ax0_shard0_i_m512_n256_v7x_i4_f32_1_alg».proof.Proof.RefValue
import proofs.«900927_g7700000000000928_dist_max_ax0_shard0_i_m512_n256_v7x_i4_f32_1_alg».proof.Proof.Gen.Pre_finite_inputs_Kernel
import proofs.«900927_g7700000000000928_dist_max_ax0_shard0_i_m512_n256_v7x_i4_f32_1_alg».proof.Proof.Gen.Pre_finite_inputs_ReferenceIdeal

noncomputable section

namespace Cert.Proof.Claims

open Idealize.ShloMosaic Idealize.SL.Sem
open Cert.Mesh4

/-- The one block of the window of x is the whole array: what is staged is the device's argument array. -/
theorem xstg_eq {F : FTy → Type} [FloatOps F]
    (m : (ℓ : Loc Cert.KernelIdeal.nD Cert.KernelIdeal.τ Cert.KernelIdeal.sig) → Buf (Elt F) ℓ) (ρ : Dev Cert.KernelIdeal.nD → PrngReg)
    (c : Dev Cert.KernelIdeal.nD) :
    Cert.KernelIdealProof.xstg m ρ c = m ((c.tc : Thread Cert.KernelIdeal.nD Cert.KernelIdeal.τ).loc Cert.KernelIdeal.main_arg0) :=
  Memref.read_access_unit_zero (Elt F) Cert.KernelIdeal.main_arg0 (funext fun a => by fin_cases a <;> rfl) _ _

/-- A device's row of column maxima is the column maxima of its block of the whole array. -/
theorem localv_eq (m : (ℓ : Loc Cert.KernelIdeal.nD Cert.KernelIdeal.τ Cert.KernelIdeal.sig) → Buf (Elt Ideal) ℓ) (ρ : Dev Cert.KernelIdeal.nD → PrngReg)
    (X : (⟨2, ![2048, 256]⟩ : Shape).Idx → EReal)
    (hagree : ∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c X)
    (c : Dev Cert.KernelIdeal.nD) :
    Cert.KernelIdealProof.localv m ρ c = Cert.KernelIdeal.Gen.k0_pay1 (F := Ideal) (Cert.ColMax.blockOf c X) := by
  unfold Cert.KernelIdealProof.localv
  rw [xstg_eq, hagree c]

/-- A device's result is the column-wise maximum of the whole array. -/
theorem outAt_eq (m : (ℓ : Loc Cert.KernelIdeal.nD Cert.KernelIdeal.τ Cert.KernelIdeal.sig) → Buf (Elt Ideal) ℓ) (ρ : Dev Cert.KernelIdeal.nD → PrngReg)
    (X : (⟨2, ![2048, 256]⟩ : Shape).Idx → EReal)
    (hagree : ∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c X)
    (c : Dev Cert.KernelIdeal.nD) :
    Cert.KernelIdealProof.outAt m ρ c = Cert.ColMax.colmax X := by
  unfold Cert.KernelIdealProof.outAt Cert.KernelIdealProof.combine
  rw [localv_eq m ρ X hagree c, localv_eq m ρ X hagree (bwd 0 c), localv_eq m ρ X hagree (bwd 2 c), localv_eq m ρ X hagree (bwd 1 c)]
  exact Cert.ColMax.kernel_eq' X c

/-- The word-level program runs and leaves its argument arrays unchanged. -/
theorem frame_p : Cert.frame_Kernel := fun m ρ _ =>
  (θ_run Cert.Kernel.defs _ _).mono (fun r h c => ((h c) 0).trans (Cert.KernelProof.finalA_x m ρ c)) (Cert.KernelProof.run_main (F := Bits) m ρ)

/-- The ideal program runs and leaves its argument arrays unchanged. -/
theorem frame_pi : Cert.frame_KernelIdeal := fun m ρ _ =>
  (θ_run Cert.KernelIdeal.defs _ _).mono (fun r h c => ((h c) 0).trans (Cert.KernelIdealProof.finalA_x m ρ c)) (Cert.KernelIdealProof.run_main (F := Ideal) m ρ)

/-- The reference runs and leaves its argument array unchanged. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories where each device holds its block of 512 rows of the reference's array: both
    run, every device's result and the reference's are the column-wise maximum of the whole array, and the arguments of
    both end unchanged. -/
theorem algebraic : Cert.algebraic_KernelIdeal_ReferenceIdeal := by
  intro m ρ m' ρ' _ hagree
  refine ⟨Cert.ColMax.colmax (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun r h c => ⟨((h c) 1).trans ((Cert.KernelIdealProof.finalA_out m ρ c).trans (outAt_eq m ρ _ hagree c)),
        ((h c) 0).trans (Cert.KernelIdealProof.finalA_x m ρ c)⟩)
      (Cert.KernelIdealProof.run_main (F := Ideal) m ρ)
  · exact (θ_run Cert.ReferenceIdeal.defs _ _).mono
      (fun _ h => ⟨(h 0).1.trans (Cert.ColMax.ref_eq _), (h 0).2⟩)
      (Cert.ReferenceIdeal.Value.run (F := Ideal) m' ρ')

/-- info: 'Cert.Proof.Claims.outAt_eq' depends on axioms: [propext, Classical.choice, Quot.sound] -/
#guard_msgs in #print axioms outAt_eq

/-- info: 'Cert.Proof.Claims.frame_ri' depends on axioms: [propext, Classical.choice, Quot.sound] -/
#guard_msgs in #print axioms frame_ri

end Cert.Proof.Claims

end
-- ==== Proof.lean ====
/- Each of the four devices takes the column maxima of its block of 512 rows of x, exchanges its row of maxima with the
   three other devices after a handshake on their barrier semaphores, and folds the four rows with the maximum. That is the
   reference's column-wise maximum of the whole array of 2048 rows: the maximum over all rows of a column is the maximum
   of the four maxima over the blocks. The argument arrays are never written. -/
import proofs.«900927_g7700000000000928_dist_max_ax0_shard0_i_m512_n256_v7x_i4_f32_1_alg».proof.Defs
import proofs.«900927_g7700000000000928_dist_max_ax0_shard0_i_m512_n256_v7x_i4_f32_1_alg».proof.Proof.Gen.Kernel
import proofs.«900927_g7700000000000928_dist_max_ax0_shard0_i_m512_n256_v7x_i4_f32_1_alg».proof.Proof.Gen.Kernel.Skeleton
import proofs.«900927_g7700000000000928_dist_max_ax0_shard0_i_m512_n256_v7x_i4_f32_1_alg».proof.Proof.Gen.Kernel.Launch
import proofs.«900927_g7700000000000928_dist_max_ax0_shard0_i_m512_n256_v7x_i4_f32_1_alg».proof.Proof.Gen.Kernel.Points
import proofs.«900927_g7700000000000928_dist_max_ax0_shard0_i_m512_n256_v7x_i4_f32_1_alg».proof.Proof.Gen.Kernel.Frame
import proofs.«900927_g7700000000000928_dist_max_ax0_shard0_i_m512_n256_v7x_i4_f32_1_alg».proof.Proof.Gen.KernelIdeal
import proofs.«900927_g7700000000000928_dist_max_ax0_shard0_i_m512_n256_v7x_i4_f32_1_alg».proof.Proof.Gen.KernelIdeal.Skeleton
import proofs.«900927_g7700000000000928_dist_max_ax0_shard0_i_m512_n256_v7x_i4_f32_1_alg».proof.Proof.Gen.KernelIdeal.Launch
import proofs.«900927_g7700000000000928_dist_max_ax0_shard0_i_m512_n256_v7x_i4_f32_1_alg».proof.Proof.Gen.KernelIdeal.Points
import proofs.«900927_g7700000000000928_dist_max_ax0_shard0_i_m512_n256_v7x_i4_f32_1_alg».proof.Proof.Gen.KernelIdeal.Frame
import proofs.«900927_g7700000000000928_dist_max_ax0_shard0_i_m512_n256_v7x_i4_f32_1_alg».proof.Proof.Gen.ReferenceIdeal
import proofs.«900927_g7700000000000928_dist_max_ax0_shard0_i_m512_n256_v7x_i4_f32_1_alg».proof.Proof.Gen.Pre_finite_inputs_Kernel
import proofs.«900927_g7700000000000928_dist_max_ax0_shard0_i_m512_n256_v7x_i4_f32_1_alg».proof.Proof.Gen.Pre_finite_inputs_ReferenceIdeal
import proofs.«900927_g7700000000000928_dist_max_ax0_shard0_i_m512_n256_v7x_i4_f32_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Claims.frame_p, Claims.frame_pi, Claims.frame_ri, trivial, Claims.algebraic⟩

end Cert.Proof

end
